-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x4 : Shape := ⟨2, ![500000, 4]⟩
abbrev S288x4 : Shape := ⟨2, ![288, 4]⟩
abbrev S288 : Shape := ⟨1, ![288]⟩
abbrev S288x288 : Shape := ⟨2, ![288, 288]⟩
abbrev S_ : Shape := ⟨0, ![]⟩

class Facts : Prop where
  bcast_S_S500000x4 : S_.BroadcastsInDim S500000x4 (![] : Fin 0 → Fin S500000x4.rank)
  reducesTo_S500000x4_S_d0_1 : S500000x4.ReducesTo [0, 1] S_
  h_S_ : 0 < S_.numel
  bcast_S_S288x4 : S_.BroadcastsInDim S288x4 (![] : Fin 0 → Fin S288x4.rank)
  reducesTo_S288x4_S_d0_1 : S288x4.ReducesTo [0, 1] S_
  bcast_S_S288 : S_.BroadcastsInDim S288 (![] : Fin 0 → Fin S288.rank)
  reducesTo_S288_S_d0 : S288.ReducesTo [0] S_
  bcast_S_S288x288 : S_.BroadcastsInDim S288x288 (![] : Fin 0 → Fin S288x288.rank)
  reducesTo_S288x288_S_d0_1 : S288x288.ReducesTo [0, 1] S_

variable [Facts]

def fn_part1 {F : FTy → Type} [FloatOps F] (main_arg4 : FVec F S288 .f32) (main_arg5 : FVec F S288x288 .f32) (main_arg6 : FVec F S288 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S288 .f32 := Host.absf main_arg4
  let main_cst_6 : FVec F S_ .f32 := constant S_ .f32 0x7F800000#32
  let main_v20 : FVec F S288 .f32 := broadcastInDim S288 ![] bcast_S_S288 main_cst_6
  let main_v21 : IVec S288 1 := cmpf .olt main_v19 main_v20
  let main_c_7 : IVec S_ 1 := constantI S_ 1 1#1
  let main_v22 : IVec S_ 1 := (fun x v => Host.reduce IntOp.andi x v reducesTo_S288_S_d0 h_S_) main_v21 main_c_7
  let main_v23 : IVec S_ 1 := andi main_v18 main_v22
  let main_v24 : FVec F S288x288 .f32 := Host.absf main_arg5
  let main_cst_8 : FVec F S_ .f32 := constant S_ .f32 0x7F800000#32
  let main_v25 : FVec F S288x288 .f32 := broadcastInDim S288x288 ![] bcast_S_S288x288 main_cst_8
  let main_v26 : IVec S288x288 1 := cmpf .olt main_v24 main_v25
  let main_c_9 : IVec S_ 1 := constantI S_ 1 1#1
  let main_v27 : IVec S_ 1 := (fun x v => Host.reduce IntOp.andi x v reducesTo_S288x288_S_d0_1 h_S_) main_v26 main_c_9
  let main_v28 : IVec S_ 1 := andi main_v23 main_v27
  let main_v29 : FVec F S288 .f32 := Host.absf main_arg6
  let main_cst_10 : FVec F S_ .f32 := constant S_ .f32 0x7F800000#32
  let main_v30 : FVec F S288 .f32 := broadcastInDim S288 ![] bcast_S_S288 main_cst_10
  let main_v31 : IVec S288 1 := cmpf .olt main_v29 main_v30
  let main_c_11 : IVec S_ 1 := constantI S_ 1 1#1
  let main_v32 : IVec S_ 1 := (fun x v => Host.reduce IntOp.andi x v reducesTo_S288_S_d0 h_S_) main_v31 main_c_11
  let main_v33 : IVec S_ 1 := andi main_v28 main_v32
  main_v33

def fn {F : FTy → Type} [FloatOps F] (main_arg0 : FVec F S500000x4 .f32) (main_arg1 : FVec F S288x4 .f32) (main_arg2 : FVec F S288 .f32) (main_arg3 : FVec F S288 .f32) (main_arg4 : FVec F S288 .f32) (main_arg5 : FVec F S288x288 .f32) (main_arg6 : FVec F S288 .f32) : IVec S_ 1 :=
  let main_v0 : FVec F S500000x4 .f32 := Host.absf main_arg0
  let main_cst : FVec F S_ .f32 := constant S_ .f32 0x7F800000#32
  let main_v1 : FVec F S500000x4 .f32 := broadcastInDim S500000x4 ![] bcast_S_S500000x4 main_cst
  let main_v2 : IVec S500000x4 1 := cmpf .olt main_v0 main_v1
  let main_c : IVec S_ 1 := constantI S_ 1 1#1
  let main_v3 : IVec S_ 1 := (fun x v => Host.reduce IntOp.andi x v reducesTo_S500000x4_S_d0_1 h_S_) main_v2 main_c
  let main_v4 : FVec F S288x4 .f32 := Host.absf main_arg1
  let main_cst_0 : FVec F S_ .f32 := constant S_ .f32 0x7F800000#32
  let main_v5 : FVec F S288x4 .f32 := broadcastInDim S288x4 ![] bcast_S_S288x4 main_cst_0
  let main_v6 : IVec S288x4 1 := cmpf .olt main_v4 main_v5
  let main_c_1 : IVec S_ 1 := constantI S_ 1 1#1
  let main_v7 : IVec S_ 1 := (fun x v => Host.reduce IntOp.andi x v reducesTo_S288x4_S_d0_1 h_S_) main_v6 main_c_1
  let main_v8 : IVec S_ 1 := andi main_v3 main_v7
  let main_v9 : FVec F S288 .f32 := Host.absf main_arg2
  let main_cst_2 : FVec F S_ .f32 := constant S_ .f32 0x7F800000#32
  let main_v10 : FVec F S288 .f32 := broadcastInDim S288 ![] bcast_S_S288 main_cst_2
  let main_v11 : IVec S288 1 := cmpf .olt main_v9 main_v10
  let main_c_3 : IVec S_ 1 := constantI S_ 1 1#1
  let main_v12 : IVec S_ 1 := (fun x v => Host.reduce IntOp.andi x v reducesTo_S288_S_d0 h_S_) main_v11 main_c_3
  let main_v13 : IVec S_ 1 := andi main_v8 main_v12
  let main_v14 : FVec F S288 .f32 := Host.absf main_arg3
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg4 main_arg5 main_arg6 main_v13 main_v16
-- ==== Kernel.lean ====
abbrev S500000x4 : Shape := ⟨2, ![500000, 4]⟩
abbrev S288x4 : Shape := ⟨2, ![288, 4]⟩
abbrev S288 : Shape := ⟨1, ![288]⟩
abbrev S288x288 : Shape := ⟨2, ![288, 288]⟩
abbrev S4x288 : Shape := ⟨2, ![4, 288]⟩
abbrev S1x288 : Shape := ⟨2, ![1, 288]⟩
abbrev S5000x4 : Shape := ⟨2, ![5000, 4]⟩
abbrev S5000x288 : Shape := ⟨2, ![5000, 288]⟩
abbrev S_ : Shape := ⟨0, ![]⟩
abbrev S500000x288 : Shape := ⟨2, ![500000, 288]⟩
abbrev S4000x4 : Shape := ⟨2, ![4000, 4]⟩
abbrev S4000x288 : Shape := ⟨2, ![4000, 288]⟩

abbrev nBuf : Space → Nat
  | .hbm => 31
  | .vmem => 18
  | .smem => 0
  | _ => 0

abbrev bufTy : (tb : Table) → Fin (tcTables nBuf tb) → BufTy
  | .hbm, ⟨0, _⟩ => ⟨S500000x4, .f32⟩
  | .hbm, ⟨1, _⟩ => ⟨S288x4, .f32⟩
  | .hbm, ⟨2, _⟩ => ⟨S288, .f32⟩
  | .hbm, ⟨3, _⟩ => ⟨S288, .f32⟩
  | .hbm, ⟨4, _⟩ => ⟨S288, .f32⟩
  | .hbm, ⟨5, _⟩ => ⟨S288x288, .f32⟩
  | .hbm, ⟨6, _⟩ => ⟨S288, .f32⟩
  | .hbm, ⟨7, _⟩ => ⟨S4x288, .f32⟩
  | .hbm, ⟨8, _⟩ => ⟨S288x288, .f32⟩
  | .hbm, ⟨9, _⟩ => ⟨S1x288, .f32⟩
  | .hbm, ⟨10, _⟩ => ⟨S1x288, .f32⟩
  | .hbm, ⟨11, _⟩ => ⟨S1x288, .f32⟩
  | .hbm, ⟨12, _⟩ => ⟨S1x288, .f32⟩
  | .hbm, ⟨13, _⟩ => ⟨S_, .f32⟩
  | .hbm, ⟨14, _⟩ => ⟨S1x288, .f32⟩
  | .hbm, ⟨15, _⟩ => ⟨S1x288, .f32⟩
  | .hbm, ⟨16, _⟩ => ⟨S_, .f32⟩
  | .hbm, ⟨17, _⟩ => ⟨S1x288, .f32⟩
  | .hbm, ⟨18, _⟩ => ⟨S1x288, .f32⟩
  | .hbm, ⟨19, _⟩ => ⟨S1x288, .f32⟩
  | .hbm, ⟨20, _⟩ => ⟨S1x288, .f32⟩
  | .hbm, ⟨21, _⟩ => ⟨S1x288, .f32⟩
  | .hbm, ⟨22, _⟩ => ⟨S_, .f32⟩
  | .hbm, ⟨23, _⟩ => ⟨S1x288, .f32⟩
  | .hbm, ⟨24, _⟩ => ⟨S1x288, .f32⟩
  | .hbm, ⟨25, _⟩ => ⟨S1x288, .f32⟩
  | .hbm, ⟨26, _⟩ => ⟨S1x288, .f32⟩
  | .hbm, ⟨27, _⟩ => ⟨S1x288, .f32⟩
  | .hbm, ⟨28, _⟩ => ⟨S1x288, .f32⟩
  | .hbm, ⟨29, _⟩ => ⟨S1x288, .f32⟩
  | .hbm, ⟨30, _⟩ => ⟨S500000x288, .f32⟩
  | .local _ .vmem, ⟨0, _⟩ => ⟨S5000x4, .f32⟩
  | .local _ .vmem, ⟨1, _⟩ => ⟨S5000x4, .f32⟩
  | .local _ .vmem, ⟨2, _⟩ => ⟨S4x288, .f32⟩
  | .local _ .vmem, ⟨3, _⟩ => ⟨S1x288, .f32⟩
  | .local _ .vmem, ⟨4, _⟩ => ⟨S1x288, .f32⟩
  | .local _ .vmem, ⟨5, _⟩ => ⟨S1x288, .f32⟩
  | .local _ .vmem, ⟨6, _⟩ => ⟨S1x288, .f32⟩
  | .local _ .vmem, ⟨7, _⟩ => ⟨S1x288, .f32⟩
  | .local _ .vmem, ⟨8, _⟩ => ⟨S4000x4, .f32⟩
  | .local _ .vmem, ⟨9, _⟩ => ⟨S4000x4, .f32⟩
  | .local _ .vmem, ⟨10, _⟩ => ⟨S4x288, .f32⟩
  | .local _ .vmem, ⟨11, _⟩ => ⟨S1x288, .f32⟩
  | .local _ .vmem, ⟨12, _⟩ => ⟨S1x288, .f32⟩
  | .local _ .vmem, ⟨13, _⟩ => ⟨S1x288, .f32⟩
  | .local _ .vmem, ⟨14, _⟩ => ⟨S288x288, .f32⟩
  | .local _ .vmem, ⟨15, _⟩ => ⟨S1x288, .f32⟩
  | .local _ .vmem, ⟨16, _⟩ => ⟨S4000x288, .f32⟩
  | .local _ .vmem, ⟨17, _⟩ => ⟨S4000x288, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v28 : BitVec 1 := Scalar.cmpi .eq arg0 c99_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x288 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x288 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S288x288 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x288 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x288 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S288x4_S4x288_1_0 : S288x4.Transposes [1, 0] S4x288
  transposes_S288x288_S288x288_1_0 : S288x288.Transposes [1, 0] S288x288
  shapeCasts_S288_S1x288 : S288.ShapeCasts S1x288
  inb_S1x288_S1x288_0_0 : ∀ a, (![0, 0] : Fin 2 → Nat) a + S1x288.size a ≤ S1x288.size a
  h_S1x288 : 0 < S1x288.numel
  shapeCasts_S1x288_S1x288 : S1x288.ShapeCasts S1x288
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x288_S4x288_0_0 : ∀ a, (![0, 0] : Fin 2 → Nat) a + S4x288.size a ≤ S4x288.size a
  h_S4x288 : 0 < S4x288.numel
  shapeCasts_S4x288_S4x288 : S4x288.ShapeCasts S4x288
  broadcasts_S1x288_S5000x288 : S1x288.Broadcasts S5000x288
  reduces_S5000x288_S288 : S5000x288.Reduces [0] S288
  bcast_S_S1x288 : S_.BroadcastsInDim S1x288 (![] : Fin 0 → Fin S1x288.rank)
  inb_S4000x4_S4000x4_0_0 : ∀ a, (![0, 0] : Fin 2 → Nat) a + S4000x4.size a ≤ S4000x4.size a
  h_S4000x4 : 0 < S4000x4.numel
  broadcasts_S1x288_S4000x288 : S1x288.Broadcasts S4000x288
  inb_S288x288_S288x288_0_0 : ∀ a, (![0, 0] : Fin 2 → Nat) a + S288x288.size a ≤ S288x288.size a
  h_S288x288 : 0 < S288x288.numel
  shapeCasts_S288x288_S288x288 : S288x288.ShapeCasts S288x288
  inb_S4000x288_S4000x288_0_0 : ∀ a, (![0, 0] : Fin 2 → Nat) a + S4000x288.size a ≤ S4000x288.size a
  h_S4000x288 : 0 < S4000x288.numel
  dot_S5000x4_S4x288_S5000x288_1_0_0_1_n_n_wf : DotDims.WF S5000x4 S4x288 S5000x288 [1] [0] [0] [1] [] []
  dot_S4000x4_S4x288_S4000x288_1_0_0_1_n_n_wf : DotDims.WF S4000x4 S4x288 S4000x288 [1] [0] [0] [1] [] []
  dot_S4000x288_S288x288_S4000x288_1_0_0_1_n_n_wf : DotDims.WF S4000x288 S288x288 S4000x288 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S500000x4.size a
  hwx0_0 : ∀ i : grid0.Coords, EltTy.bits .f32 = 32 ∨ (Rect.block (s := S500000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x288.size a ≤ S4x288.size a
  hwx0_1 : ∀ i : grid0.Coords, EltTy.bits .f32 = 32 ∨ (Rect.block (s := S4x288) S4x288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x288.size a ≤ S1x288.size a
  hwx0_2 : ∀ i : grid0.Coords, EltTy.bits .f32 = 32 ∨ (Rect.block (s := S1x288) S1x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x288.size a ≤ S1x288.size a
  hwx0_4 : ∀ i : grid0.Coords, EltTy.bits .f32 = 32 ∨ (Rect.block (s := S1x288) S1x288.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S500000x4.size a
  hwx1_0 : ∀ i : grid1.Coords, EltTy.bits .f32 = 32 ∨ (Rect.block (s := S500000x4) S4000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x288.size a ≤ S4x288.size a
  hwx1_1 : ∀ i : grid1.Coords, EltTy.bits .f32 = 32 ∨ (Rect.block (s := S4x288) S4x288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x288.size a ≤ S1x288.size a
  hwx1_2 : ∀ i : grid1.Coords, EltTy.bits .f32 = 32 ∨ (Rect.block (s := S1x288) S1x288.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x288.size a ≤ S1x288.size a
  hwx1_3 : ∀ i : grid1.Coords, EltTy.bits .f32 = 32 ∨ (Rect.block (s := S1x288) S1x288.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x288.size a ≤ S1x288.size a
  hwx1_4 : ∀ i : grid1.Coords, EltTy.bits .f32 = 32 ∨ (Rect.block (s := S1x288) S1x288.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S288x288.size a ≤ S288x288.size a
  hwx1_5 : ∀ i : grid1.Coords, EltTy.bits .f32 = 32 ∨ (Rect.block (s := S288x288) S288x288.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x288.size a ≤ S1x288.size a
  hwx1_6 : ∀ i : grid1.Coords, EltTy.bits .f32 = 32 ∨ (Rect.block (s := S1x288) S1x288.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x288.size a ≤ S500000x288.size a
  hwx1_7 : ∀ i : grid1.Coords, EltTy.bits .f32 = 32 ∨ (Rect.block (s := S500000x288) S4000x288.size (cc1_transform_7 i) (hinb1_7 i)).WholeWords (EltTy.packing .f32)

variable [Facts₀]

def dot_S5000x4_S4x288_S5000x288_1_0_0_1_n_n : DotDims S5000x4 S4x288 S5000x288 where
  lhsContracting := [1]
  rhsContracting := [0]
  lhsNonContracting := [0]
  rhsNonContracting := [1]
  lhsBatch := []
  rhsBatch := []
  wf := dot_S5000x4_S4x288_S5000x288_1_0_0_1_n_n_wf
def dot_S4000x4_S4x288_S4000x288_1_0_0_1_n_n : DotDims S4000x4 S4x288 S4000x288 where
  lhsContracting := [1]
  rhsContracting := [0]
  lhsNonContracting := [0]
  rhsNonContracting := [1]
  lhsBatch := []
  rhsBatch := []
  wf := dot_S4000x4_S4x288_S4000x288_1_0_0_1_n_n_wf
def dot_S4000x288_S288x288_S4000x288_1_0_0_1_n_n : DotDims S4000x288 S288x288 S4000x288 where
  lhsContracting := [1]
  rhsContracting := [0]
  lhsNonContracting := [0]
  rhsNonContracting := [1]
  lhsBatch := []
  rhsBatch := []
  wf := dot_S4000x288_S288x288_S4000x288_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x288.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x288.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4x288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x288.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x288.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x288.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S288x288.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x288.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S4000x288.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S500000x4 : Shape := ⟨2, ![500000, 4]⟩
abbrev S288x4 : Shape := ⟨2, ![288, 4]⟩
abbrev S288 : Shape := ⟨1, ![288]⟩
abbrev S288x288 : Shape := ⟨2, ![288, 288]⟩
abbrev S4x288 : Shape := ⟨2, ![4, 288]⟩
abbrev S500000x288 : Shape := ⟨2, ![500000, 288]⟩
abbrev S1x288 : Shape := ⟨2, ![1, 288]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S500000x4, .f32⟩
  | .hbm, ⟨1, _⟩ => ⟨S288x4, .f32⟩
  | .hbm, ⟨2, _⟩ => ⟨S288, .f32⟩
  | .hbm, ⟨3, _⟩ => ⟨S288, .f32⟩
  | .hbm, ⟨4, _⟩ => ⟨S288, .f32⟩
  | .hbm, ⟨5, _⟩ => ⟨S288x288, .f32⟩
  | .hbm, ⟨6, _⟩ => ⟨S288, .f32⟩
  | .hbm, ⟨7, _⟩ => ⟨S4x288, .f32⟩
  | .hbm, ⟨8, _⟩ => ⟨S500000x288, .f32⟩
  | .hbm, ⟨9, _⟩ => ⟨S1x288, .f32⟩
  | .hbm, ⟨10, _⟩ => ⟨S500000x288, .f32⟩
  | .hbm, ⟨11, _⟩ => ⟨S500000x288, .f32⟩
  | .hbm, ⟨12, _⟩ => ⟨S_, .f32⟩
  | .hbm, ⟨13, _⟩ => ⟨S288, .f32⟩
  | .hbm, ⟨14, _⟩ => ⟨S_, .f32⟩
  | .hbm, ⟨15, _⟩ => ⟨S288, .f32⟩
  | .hbm, ⟨16, _⟩ => ⟨S288, .f32⟩
  | .hbm, ⟨17, _⟩ => ⟨S1x288, .f32⟩
  | .hbm, ⟨18, _⟩ => ⟨S500000x288, .f32⟩
  | .hbm, ⟨19, _⟩ => ⟨S500000x288, .f32⟩
  | .hbm, ⟨20, _⟩ => ⟨S500000x288, .f32⟩
  | .hbm, ⟨21, _⟩ => ⟨S_, .f32⟩
  | .hbm, ⟨22, _⟩ => ⟨S288, .f32⟩
  | .hbm, ⟨23, _⟩ => ⟨S_, .f32⟩
  | .hbm, ⟨24, _⟩ => ⟨S288, .f32⟩
  | .hbm, ⟨25, _⟩ => ⟨S288, .f32⟩
  | .hbm, ⟨26, _⟩ => ⟨S1x288, .f32⟩
  | .hbm, ⟨27, _⟩ => ⟨S500000x288, .f32⟩
  | .hbm, ⟨28, _⟩ => ⟨S500000x288, .f32⟩
  | .hbm, ⟨29, _⟩ => ⟨S_, .f32⟩
  | .hbm, ⟨30, _⟩ => ⟨S288, .f32⟩
  | .hbm, ⟨31, _⟩ => ⟨S288, .f32⟩
  | .hbm, ⟨32, _⟩ => ⟨S288, .f32⟩
  | .hbm, ⟨33, _⟩ => ⟨S288, .f32⟩
  | .hbm, ⟨34, _⟩ => ⟨S1x288, .f32⟩
  | .hbm, ⟨35, _⟩ => ⟨S500000x288, .f32⟩
  | .hbm, ⟨36, _⟩ => ⟨S500000x288, .f32⟩
  | .hbm, ⟨37, _⟩ => ⟨S1x288, .f32⟩
  | .hbm, ⟨38, _⟩ => ⟨S500000x288, .f32⟩
  | .hbm, ⟨39, _⟩ => ⟨S500000x288, .f32⟩
  | .hbm, ⟨40, _⟩ => ⟨S_, .f32⟩
  | .hbm, ⟨41, _⟩ => ⟨S500000x288, .f32⟩
  | .hbm, ⟨42, _⟩ => ⟨S500000x288, .f32⟩
  | .hbm, ⟨43, _⟩ => ⟨S288x288, .f32⟩
  | .hbm, ⟨44, _⟩ => ⟨S500000x288, .f32⟩
  | .hbm, ⟨45, _⟩ => ⟨S1x288, .f32⟩
  | .hbm, ⟨46, _⟩ => ⟨S500000x288, .f32⟩
  | .hbm, ⟨47, _⟩ => ⟨S500000x288, .f32⟩
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S288x4_S4x288_1_0 : S288x4.Transposes [1, 0] S4x288
  bcast_S288_S1x288_1 : S288.BroadcastsInDim S1x288 (![1] : Fin 1 → Fin S1x288.rank)
  bcast_S1x288_S500000x288_0_1 : S1x288.BroadcastsInDim S500000x288 (![0, 1] : Fin 2 → Fin S500000x288.rank)
  reducesTo_S500000x288_S288_d0 : S500000x288.ReducesTo [0] S288
  h_S_ : 0 < S_.numel
  bcast_S_S288 : S_.BroadcastsInDim S288 (![] : Fin 0 → Fin S288.rank)
  bcast_S_S500000x288 : S_.BroadcastsInDim S500000x288 (![] : Fin 0 → Fin S500000x288.rank)
  transposes_S288x288_S288x288_1_0 : S288x288.Transposes [1, 0] S288x288
  dot_S500000x4_S4x288_S500000x288_1_0_0_1_n_n_wf : DotDims.WF S500000x4 S4x288 S500000x288 [1] [0] [0] [1] [] []
  dot_S500000x288_S288x288_S500000x288_1_0_0_1_n_n_wf : DotDims.WF S500000x288 S288x288 S500000x288 [1] [0] [0] [1] [] []

variable [Facts₀]

def dot_S500000x4_S4x288_S500000x288_1_0_0_1_n_n : DotDims S500000x4 S4x288 S500000x288 where
  lhsContracting := [1]
  rhsContracting := [0]
  lhsNonContracting := [0]
  rhsNonContracting := [1]
  lhsBatch := []
  rhsBatch := []
  wf := dot_S500000x4_S4x288_S500000x288_1_0_0_1_n_n_wf
def dot_S500000x288_S288x288_S500000x288_1_0_0_1_n_n : DotDims S500000x288 S288x288 S500000x288 where
  lhsContracting := [1]
  rhsContracting := [0]
  lhsNonContracting := [0]
  rhsNonContracting := [1]
  lhsBatch := []
  rhsBatch := []
  wf := dot_S500000x288_S288x288_S500000x288_1_0_0_1_n_n_wf

class Facts : Prop extends Facts₀ where

variable [Facts]
-- ==== Proof.LibWholeStore.lean ====
/-
  Two facts about a buffer written and read through its whole rectangle.

  A kernel body that stores a value over a whole rank-2 buffer (offsets (0, 0), the buffer's own sizes) and later reads the
  buffer back through the same rectangle sees the stored value: the one piece covers every index, so what the buffer
  held before does not matter; and a load through that rectangle of any contents is those contents.
-/
import Idealize.ShloMosaic.Lib.Pipeline.FrameBody
import Idealize.ShloMosaic.Lib.Pipeline.Value

noncomputable section

namespace Cert.Lib

open Idealize.ShloMosaic

/-- The offsets (0, 0) of a rank-2 rectangle are the zero offsets. -/
theorem zeros2 : (![0, 0] : Fin 2 → Nat) = fun _ => 0 := by
  funext a; fin_cases a <;> rfl

/-- A buffer written whole by ONE store at zero offsets reads back as the stored value, whatever it held before. -/
theorem read_one_store {sig : RefSig} {κ : Kind} {sp : Space} {S : Shape} {e : EltTy} {Val : EltTy → Type} [∀ e, Nonempty (Val e)]
    (v : View sig κ sp S e) (f : v.ty.Contents Val) {off : Fin S.rank → Nat} (hz : off = fun _ => 0)
    (inb : ∀ a, off a + S.size a ≤ S.size a) (p : S.Idx → Val e) :
    v.read Val (v.writes Val f [⟨Rect.unit off S.size inb, p⟩]) = p := by
  rw [View.read_writes_eq_canon _ _ _ (fun y => ⟨_, List.mem_singleton_self _, View.mem_set_unit_zero hz inb y⟩),
    View.canon_unit_zero hz]

/-- The LAST of several stores, when it writes the buffer whole at zero offsets, is what the buffer reads back as. -/
theorem read_last_store {sig : RefSig} {κ : Kind} {sp : Space} {S : Shape} {e : EltTy} {Val : EltTy → Type} [∀ e, Nonempty (Val e)]
    (v : View sig κ sp S e) (f : v.ty.Contents Val) {off : Fin S.rank → Nat} (hz : off = fun _ => 0)
    (inb : ∀ a, off a + S.size a ≤ S.size a) (p : S.Idx → Val e) (L : List (View.Piece Val S e)) :
    v.read Val (v.writes Val f (⟨Rect.unit off S.size inb, p⟩ :: L)) = p := by
  rw [View.read_writes_eq_canon _ _ _ (fun y => ⟨_, List.mem_cons_self .., View.mem_set_unit_zero hz inb y⟩),
    View.canon_cons_unit_zero hz]

end Cert.Lib

end
-- ==== Proof.StatsBody.lean ====
/-
  The statistics pass at one grid point.  Its body reads a tile of 5000 points, the transposed first-layer weights and
  the bias, forms the tile's linear layer `h`, and adds the tile's column sums of `h` and of `h·h` to two running rows
  kept in scratch between grid points.  At the first point the two rows are first reset to zero; at the last point the
  two rows are also copied into the two result blocks; at every other point the result blocks are left as found.
  Each case below states what the seven buffers hold afterwards: the three inputs and (off the last point) the two
  result blocks unchanged, the running rows at "previous row + this tile's column sums".
-/
import proofs.«120336_j14070312862123_1_alg».proof.Proof.Gen.KernelIdeal.Launch
import proofs.«120336_j14070312862123_1_alg».proof.Proof.Gen.KernelIdeal.Skeleton
import proofs.«120336_j14070312862123_1_alg».proof.Proof.Gen.KernelIdeal.Points
import proofs.«120336_j14070312862123_1_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first: the reset branch is taken. -/
abbrev isFirst (i : grid0.Coords) : Prop :=
  Scalar.cmpi .ne (Scalar.extui (Scalar.cmpi .eq (BitVec.ofNat 32 (i 0).val) 0#32)) 0#32 = 1#1
/-- The grid point is the last: the write-out branch is taken. -/
abbrev isLast (i : grid0.Coords) : Prop := k0_cond2 i = 1#1

set_option maxHeartbeats 1000000 in
/-- A point that is neither first nor last: both running rows advance by the tile's column sums. -/
theorem stats_mid (c : Dev nD) (E : Set ℕ) (i : grid0.Coords) (hfirst : ¬ isFirst i) (hlast : ¬ isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare (k0_pay4 x w b s) ∗ owns (c : Thread nD τ) arg7 fullShare (k0_pay5 x w b q)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    rw [Cert.Lib.read_one_store _ _ Cert.Lib.zeros2]
    simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]
  · iexists _; isplitr
    swap; · iexact H7
    ipureintro
    rw [Cert.Lib.read_one_store _ _ Cert.Lib.zeros2]
    simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]

set_option maxHeartbeats 1000000 in
/-- The first point: both running rows are reset to zero and then advanced by the tile's column sums. -/
theorem stats_first (c : Dev nD) (E : Set ℕ) (i : grid0.Coords) (hfirst : isFirst i) (hlast : ¬ isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare (k0_pay4 x w b k0_pay1) ∗ owns (c : Thread nD τ) arg7 fullShare (k0_pay5 x w b k0_pay2)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    sl_unfold_words
    rw [Cert.Lib.read_last_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  · iexists _; isplitr
    swap; · iexact H7
    ipureintro
    sl_unfold_words
    rw [Cert.Lib.read_last_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]

set_option maxHeartbeats 1000000 in
/-- The last point: both running rows advance, and the two result blocks receive the advanced rows. -/
theorem stats_last (c : Dev nD) (E : Set ℕ) (i : grid0.Coords) (hfirst : ¬ isFirst i) (hlast : isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare (k0_pay4 x w b s) ∗ owns (c : Thread nD τ) arg5 fullShare (k0_pay5 x w b q) ∗ owns (c : Thread nD τ) arg6 fullShare (k0_pay4 x w b s) ∗ owns (c : Thread nD τ) arg7 fullShare (k0_pay5 x w b q)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists _; isplitr
    swap; · iexact H4
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  isplitl [H5]
  · iexists _; isplitr
    swap; · iexact H5
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  isplitl [H6]
  · iexists _; isplitr
    swap; · iexact H6
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  · iexists _; isplitr
    swap; · iexact H7
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]

end Cert.KernelIdeal.Gen

end
-- ==== Proof.StatsDat.lean ====
/-
  The statistics pass over its 100 tiles.  Tile `t` reads rows 5000·t … 5000·t+4999 of the points and the transposed
  weights and bias whole.  Two rows of 288 numbers are carried in scratch from tile to tile: after tile `n` they hold
  the column sums of the linear layer `h`, and of `h·h`, over tiles 0 … n — started from zero at tile 0, each later tile
  adding its own column sums (`rowsAfter`).  The two result blocks are written once, at the last tile, with the final
  rows; before that the pass leaves them as it found them.  The region's invariant therefore says, from the second
  tile on, what the two scratch rows hold (`PhiStats`); before the first tile they hold anything.
-/
import proofs.«120336_j14070312862123_1_alg».proof.Proof.Gen.KernelIdeal.Launch
import proofs.«120336_j14070312862123_1_alg».proof.Proof.Gen.KernelIdeal.Skeleton
import proofs.«120336_j14070312862123_1_alg».proof.Proof.Gen.KernelIdeal.Points
import proofs.«120336_j14070312862123_1_alg».proof.Proof.StatsBody
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running rows after tile `n`: column sums of `h` and of `h·h` over tiles 0 … n, each tile adding its own to
    what the tile before left, tile 0 to zero. -/
def rowsAfter (c : Dev nD) : (n : ℕ) → n < cfg0.N → Vec F S1x288 .f32 × Vec F S1x288 .f32
  | 0, h => (k0_pay4 (sblk V c 0 ⟨0, h⟩) (sblk V c 1 ⟨0, h⟩) (sblk V c 2 ⟨0, h⟩) k0_pay1,
             k0_pay5 (sblk V c 0 ⟨0, h⟩) (sblk V c 1 ⟨0, h⟩) (sblk V c 2 ⟨0, h⟩) k0_pay2)
  | n + 1, h => (k0_pay4 (sblk V c 0 ⟨n + 1, h⟩) (sblk V c 1 ⟨n + 1, h⟩) (sblk V c 2 ⟨n + 1, h⟩) (rowsAfter c n (Nat.lt_of_succ_lt h)).1,
                 k0_pay5 (sblk V c 0 ⟨n + 1, h⟩) (sblk V c 1 ⟨n + 1, h⟩) (sblk V c 2 ⟨n + 1, h⟩) (rowsAfter c n (Nat.lt_of_succ_lt h)).2)

theorem rowsAfter_zero (c : Dev nD) (h : 0 < cfg0.N) :
    rowsAfter V c 0 h = (k0_pay4 (sblk V c 0 ⟨0, h⟩) (sblk V c 1 ⟨0, h⟩) (sblk V c 2 ⟨0, h⟩) k0_pay1,
             k0_pay5 (sblk V c 0 ⟨0, h⟩) (sblk V c 1 ⟨0, h⟩) (sblk V c 2 ⟨0, h⟩) k0_pay2) := rfl
theorem rowsAfter_succ (c : Dev nD) (n : ℕ) (h : n + 1 < cfg0.N) :
    rowsAfter V c (n + 1) h = (k0_pay4 (sblk V c 0 ⟨n + 1, h⟩) (sblk V c 1 ⟨n + 1, h⟩) (sblk V c 2 ⟨n + 1, h⟩) (rowsAfter V c n (Nat.lt_of_succ_lt h)).1,
                 k0_pay5 (sblk V c 0 ⟨n + 1, h⟩) (sblk V c 1 ⟨n + 1, h⟩) (sblk V c 2 ⟨n + 1, h⟩) (rowsAfter V c n (Nat.lt_of_succ_lt h)).2) := rfl

/-- The two scratch rows, as whole buffers. -/
abbrev sumRow : Memref sig .tc .vmem S1x288 .f32 := Memref.whole cc0_scratch0
abbrev sqRow : Memref sig .tc .vmem S1x288 .f32 := Memref.whole cc0_scratch1

/-- The core's other scoped buffers that this pass does not stage: the later pass's staging buffers, at anything. -/
abbrev otherScoped (c : Dev nD) : sProp 𝕄 :=
  Pipeline.scopedRestBut (Ix := Unit) (Name := ℕ) (U := UR sig nD τ) (Lvl := ℕ) (Val := Elt F) spec0 c [cc0_scratch0, cc0_scratch1]

/-- Before tile `n`: nothing known of the scratch before the first tile; afterwards the two rows at `rowsAfter (n − 1)`. -/
def PhiStats (c : Dev nD) : (n : ℕ) → n ≤ cfg0.N → sProp 𝕄
  | 0, _ => Pipeline.ΦA spec0 c
  | n + 1, h => iprop(owns (c : Thread nD τ) sumRow fullShare (rowsAfter V c n h).1
      ∗ owns (c : Thread nD τ) sqRow fullShare (rowsAfter V c n h).2 ∗ otherScoped c ∗ ∃ r, prngReg c r)

theorem PhiStats_zero (c : Dev nD) (h : 0 ≤ cfg0.N) : PhiStats V c 0 h = Pipeline.ΦA spec0 c := rfl
theorem PhiStats_succ (c : Dev nD) (n : ℕ) (h : n + 1 ≤ cfg0.N) :
    PhiStats V c (n + 1) h = iprop(owns (c : Thread nD τ) sumRow fullShare (rowsAfter V c n h).1
      ∗ owns (c : Thread nD τ) sqRow fullShare (rowsAfter V c n h).2 ∗ otherScoped c ∗ ∃ r, prngReg c r) := rfl

/-- The class invariant with the two scratch rows named: each at some contents, beside the other scoped buffers and the
    generator register. -/
theorem PhiA_rows (c : Dev nD) :
    (Pipeline.ΦA spec0 c : sProp 𝕄)
      = iprop((((∃ d, owns (c : Thread nD τ) sumRow fullShare d) ∗ (∃ d, owns (c : Thread nD τ) sqRow fullShare d)) ∗ otherScoped c)
          ∗ ∃ r, prngReg c r) := by
  unfold Pipeline.ΦA
  rw [Pipeline.scopedRest_split_of_list spec0 c [cc0_scratch0, cc0_scratch1] (by decide) (by decide)]
  simp only [sumRow, sqRow, owns_whole]
  rfl

/-- The statistics pass's proof data. -/
def statsDat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => (rowsAfter V c t.val t.isLt).1
    | ⟨4, _⟩ => (rowsAfter V c t.val t.isLt).2
  Φ t := PhiStats V c t.val (Nat.le_of_lt_succ t.isLt)
  q _ := fullShare
  owed _ := 0

theorem statsDat_A (c : Dev nD) (w : Fin cfg0.W) : (statsDat V c).A w = V c (Pipeline.arrRef spec0 w) := by
  dsimp only [statsDat]

theorem stats_after_0 (c : Dev nD) (t : Fin cfg0.N) : (statsDat V c).after 0 t = sblk V c 0 t := by dsimp only [statsDat]
/-- Input window 0's staging buffer holds its block at every point, fetched there or kept since its last fetch. -/
theorem stats_before_0 (c : Dev nD) (t : Fin cfg0.N) (d) : (statsDat V c).before 0 t d = sblk V c 0 t :=
  ((statsDat V c).before_in_eq_fetched 0 rfl (fun _ => rfl) (fun _ _ _ => rfl)
    (fun t => by rw [stats_after_0]; unfold Dat.blockOf sblk; rw [statsDat_A]; try rfl) t d).trans
    (by unfold Dat.fetched Dat.blockOf sblk; rw [statsDat_A]; try rfl)
theorem stats_after_1 (c : Dev nD) (t : Fin cfg0.N) : (statsDat V c).after 1 t = sblk V c 1 t := by dsimp only [statsDat]
/-- Input window 1's staging buffer holds its block at every point, fetched there or kept since its last fetch. -/
theorem stats_before_1 (c : Dev nD) (t : Fin cfg0.N) (d) : (statsDat V c).before 1 t d = sblk V c 1 t :=
  ((statsDat V c).before_in_eq_fetched 1 rfl (fun _ => rfl) (fun _ _ _ => rfl)
    (fun t => by rw [stats_after_1]; unfold Dat.blockOf sblk; rw [statsDat_A]; try rfl) t d).trans
    (by unfold Dat.fetched Dat.blockOf sblk; rw [statsDat_A]; try rfl)
theorem stats_after_2 (c : Dev nD) (t : Fin cfg0.N) : (statsDat V c).after 2 t = sblk V c 2 t := by dsimp only [statsDat]
/-- Input window 2's staging buffer holds its block at every point, fetched there or kept since its last fetch. -/
theorem stats_before_2 (c : Dev nD) (t : Fin cfg0.N) (d) : (statsDat V c).before 2 t d = sblk V c 2 t :=
  ((statsDat V c).before_in_eq_fetched 2 rfl (fun _ => rfl) (fun _ _ _ => rfl)
    (fun t => by rw [stats_after_2]; unfold Dat.blockOf sblk; rw [statsDat_A]; try rfl) t d).trans
    (by unfold Dat.fetched Dat.blockOf sblk; rw [statsDat_A]; try rfl)
theorem stats_after_3 (c : Dev nD) (t : Fin cfg0.N) : (statsDat V c).after 3 t = (rowsAfter V c t.val t.isLt).1 := by dsimp only [statsDat]
theorem stats_after_4 (c : Dev nD) (t : Fin cfg0.N) : (statsDat V c).after 4 t = (rowsAfter V c t.val t.isLt).2 := by dsimp only [statsDat]

/-! ### Which tile is first, which last, and where the result blocks are idle -/

theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 99 :=
  (by decide +kernel : ∀ t : Fin grid0.N, isLast (grid0.coords t) ↔ t.val = 99)
theorem idle_sum : ∀ t : Fin cfg0.N, t.val ≠ 99 → cfg0.idle 3 (grid0.coords t) = true := by decide +kernel
theorem idle_sq : ∀ t : Fin cfg0.N, t.val ≠ 99 → cfg0.idle 4 (grid0.coords t) = true := by decide +kernel
theorem live_sum : ∀ t : Fin cfg0.N, t.val = 99 → cfg0.idle 3 (grid0.coords t) = false := by decide +kernel
theorem live_sq : ∀ t : Fin cfg0.N, t.val = 99 → cfg0.idle 4 (grid0.coords t) = false := by decide +kernel
theorem noflush_sum : ∀ t : Fin cfg0.N, t.val ≠ 99 → (cfg0.win 3).flush t = false := by decide +kernel
theorem noflush_sq : ∀ t : Fin cfg0.N, t.val ≠ 99 → (cfg0.win 4).flush t = false := by decide +kernel

/-- What the body is handed at tile `t` … -/
def statsPre (c : Dev nD) (t : Fin cfg0.N) : sProp 𝕄 :=
  iprop((statsDat V c).Φ t.castSucc ∗ (statsDat V c).owesAt () t.castSucc
    ∗ (∃ d, owns (c : Thread nD τ) (st0_0 t) fullShare ((statsDat V c).before 0 t d))
    ∗ (∃ d, owns (c : Thread nD τ) (st0_1 t) fullShare ((statsDat V c).before 1 t d))
    ∗ (∃ d, owns (c : Thread nD τ) (st0_2 t) fullShare ((statsDat V c).before 2 t d))
    ∗ (∃ d, owns (c : Thread nD τ) (st0_3 t) fullShare ((statsDat V c).before 3 t d))
    ∗ (∃ d, owns (c : Thread nD τ) (st0_4 t) fullShare ((statsDat V c).before 4 t d)))

/-- … and what it hands back: the invariant of the next tile, and each buffer at what the pass leaves in it. -/
def statsPost (c : Dev nD) (t : Fin cfg0.N) : sProp 𝕄 :=
  iprop((statsDat V c).Φ t.succ ∗ (statsDat V c).owesAt () t.succ
    ∗ (statsDat V c).leavesExact 0 t
    ∗ (statsDat V c).leavesExact 1 t
    ∗ (statsDat V c).leavesExact 2 t
    ∗ (statsDat V c).leavesExact 3 t
    ∗ (statsDat V c).leavesExact 4 t)

set_option maxHeartbeats 4000000 in
theorem stats_at (c : Dev nD) (t : Fin cfg0.N) :
    statsPre V c t ⊢ wp frame (wpE (defs₀ (F := F)) Variants.none c none) Set.univ (bodyAt0 t) (fun _ => statsPost V c t) := by
  unfold statsPre statsPost bodyAt0
  simp only [stats_before_0, stats_before_1, stats_before_2]
  rw [show (statsDat V c).owesAt () t.succ = (statsDat V c).owesAt () t.castSucc from rfl,
    show (statsDat V c).leavesExact 0 t = owns (c : Thread nD τ) (st0_0 t) fullShare ((statsDat V c).after 0 t) from rfl,
    show (statsDat V c).leavesExact 1 t = owns (c : Thread nD τ) (st0_1 t) fullShare ((statsDat V c).after 1 t) from rfl,
    show (statsDat V c).leavesExact 2 t = owns (c : Thread nD τ) (st0_2 t) fullShare ((statsDat V c).after 2 t) from rfl,
    stats_after_0, stats_after_1, stats_after_2]
  obtain ⟨n, hn⟩ := t
  cases n with
  | zero =>
    -- the first tile: the scratch rows hold anything; they are reset, then advanced
    have hf : isFirst (grid0.coords ⟨0, hn⟩) := (first_iff ⟨0, hn⟩).mpr rfl
    have hl : ¬ isLast (grid0.coords ⟨0, hn⟩) := fun h => absurd ((last_iff ⟨0, hn⟩).mp h) (by show ¬ (0 : ℕ) = 99; decide)
    have h99 : (⟨0, hn⟩ : Fin cfg0.N).val ≠ 99 := by show (0 : ℕ) ≠ 99; decide
    rw [Dat.leavesExact_idle (statsDat V c) 3 ⟨0, hn⟩ (idle_sum ⟨0, hn⟩ h99) (noflush_sum ⟨0, hn⟩ h99),
      Dat.leavesExact_idle (statsDat V c) 4 ⟨0, hn⟩ (idle_sq ⟨0, hn⟩ h99) (noflush_sq ⟨0, hn⟩ h99)]
    rw [show (statsDat V c).Φ (Fin.castSucc ⟨0, hn⟩) = Pipeline.ΦA spec0 c from rfl, PhiA_rows,
      show (statsDat V c).Φ (Fin.succ ⟨0, hn⟩) = PhiStats V c (0 + 1) hn from rfl, PhiStats_succ, rowsAfter_zero]
    iintro ⟨⟨⟨⟨⟨%s, Hs⟩, ⟨%q, Hq⟩⟩, Hoth⟩, Hg⟩, Ho, ⟨%d0, H0⟩, ⟨%d1, H1⟩, ⟨%d2, H2⟩, ⟨%d3, H3⟩, ⟨%d4, H4⟩⟩
    iapply (stats_first c Set.univ (grid0.coords ⟨0, hn⟩) hf hl _ _ _ _ _ _ _ _ _ _ _ _ _ _
      (sblk V c 0 ⟨0, hn⟩) (sblk V c 1 ⟨0, hn⟩) (sblk V c 2 ⟨0, hn⟩) _ _ s q _)
    isplitl [H0]; · iexact H0
    isplitl [H1]; · iexact H1
    isplitl [H2]; · iexact H2
    isplitl [H3]; · iexact H3
    isplitl [H4]; · iexact H4
    isplitl [Hs]; · iexact Hs
    isplitl [Hq]; · iexact Hq
    iintro ⟨H0, H1, H2, H3, H4, Hs, Hq⟩
    isplitl [Hs Hq Hoth Hg]
    · isplitl [Hs]; · iexact Hs
      isplitl [Hq]; · iexact Hq
      isplitl [Hoth]; · iexact Hoth
      iexact Hg
    isplitl [Ho]; · iexact Ho
    isplitl [H0]; · iexact H0
    isplitl [H1]; · iexact H1
    isplitl [H2]; · iexact H2
    isplitl [H3]; · iexists d3; iexact H3
    iexists d4; iexact H4
  | succ n =>
    have hf : ¬ isFirst (grid0.coords ⟨n + 1, hn⟩) := fun h => absurd ((first_iff ⟨n + 1, hn⟩).mp h) (Nat.succ_ne_zero n)
    rw [show (statsDat V c).Φ (Fin.castSucc ⟨n + 1, hn⟩) = PhiStats V c (n + 1) (Nat.le_of_lt hn) from rfl, PhiStats_succ,
      show (statsDat V c).Φ (Fin.succ ⟨n + 1, hn⟩) = PhiStats V c (n + 1 + 1) hn from rfl, PhiStats_succ, rowsAfter_succ V c n hn]
    by_cases h99 : n + 1 = 99
    · -- the last tile: the rows advance and are copied into the two result blocks
      have hl : isLast (grid0.coords ⟨n + 1, hn⟩) := (last_iff ⟨n + 1, hn⟩).mpr h99
      rw [show (statsDat V c).leavesExact 3 ⟨n + 1, hn⟩ = owns (c : Thread nD τ) (st0_3 ⟨n + 1, hn⟩) fullShare ((statsDat V c).after 3 ⟨n + 1, hn⟩) from by
            unfold Dat.leavesExact; rw [live_sum ⟨n + 1, hn⟩ h99],
        show (statsDat V c).leavesExact 4 ⟨n + 1, hn⟩ = owns (c : Thread nD τ) (st0_4 ⟨n + 1, hn⟩) fullShare ((statsDat V c).after 4 ⟨n + 1, hn⟩) from by
            unfold Dat.leavesExact; rw [live_sq ⟨n + 1, hn⟩ h99],
        stats_after_3, stats_after_4, rowsAfter_succ V c n hn]
      iintro ⟨⟨Hs, Hq, Hoth, Hg⟩, Ho, ⟨%d0, H0⟩, ⟨%d1, H1⟩, ⟨%d2, H2⟩, ⟨%d3, H3⟩, ⟨%d4, H4⟩⟩
      iapply (stats_last c Set.univ (grid0.coords ⟨n + 1, hn⟩) hf hl _ _ _ _ _ _ _ _ _ _ _ _ _ _
        (sblk V c 0 ⟨n + 1, hn⟩) (sblk V c 1 ⟨n + 1, hn⟩) (sblk V c 2 ⟨n + 1, hn⟩) _ _
        (rowsAfter V c n (Nat.lt_of_succ_lt hn)).1 (rowsAfter V c n (Nat.lt_of_succ_lt hn)).2 _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hoth Hg]
      · isplitl [Hs]; · iexact Hs
        isplitl [Hq]; · iexact Hq
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a middle tile: the rows advance; the result blocks are left as found
      have hl : ¬ isLast (grid0.coords ⟨n + 1, hn⟩) := fun h => h99 ((last_iff ⟨n + 1, hn⟩).mp h)
      rw [Dat.leavesExact_idle (statsDat V c) 3 ⟨n + 1, hn⟩ (idle_sum ⟨n + 1, hn⟩ h99) (noflush_sum ⟨n + 1, hn⟩ h99),
        Dat.leavesExact_idle (statsDat V c) 4 ⟨n + 1, hn⟩ (idle_sq ⟨n + 1, hn⟩ h99) (noflush_sq ⟨n + 1, hn⟩ h99)]
      iintro ⟨⟨Hs, Hq, Hoth, Hg⟩, Ho, ⟨%d0, H0⟩, ⟨%d1, H1⟩, ⟨%d2, H2⟩, ⟨%d3, H3⟩, ⟨%d4, H4⟩⟩
      iapply (stats_mid c Set.univ (grid0.coords ⟨n + 1, hn⟩) hf hl _ _ _ _ _ _ _ _ _ _ _ _ _ _
        (sblk V c 0 ⟨n + 1, hn⟩) (sblk V c 1 ⟨n + 1, hn⟩) (sblk V c 2 ⟨n + 1, hn⟩) _ _
        (rowsAfter V c n (Nat.lt_of_succ_lt hn)).1 (rowsAfter V c n (Nat.lt_of_succ_lt hn)).2 _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hoth Hg]
      · isplitl [Hs]; · iexact Hs
        isplitl [Hq]; · iexact Hq
        isplitl [Hoth]; · iexact Hoth
        iexact Hg
      isplitl [Ho]; · iexact Ho
      isplitl [H0]; · iexact H0
      isplitl [H1]; · iexact H1
      isplitl [H2]; · iexact H2
      isplitl [H3]; · iexists d3; iexact H3
      iexists d4; iexact H4

/-- The body obligation of the statistics pass, at every tile. -/
theorem stats_obligation (c : Dev nD) : BodyObligation (statsDat (F := F) V c) (defs₀ (F := F)) Variants.none () Set.univ := fun t => by
  rw [bigSep_W0, bigSep_W0]
  exact stats_at V c t

/-- Entering the region: before the first tile the invariant is the class's. -/
theorem stats_enter (c : Dev nD) : Pipeline.ΦA spec0 c ⊢ (statsDat V c).Φ 0 := by
  rw [show (statsDat V c).Φ 0 = PhiStats V c 0 (Nat.zero_le _) from rfl, PhiStats_zero]

/-- Leaving it: after the last tile the two rows' contents are forgotten. -/
theorem stats_leave (c : Dev nD) : (statsDat V c).Φ (Fin.last cfg0.N) ⊢ Pipeline.ΦA spec0 c := by
  rw [show (statsDat V c).Φ (Fin.last cfg0.N) = PhiStats V c (99 + 1) (by decide) from rfl, PhiStats_succ, PhiA_rows]
  iintro ⟨Hs, Hq, Hoth, Hg⟩
  isplitl [Hs Hq Hoth]
  · isplitl [Hs Hq]
    · isplitl [Hs]
      · iexists _; iexact Hs
      iexists _; iexact Hq
    iexact Hoth
  iexact Hg

end Cert.KernelIdeal.Gen

end
-- ==== Proof.MainBody.lean ====
/-
  The main pass at one grid point.  Its body reads a tile of 4000 points, the transposed first-layer weights and bias,
  the normalisation's scale and shift rows, the transposed second-layer weights and its bias, and writes into the
  tile's result block `max (h · scale + shift) 0` times the second-layer weights plus its bias — the one value the
  body's arithmetic denotes.  All seven inputs are left as found.
-/
import proofs.«120336_j14070312862123_1_alg».proof.Proof.Gen.KernelIdeal.Launch
import proofs.«120336_j14070312862123_1_alg».proof.Proof.Gen.KernelIdeal.Skeleton
import proofs.«120336_j14070312862123_1_alg».proof.Proof.Gen.KernelIdeal.Points
import proofs.«120336_j14070312862123_1_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers: the result block ends at the body's value of the seven inputs. -/
theorem main_point (c : Dev nD) (E : Set ℕ) (i : grid1.Coords)
    (arg1 : Memref sig .tc .vmem S4000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S288x288 .f32) (harg6 : arg6.IsWhole)
    (arg7 : Memref sig .tc .vmem S1x288 .f32) (harg7 : arg7.IsWhole) (arg8 : Memref sig .tc .vmem S4000x288 .f32) (harg8 : arg8.IsWhole)
    (x : Vec F S4000x4 .f32) (w : Vec F S4x288 .f32) (b sc sh : Vec F S1x288 .f32) (w2 : Vec F S288x288 .f32) (b2 : Vec F S1x288 .f32)
    (y : Vec F S4000x288 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare sc ∗ owns (c : Thread nD τ) arg5 fullShare sh ∗ owns (c : Thread nD τ) arg6 fullShare w2
        ∗ owns (c : Thread nD τ) arg7 fullShare b2 ∗ owns (c : Thread nD τ) arg8 fullShare y
        ∗ (iprop(owns (c : Thread nD τ) arg1 fullShare x ∗ owns (c : Thread nD τ) arg2 fullShare w ∗ owns (c : Thread nD τ) arg3 fullShare b
            ∗ owns (c : Thread nD τ) arg4 fullShare sc ∗ owns (c : Thread nD τ) arg5 fullShare sh ∗ owns (c : Thread nD τ) arg6 fullShare w2
            ∗ owns (c : Thread nD τ) arg7 fullShare b2 ∗ owns (c : Thread nD τ) arg8 fullShare (k1_pay1 x w b sc sh w2 b2)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  iexists _; isplitr
  swap; · iexact H8
  ipureintro
  rw [Cert.Lib.read_one_store _ _ Cert.Lib.zeros2]
  simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]

end Cert.KernelIdeal.Gen

end
-- ==== Proof.MainDat.lean ====
/-
  The main pass over its 125 tiles.  Tile `t` reads rows 4000·t … 4000·t+3999 of the points and the six small arrays
  whole (the transposed weights, the bias, the normalisation's scale and shift rows, the second layer's transposed
  weights and bias), and its result block is the body's value of those.  Nothing is carried between tiles, so the
  region's invariant is "the scratch and the generator register at anything" throughout.
-/
import proofs.«120336_j14070312862123_1_alg».proof.Proof.Gen.KernelIdeal.Launch
import proofs.«120336_j14070312862123_1_alg».proof.Proof.Gen.KernelIdeal.Skeleton
import proofs.«120336_j14070312862123_1_alg».proof.Proof.Gen.KernelIdeal.Points
import proofs.«120336_j14070312862123_1_alg».proof.Proof.MainBody
import Idealize.ShloMosaic.Lib.Pipeline.FrameBody
import Idealize.ShloMosaic.Lib.Pipeline.Frame
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile `t`'s result block: the body's value of the tile's points and the six small arrays. -/
def tileOut (c : Dev nD) (t : Fin cfg1.N) : Vec F S4000x288 .f32 :=
  k1_pay1 (mblk V c 0 t) (mblk V c 1 t) (mblk V c 2 t) (mblk V c 3 t) (mblk V c 4 t) (mblk V c 5 t) (mblk V c 6 t)

/-- The main pass's proof data: arrays as found; every input block left in place, the result block at `tileOut`. -/
def mainDat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => mblk V c 4 t
    | ⟨5, _⟩ => mblk V c 5 t
    | ⟨6, _⟩ => mblk V c 6 t
    | ⟨7, _⟩ => tileOut V c t
  Φ _ := Pipeline.ΦA spec1 c
  q _ := fullShare
  owed _ := 0

theorem mainDat_A (c : Dev nD) (w : Fin cfg1.W) : (mainDat V c).A w = V c (Pipeline.arrRef spec1 w) := by
  dsimp only [mainDat]

theorem main_after_0 (c : Dev nD) (t : Fin cfg1.N) : (mainDat V c).after 0 t = mblk V c 0 t := by dsimp only [mainDat]
/-- Input window 0's staging buffer holds its block at every tile, fetched there or kept since its last fetch. -/
theorem main_before_0 (c : Dev nD) (t : Fin cfg1.N) (d) : (mainDat V c).before 0 t d = mblk V c 0 t :=
  ((mainDat V c).before_in_eq_fetched 0 rfl (fun _ => rfl) (fun _ _ _ => rfl)
    (fun t => by rw [main_after_0]; unfold Dat.blockOf mblk; rw [mainDat_A]; try rfl) t d).trans
    (by unfold Dat.fetched Dat.blockOf mblk; rw [mainDat_A]; try rfl)
theorem main_after_1 (c : Dev nD) (t : Fin cfg1.N) : (mainDat V c).after 1 t = mblk V c 1 t := by dsimp only [mainDat]
/-- Input window 1's staging buffer holds its block at every tile, fetched there or kept since its last fetch. -/
theorem main_before_1 (c : Dev nD) (t : Fin cfg1.N) (d) : (mainDat V c).before 1 t d = mblk V c 1 t :=
  ((mainDat V c).before_in_eq_fetched 1 rfl (fun _ => rfl) (fun _ _ _ => rfl)
    (fun t => by rw [main_after_1]; unfold Dat.blockOf mblk; rw [mainDat_A]; try rfl) t d).trans
    (by unfold Dat.fetched Dat.blockOf mblk; rw [mainDat_A]; try rfl)
theorem main_after_2 (c : Dev nD) (t : Fin cfg1.N) : (mainDat V c).after 2 t = mblk V c 2 t := by dsimp only [mainDat]
/-- Input window 2's staging buffer holds its block at every tile, fetched there or kept since its last fetch. -/
theorem main_before_2 (c : Dev nD) (t : Fin cfg1.N) (d) : (mainDat V c).before 2 t d = mblk V c 2 t :=
  ((mainDat V c).before_in_eq_fetched 2 rfl (fun _ => rfl) (fun _ _ _ => rfl)
    (fun t => by rw [main_after_2]; unfold Dat.blockOf mblk; rw [mainDat_A]; try rfl) t d).trans
    (by unfold Dat.fetched Dat.blockOf mblk; rw [mainDat_A]; try rfl)
theorem main_after_3 (c : Dev nD) (t : Fin cfg1.N) : (mainDat V c).after 3 t = mblk V c 3 t := by dsimp only [mainDat]
/-- Input window 3's staging buffer holds its block at every tile, fetched there or kept since its last fetch. -/
theorem main_before_3 (c : Dev nD) (t : Fin cfg1.N) (d) : (mainDat V c).before 3 t d = mblk V c 3 t :=
  ((mainDat V c).before_in_eq_fetched 3 rfl (fun _ => rfl) (fun _ _ _ => rfl)
    (fun t => by rw [main_after_3]; unfold Dat.blockOf mblk; rw [mainDat_A]; try rfl) t d).trans
    (by unfold Dat.fetched Dat.blockOf mblk; rw [mainDat_A]; try rfl)
theorem main_after_4 (c : Dev nD) (t : Fin cfg1.N) : (mainDat V c).after 4 t = mblk V c 4 t := by dsimp only [mainDat]
/-- Input window 4's staging buffer holds its block at every tile, fetched there or kept since its last fetch. -/
theorem main_before_4 (c : Dev nD) (t : Fin cfg1.N) (d) : (mainDat V c).before 4 t d = mblk V c 4 t :=
  ((mainDat V c).before_in_eq_fetched 4 rfl (fun _ => rfl) (fun _ _ _ => rfl)
    (fun t => by rw [main_after_4]; unfold Dat.blockOf mblk; rw [mainDat_A]; try rfl) t d).trans
    (by unfold Dat.fetched Dat.blockOf mblk; rw [mainDat_A]; try rfl)
theorem main_after_5 (c : Dev nD) (t : Fin cfg1.N) : (mainDat V c).after 5 t = mblk V c 5 t := by dsimp only [mainDat]
/-- Input window 5's staging buffer holds its block at every tile, fetched there or kept since its last fetch. -/
theorem main_before_5 (c : Dev nD) (t : Fin cfg1.N) (d) : (mainDat V c).before 5 t d = mblk V c 5 t :=
  ((mainDat V c).before_in_eq_fetched 5 rfl (fun _ => rfl) (fun _ _ _ => rfl)
    (fun t => by rw [main_after_5]; unfold Dat.blockOf mblk; rw [mainDat_A]; try rfl) t d).trans
    (by unfold Dat.fetched Dat.blockOf mblk; rw [mainDat_A]; try rfl)
theorem main_after_6 (c : Dev nD) (t : Fin cfg1.N) : (mainDat V c).after 6 t = mblk V c 6 t := by dsimp only [mainDat]
/-- Input window 6's staging buffer holds its block at every tile, fetched there or kept since its last fetch. -/
theorem main_before_6 (c : Dev nD) (t : Fin cfg1.N) (d) : (mainDat V c).before 6 t d = mblk V c 6 t :=
  ((mainDat V c).before_in_eq_fetched 6 rfl (fun _ => rfl) (fun _ _ _ => rfl)
    (fun t => by rw [main_after_6]; unfold Dat.blockOf mblk; rw [mainDat_A]; try rfl) t d).trans
    (by unfold Dat.fetched Dat.blockOf mblk; rw [mainDat_A]; try rfl)
theorem main_after_7 (c : Dev nD) (t : Fin cfg1.N) : (mainDat V c).after 7 t = tileOut V c t := by dsimp only [mainDat]

/-- What the body is handed at tile `t` … -/
def mainPre (c : Dev nD) (t : Fin cfg1.N) : sProp 𝕄 :=
  iprop((mainDat V c).Φ t.castSucc ∗ (mainDat V c).owesAt () t.castSucc
    ∗ (∃ d, owns (c : Thread nD τ) (st1_0 t) fullShare ((mainDat V c).before 0 t d))
    ∗ (∃ d, owns (c : Thread nD τ) (st1_1 t) fullShare ((mainDat V c).before 1 t d))
    ∗ (∃ d, owns (c : Thread nD τ) (st1_2 t) fullShare ((mainDat V c).before 2 t d))
    ∗ (∃ d, owns (c : Thread nD τ) (st1_3 t) fullShare ((mainDat V c).before 3 t d))
    ∗ (∃ d, owns (c : Thread nD τ) (st1_4 t) fullShare ((mainDat V c).before 4 t d))
    ∗ (∃ d, owns (c : Thread nD τ) (st1_5 t) fullShare ((mainDat V c).before 5 t d))
    ∗ (∃ d, owns (c : Thread nD τ) (st1_6 t) fullShare ((mainDat V c).before 6 t d))
    ∗ (∃ d, owns (c : Thread nD τ) (st1_7 t) fullShare ((mainDat V c).before 7 t d)))

/-- … and what it hands back. -/
def mainPost (c : Dev nD) (t : Fin cfg1.N) : sProp 𝕄 :=
  iprop((mainDat V c).Φ t.succ ∗ (mainDat V c).owesAt () t.succ
    ∗ owns (c : Thread nD τ) (st1_0 t) fullShare ((mainDat V c).after 0 t)
    ∗ owns (c : Thread nD τ) (st1_1 t) fullShare ((mainDat V c).after 1 t)
    ∗ owns (c : Thread nD τ) (st1_2 t) fullShare ((mainDat V c).after 2 t)
    ∗ owns (c : Thread nD τ) (st1_3 t) fullShare ((mainDat V c).after 3 t)
    ∗ owns (c : Thread nD τ) (st1_4 t) fullShare ((mainDat V c).after 4 t)
    ∗ owns (c : Thread nD τ) (st1_5 t) fullShare ((mainDat V c).after 5 t)
    ∗ owns (c : Thread nD τ) (st1_6 t) fullShare ((mainDat V c).after 6 t)
    ∗ owns (c : Thread nD τ) (st1_7 t) fullShare ((mainDat V c).after 7 t))

set_option maxHeartbeats 2000000 in
/-- At any tile the seven input buffers hold their blocks, so the body's run applies; the invariant and what the core
    owes pass through untouched. -/
theorem main_at (c : Dev nD) (t : Fin cfg1.N) :
    mainPre V c t ⊢ wp frame (wpE (defs₀ (F := F)) Variants.none c none) Set.univ (bodyAt1 t) (fun _ => mainPost V c t) := by
  unfold mainPre mainPost bodyAt1
  simp only [main_before_0, main_before_1, main_before_2, main_before_3, main_before_4, main_before_5, main_before_6]
  rw [show (mainDat V c).Φ t.succ = (mainDat V c).Φ t.castSucc from rfl,
    show (mainDat V c).owesAt () t.succ = (mainDat V c).owesAt () t.castSucc from rfl,
    main_after_0, main_after_1, main_after_2, main_after_3, main_after_4, main_after_5, main_after_6, main_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (main_point c Set.univ (grid1.coords t) _ _ _ _ _ _ _ _ _ _ _ _ _ _ _ _
    (mblk V c 0 t) (mblk V c 1 t) (mblk V c 2 t) (mblk V c 3 t) (mblk V c 4 t) (mblk V c 5 t) (mblk V c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold tileOut; iexact H7

/-- The body obligation of the main pass, at every tile. -/
theorem main_obligation (c : Dev nD) : BodyObligation (mainDat (F := F) V c) (defs₀ (F := F)) Variants.none () Set.univ := fun t => by
  rw [bigSep_W1, bigSep_W1]
  exact main_at V c t

end Cert.KernelIdeal.Gen

end
-- ==== Proof.Between.lean ====
/-
  The contents of a core's long-lived buffers between the program's four items

      transposes and reshapes;  the statistics pass;  mean, variance, scale and shift;  the main pass.

  At launch they hold the memory; after a host stretch what its operations compute from the contents before; after a
  pass the same contents except for the pass's own arrays, which hold what its tiles wrote back.
-/
import proofs.«120336_j14070312862123_1_alg».proof.Proof.StatsDat
import proofs.«120336_j14070312862123_1_alg».proof.Proof.MainDat
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev mem0 : Dev nD → Valuation τ sig (Elt F) := fun c b => m (c, b)
/-- After the first host stretch: the statistics pass's entry. -/
abbrev memA : Dev nD → Valuation τ sig (Elt F) := fun c => StableHlo.after hostOps0 (mem0 m c)
abbrev inA : (c : Dev nD) → (b : Ref sig .tc) → Buf (Elt F) ((c : Thread nD τ).loc b) := fun c b => memA m c b
/-- After the statistics pass: its arrays at what its tiles wrote back, everything else as entered. -/
def memB (c : Dev nD) : Valuation τ sig (Elt F) :=
  Pipeline.withArrays spec0 c (memA m c) fun w => (statsDat (inA m) c).arrAt w cfg0.N
abbrev outB : (c : Dev nD) → (b : Ref sig .tc) → Buf (Elt F) ((c : Thread nD τ).loc b) := fun c b => memB m c b
/-- After the second host stretch: the main pass's entry. -/
abbrev memC : Dev nD → Valuation τ sig (Elt F) := fun c => StableHlo.after hostOps1 (memB m c)
abbrev inC : (c : Dev nD) → (b : Ref sig .tc) → Buf (Elt F) ((c : Thread nD τ).loc b) := fun c b => memC m c b
/-- After the main pass: the return. -/
def memD (c : Dev nD) : Valuation τ sig (Elt F) :=
  Pipeline.withArrays spec1 c (memC m c) fun w => (mainDat (inC m) c).arrAt w cfg1.N
abbrev outD : (c : Dev nD) → (b : Ref sig .tc) → Buf (Elt F) ((c : Thread nD τ).loc b) := fun c b => memD m c b

theorem memB_array (c : Dev nD) (w : Fin cfg0.W) :
    memB m c (Proc.devRef .tc (Pipeline.arrRef spec0 w)) = (statsDat (inA m) c).arrAt w cfg0.N := by
  unfold memB; exact Pipeline.withArrays_arr spec0 launch0.win.arr_inj c _ _ w
theorem memB_other (c : Dev nD) (b : Ref sig .tc) (hb : ∀ w, Pipeline.arrRef spec0 w ≠ b) :
    memB m c (Proc.devRef .tc b) = memA m c (Proc.devRef .tc b) := by
  unfold memB; exact Pipeline.withArrays_of_ne spec0 c _ _ b hb
theorem memD_array (c : Dev nD) (w : Fin cfg1.W) :
    memD m c (Proc.devRef .tc (Pipeline.arrRef spec1 w)) = (mainDat (inC m) c).arrAt w cfg1.N := by
  unfold memD; exact Pipeline.withArrays_arr spec1 launch1.win.arr_inj c _ _ w
theorem memD_other (c : Dev nD) (b : Ref sig .tc) (hb : ∀ w, Pipeline.arrRef spec1 w ≠ b) :
    memD m c (Proc.devRef .tc b) = memC m c (Proc.devRef .tc b) := by
  unfold memD; exact Pipeline.withArrays_of_ne spec1 c _ _ b hb

end Cert.KernelIdeal.Gen

end
-- ==== Proof.Run.lean ====
/-
  The whole program, from launch to return: two stretches of host operations and the two passes, in order

      transposes and reshapes;  the statistics pass;  mean, variance, scale and shift;  the main pass.

  Between two items every buffer of the core that outlives a region holds a definite array: at launch the memory; after a
  host stretch what its operations compute from the contents before; after a pass the same contents except for the
  pass's own arrays, which hold what its tiles wrote back (`Dat.arrAt` at the last tile).  Each pass is entered with
  those buffers, the generator register and nothing owed; it takes its arrays out of them, runs every tile (the body
  obligation), and puts the arrays back.  At the return every such buffer holds the last of these arrays: in
  particular the seven arguments hold what they held at launch — no host operation writes one and both passes only read
  them — and the result holds what the main pass wrote.
-/
import proofs.«120336_j14070312862123_1_alg».proof.Proof.Between
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both passes, and what rides beside the buffers -/

/-- No pass has a prefetched table. -/
abbrev noTables : (p : Fin 2) → (pcfgs (F := F) p).Adm := fun p => (cfgs p).toPCfg_adm

/-- Each pass's proof data at its own entry contents. -/
def passDat : (p : Fin 2) → (c : Dev nD) → Dat τ (Elt F) Unit ℕ (UR sig nD τ) ℕ (Pipeline.pin (pcfgs (F := F)) noTables p) c
  | ⟨0, _⟩ => fun c => statsDat (inA m) c
  | ⟨1, _⟩ => fun c => mainDat (inC m) c

abbrev noVariants : Variants := Variants.none
/-- No core owes another anything, so no level is assigned. -/
abbrev noPairs : GSem nD τ sig → Finset Unit := fun _ => ∅
abbrev noLevel : GSem nD τ sig → Unit → ℕ := fun _ _ => 0

/-- Beside the buffers: the generator register at some state, and the core owing nothing. -/
abbrev beside (c : Dev nD) : sProp 𝕄 :=
  iprop((∃ r, prngReg c r) ∗ ∃ W, owes (c : Thread nD τ) (0 : CellTallies nD τ sig Unit) W)

/-! ## The two passes as items -/

-- a library lemma stated over the pinned configuration unifies with the printed one only when unification may unfold
-- plain definitions in a metavariable's type
set_option backward.isDefEq.respectTransparency.types false in
/-- The statistics pass: entered from the contents after the first host stretch, left at `memB`. -/
def statsItem : Pipeline.RegionSeg (pcfgs (F := F)) noTables (passDat m) () defs₀ noVariants noPairs noLevel 0 where
  win := launch0.win.to₀
  block_pos := launch0.block_pos
  stage_whole := launch0.stage_whole
  K := PEmpty
  osem k := k.elim
  ho := Pipeline.OwnSemFacts.none _
  hbody c := (stats_obligation (inA m) c).loose
  hwaits := Pipeline.hwaits_of_owed_zero _ _ _ _ noPairs noLevel 0 fun _ _ => rfl
  pre c := iprop(StableHlo.held (c : Thread nD τ) (Pipeline.ucRefs τ sig) (memA m c) ∗ beside c)
  post c := iprop(StableHlo.held (c : Thread nD τ) (Pipeline.ucRefs τ sig) (memB m c) ∗ beside c)
  X c := iprop(∃ r, prngReg c r)
  Y c := iprop(∃ r, prngReg c r)
  Z c := Pipeline.unscopedRest (Ix := Unit) (Name := ℕ) (U := UR sig nD τ) (Lvl := ℕ) spec0 c (inA m c)
  hentry c := by
    -- the pass's arrays come out of the outliving buffers; the rest of them goes round the region
    rw [Pipeline.ownSems0_none]
    have hcarve := Pipeline.arrays_of_unscopedBufs (p := 0) (pcfgs (F := F)) noTables (passDat m) launch0.win launch0.arr_whole c
      ((passDat m 0 c).share_full fun _ => rfl) (inA m c) fun _ => rfl
    rw [Pipeline.unscopedBufs_held] at hcarve
    iintro ⟨⟨Hbufs, Hreg, Howes⟩, -, -⟩
    ihave Hsplit := hcarve $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    -- the generator register and the scratch make the invariant before the first tile
    rw [show (passDat m 0 c).Φ 0 = (statsDat (inA m) c).Φ 0 from rfl]
    refine BIBase.Entails.trans ?_ (stats_enter (inA m) c)
    unfold Pipeline.ΦA
    iintro ⟨Hreg, -, Hscr⟩
    isplitl [Hscr]; · iexact Hscr
    iexact Hreg
  hout c := by
    -- and come back out of it after the last
    rw [show (passDat m 0 c).Φ (Fin.last _) = (statsDat (inA m) c).Φ (Fin.last cfg0.N) from rfl]
    refine BIBase.Entails.trans (stats_leave (inA m) c) ?_
    rw [Pipeline.ownSems0_none]; unfold Pipeline.ΦA
    iintro ⟨Hscr, Hreg⟩
    isplitl [Hreg]; · iexact Hreg
    isplitr; · iempintro
    iexact Hscr
  hexit c := by
    -- the arrays go back among the outliving buffers, at what the tiles wrote
    have hmend := Pipeline.unscopedBufs_of_arrays (p := 0) (pcfgs (F := F)) noTables (Ix := Unit) (Name := ℕ) (U := UR sig nD τ) (Lvl := ℕ)
      launch0.win launch0.arr_whole c (passDat m) ((passDat m 0 c).share_full fun _ => rfl)
      (inA m c) (outB m c) ((passDat m 0 c).arrAt · cfg0.N) (fun w => (memB_array m c w).symm)
      (fun b hb => memB_other m c b fun w e => hb (Finset.mem_image.mpr ⟨w, Finset.mem_univ _, e⟩))
    rw [Pipeline.unscopedBufs_held] at hmend
    iintro ⟨Harr, Howes, Hreg, Hrest⟩
    imodintro
    isplitl [Harr Hrest]
    · iapply hmend; isplitl [Harr] <;> iassumption
    isplitl [Hreg]; · iexact Hreg
    unfold Pipeline.Dat.owesAt Pipeline.owesWithin
    icases Howes with ⟨%W, -, Howes⟩
    iexists W; iexact Howes

/-- The state at the return, less what the core owes: the outliving buffers at `memD`, the generator register. -/
abbrev atReturn (c : Dev nD) : sProp 𝕄 :=
  iprop(StableHlo.held (c : Thread nD τ) (Pipeline.ucRefs τ sig) (memD m c) ∗ ∃ r, prngReg c r)

-- a library lemma stated over the pinned configuration unifies with the printed one only when unification may unfold
-- plain definitions in a metavariable's type
set_option backward.isDefEq.respectTransparency.types false in
/-- The main pass: entered from the contents after the second host stretch, left at `memD`. -/
def mainItem : Pipeline.RegionSeg (pcfgs (F := F)) noTables (passDat m) () defs₀ noVariants noPairs noLevel 1 where
  win := launch1.win.to₀
  block_pos := launch1.block_pos
  stage_whole := launch1.stage_whole
  K := PEmpty
  osem k := k.elim
  ho := Pipeline.OwnSemFacts.none _
  hbody c := (main_obligation (inC m) c).loose
  hwaits := Pipeline.hwaits_of_owed_zero _ _ _ _ noPairs noLevel 1 fun _ _ => rfl
  pre c := iprop(StableHlo.held (c : Thread nD τ) (Pipeline.ucRefs τ sig) (memC m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inC m c)
  hentry c := by
    -- the pass's arrays come out of the outliving buffers; the rest of them goes round the region
    rw [Pipeline.ownSems0_none]
    have hcarve := Pipeline.arrays_of_unscopedBufs (p := 1) (pcfgs (F := F)) noTables (passDat m) launch1.win launch1.arr_whole c
      ((passDat m 1 c).share_full fun _ => rfl) (inC m c) fun _ => rfl
    rw [Pipeline.unscopedBufs_held] at hcarve
    iintro ⟨⟨Hbufs, Hreg, Howes⟩, -, -⟩
    ihave Hsplit := hcarve $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    -- the generator register and the scratch make the invariant before the first tile
    rw [show (passDat m 1 c).Φ 0 = Pipeline.ΦA spec1 c from rfl]
    unfold Pipeline.ΦA
    iintro ⟨Hreg, -, Hscr⟩
    isplitl [Hscr]; · iexact Hscr
    iexact Hreg
  hout c := by
    -- and come back out of it after the last
    rw [Pipeline.ownSems0_none, show (passDat m 1 c).Φ (Fin.last _) = Pipeline.ΦA spec1 c from rfl]; unfold Pipeline.ΦA
    iintro ⟨Hscr, Hreg⟩
    isplitl [Hreg]; · iexact Hreg
    isplitr; · iempintro
    iexact Hscr
  hexit c := by
    -- the arrays go back among the outliving buffers, at what the tiles wrote
    have hmend := Pipeline.unscopedBufs_of_arrays (p := 1) (pcfgs (F := F)) noTables (Ix := Unit) (Name := ℕ) (U := UR sig nD τ) (Lvl := ℕ)
      launch1.win launch1.arr_whole c (passDat m) ((passDat m 1 c).share_full fun _ => rfl)
      (inC m c) (outD m c) ((passDat m 1 c).arrAt · cfg1.N) (fun w => (memD_array m c w).symm)
      (fun b hb => memD_other m c b fun w e => hb (Finset.mem_image.mpr ⟨w, Finset.mem_univ _, e⟩))
    rw [Pipeline.unscopedBufs_held] at hmend
    iintro ⟨Harr, Howes, Hreg, Hrest⟩
    imodintro
    isplitl [Harr Hrest Hreg]
    · isplitl [Harr Hrest]
      · iapply hmend; isplitl [Harr] <;> iassumption
      iexact Hreg
    unfold Pipeline.Dat.owesAt Pipeline.owesWithin
    icases Howes with ⟨%W, -, Howes⟩
    iexists W; iexact Howes

/-! ## The program as its four items, and the launch -/

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor

/-- A host stretch as an item: its operations over the outliving buffers from the contents `W`, `beside` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

abbrev items : List (Pipeline.Seg (pcfgs (F := F)) noTables (passDat m) () defs₀ noVariants noPairs noLevel) :=
  [ .host (hostItem hostOps0 hostOps0_sub hostOps0_alloc_none (mem0 m)),
    .region (statsItem m),
    .host (hostItem hostOps1 hostOps1_sub hostOps1_alloc_none (memB m)),
    .region (mainItem m) ]

theorem main_is_items (c : Dev nD) : main (F := F) c = Pipeline.Seg.run (items m) := (main_chain c).trans (by chain_rfl)

set_option backward.isDefEq.respectTransparency.types false in
/-- From any memory with zero counters every weakly fair execution of the program terminates, nothing faulting, and at
    the end every buffer of a core that outlives the regions holds its array of `memD`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = memD m c b) :=
  Pipeline.θ_run_regions_kit (pcfgs (F := F)) noTables (passDat m) () cellOf_inj emb₁ defs₀ noVariants noPairs noLevel m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ beside c)) (Tₙ := atReturn m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = memD m c b)
    (hfin := fun c s' => by
      iintro ⟨⟨Hbufs, -⟩, HSI⟩
      unfold StableHlo.held
      imodintro
      iapply (pointsTo_read_all (Pipeline.ucRefs τ sig) (fun b => (((c : Thread nD τ)).1, b)) (memD m c) s')
      isplitl [Hbufs] <;> iassumption)
    (hQ := fun _ h => h)

end Cert.KernelIdeal.Gen

end
-- ==== Proof.Kept.lean ====
/-
  The seven arguments end as launched.  The points array is read by both passes through an input window, whose array a
  pass leaves as it found it; the other six arguments are arrays of neither pass; and no host operation writes an
  argument.  So each argument's final contents walk back, item by item, to the launch memory.
-/
import proofs.«120336_j14070312862123_1_alg».proof.Proof.Between
import proofs.«120336_j14070312862123_1_alg».proof.Proof.Gen.KernelIdeal.Regions
import Idealize.ShloMosaic.Lib.Pipeline.FrameBody

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The points array: an input window's array of both passes. -/
theorem kept_arg0 (c : Dev nD) : outD m c main_arg0 = m ((c : Thread nD τ).loc main_arg0) :=
  calc memD m c (Proc.devRef .tc main_arg0)
    _ = memC m c (Proc.devRef .tc main_arg0) :=
        (memD_array m c 0).trans (((mainDat (inC m) c).arrAt_in 0 rfl _).trans (mainDat_A (inC m) c 0))
    _ = memB m c (Proc.devRef .tc main_arg0) := StableHlo.after_of_writes_sub hostOps1 _ hostOps1_writes (r := main_arg0) (by decide)
    _ = memA m c (Proc.devRef .tc main_arg0) :=
        (memB_array m c 0).trans (((statsDat (inA m) c).arrAt_in 0 rfl _).trans (statsDat_A (inA m) c 0))
    _ = mem0 m c (Proc.devRef .tc main_arg0) := StableHlo.after_of_writes_sub hostOps0 _ hostOps0_writes (r := main_arg0) (by decide)
    _ = m ((c : Thread nD τ).loc main_arg0) := rfl

/-- Argument 1 is no array of either pass and no host operation writes it. -/
theorem kept_arg1 (c : Dev nD) : outD m c main_arg1 = m ((c : Thread nD τ).loc main_arg1) :=
  calc memD m c (Proc.devRef .tc main_arg1)
    _ = memC m c (Proc.devRef .tc main_arg1) := memD_other m c main_arg1 (by decide)
    _ = memB m c (Proc.devRef .tc main_arg1) := StableHlo.after_of_writes_sub hostOps1 _ hostOps1_writes (r := main_arg1) (by decide)
    _ = memA m c (Proc.devRef .tc main_arg1) := memB_other m c main_arg1 (by decide)
    _ = mem0 m c (Proc.devRef .tc main_arg1) := StableHlo.after_of_writes_sub hostOps0 _ hostOps0_writes (r := main_arg1) (by decide)
    _ = m ((c : Thread nD τ).loc main_arg1) := rfl

/-- Argument 2 is no array of either pass and no host operation writes it. -/
theorem kept_arg2 (c : Dev nD) : outD m c main_arg2 = m ((c : Thread nD τ).loc main_arg2) :=
  calc memD m c (Proc.devRef .tc main_arg2)
    _ = memC m c (Proc.devRef .tc main_arg2) := memD_other m c main_arg2 (by decide)
    _ = memB m c (Proc.devRef .tc main_arg2) := StableHlo.after_of_writes_sub hostOps1 _ hostOps1_writes (r := main_arg2) (by decide)
    _ = memA m c (Proc.devRef .tc main_arg2) := memB_other m c main_arg2 (by decide)
    _ = mem0 m c (Proc.devRef .tc main_arg2) := StableHlo.after_of_writes_sub hostOps0 _ hostOps0_writes (r := main_arg2) (by decide)
    _ = m ((c : Thread nD τ).loc main_arg2) := rfl

/-- Argument 3 is no array of either pass and no host operation writes it. -/
theorem kept_arg3 (c : Dev nD) : outD m c main_arg3 = m ((c : Thread nD τ).loc main_arg3) :=
  calc memD m c (Proc.devRef .tc main_arg3)
    _ = memC m c (Proc.devRef .tc main_arg3) := memD_other m c main_arg3 (by decide)
    _ = memB m c (Proc.devRef .tc main_arg3) := StableHlo.after_of_writes_sub hostOps1 _ hostOps1_writes (r := main_arg3) (by decide)
    _ = memA m c (Proc.devRef .tc main_arg3) := memB_other m c main_arg3 (by decide)
    _ = mem0 m c (Proc.devRef .tc main_arg3) := StableHlo.after_of_writes_sub hostOps0 _ hostOps0_writes (r := main_arg3) (by decide)
    _ = m ((c : Thread nD τ).loc main_arg3) := rfl

/-- Argument 4 is no array of either pass and no host operation writes it. -/
theorem kept_arg4 (c : Dev nD) : outD m c main_arg4 = m ((c : Thread nD τ).loc main_arg4) :=
  calc memD m c (Proc.devRef .tc main_arg4)
    _ = memC m c (Proc.devRef .tc main_arg4) := memD_other m c main_arg4 (by decide)
    _ = memB m c (Proc.devRef .tc main_arg4) := StableHlo.after_of_writes_sub hostOps1 _ hostOps1_writes (r := main_arg4) (by decide)
    _ = memA m c (Proc.devRef .tc main_arg4) := memB_other m c main_arg4 (by decide)
    _ = mem0 m c (Proc.devRef .tc main_arg4) := StableHlo.after_of_writes_sub hostOps0 _ hostOps0_writes (r := main_arg4) (by decide)
    _ = m ((c : Thread nD τ).loc main_arg4) := rfl

/-- Argument 5 is no array of either pass and no host operation writes it. -/
theorem kept_arg5 (c : Dev nD) : outD m c main_arg5 = m ((c : Thread nD τ).loc main_arg5) :=
  calc memD m c (Proc.devRef .tc main_arg5)
    _ = memC m c (Proc.devRef .tc main_arg5) := memD_other m c main_arg5 (by decide)
    _ = memB m c (Proc.devRef .tc main_arg5) := StableHlo.after_of_writes_sub hostOps1 _ hostOps1_writes (r := main_arg5) (by decide)
    _ = memA m c (Proc.devRef .tc main_arg5) := memB_other m c main_arg5 (by decide)
    _ = mem0 m c (Proc.devRef .tc main_arg5) := StableHlo.after_of_writes_sub hostOps0 _ hostOps0_writes (r := main_arg5) (by decide)
    _ = m ((c : Thread nD τ).loc main_arg5) := rfl

/-- Argument 6 is no array of either pass and no host operation writes it. -/
theorem kept_arg6 (c : Dev nD) : outD m c main_arg6 = m ((c : Thread nD τ).loc main_arg6) :=
  calc memD m c (Proc.devRef .tc main_arg6)
    _ = memC m c (Proc.devRef .tc main_arg6) := memD_other m c main_arg6 (by decide)
    _ = memB m c (Proc.devRef .tc main_arg6) := StableHlo.after_of_writes_sub hostOps1 _ hostOps1_writes (r := main_arg6) (by decide)
    _ = memA m c (Proc.devRef .tc main_arg6) := memB_other m c main_arg6 (by decide)
    _ = mem0 m c (Proc.devRef .tc main_arg6) := StableHlo.after_of_writes_sub hostOps0 _ hostOps0_writes (r := main_arg6) (by decide)
    _ = m ((c : Thread nD τ).loc main_arg6) := rfl

end Cert.KernelIdeal.Gen

end
-- ==== Proof.StatsBodyBits.lean ====
/-
  The statistics pass at one grid point.  Its body reads a tile of 5000 points, the transposed first-layer weights and
  the bias, forms the tile's linear layer `h`, and adds the tile's column sums of `h` and of `h·h` to two running rows
  kept in scratch between grid points.  At the first point the two rows are first reset to zero; at the last point the
  two rows are also copied into the two result blocks; at every other point the result blocks are left as found.
  Each case below states what the seven buffers hold afterwards: the three inputs and (off the last point) the two
  result blocks unchanged, the running rows at "previous row + this tile's column sums".
-/
import proofs.«120336_j14070312862123_1_alg».proof.Proof.Gen.Kernel.Launch
import proofs.«120336_j14070312862123_1_alg».proof.Proof.Gen.Kernel.Skeleton
import proofs.«120336_j14070312862123_1_alg».proof.Proof.Gen.Kernel.Points
import proofs.«120336_j14070312862123_1_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid point is the first: the reset branch is taken. -/
abbrev isFirst (i : grid0.Coords) : Prop :=
  Scalar.cmpi .ne (Scalar.extui (Scalar.cmpi .eq (BitVec.ofNat 32 (i 0).val) 0#32)) 0#32 = 1#1
/-- The grid point is the last: the write-out branch is taken. -/
abbrev isLast (i : grid0.Coords) : Prop := k0_cond2 i = 1#1

set_option maxHeartbeats 1000000 in
/-- A point that is neither first nor last: both running rows advance by the tile's column sums. -/
theorem stats_mid (c : Dev nD) (E : Set ℕ) (i : grid0.Coords) (hfirst : ¬ isFirst i) (hlast : ¬ isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare (k0_pay4 x w b s) ∗ owns (c : Thread nD τ) arg7 fullShare (k0_pay5 x w b q)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    rw [Cert.Lib.read_one_store _ _ Cert.Lib.zeros2]
    simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]
  · iexists _; isplitr
    swap; · iexact H7
    ipureintro
    rw [Cert.Lib.read_one_store _ _ Cert.Lib.zeros2]
    simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]

set_option maxHeartbeats 1000000 in
/-- The first point: both running rows are reset to zero and then advanced by the tile's column sums. -/
theorem stats_first (c : Dev nD) (E : Set ℕ) (i : grid0.Coords) (hfirst : isFirst i) (hlast : ¬ isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare (k0_pay4 x w b k0_pay1) ∗ owns (c : Thread nD τ) arg7 fullShare (k0_pay5 x w b k0_pay2)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists _; isplitr
    swap; · iexact H6
    ipureintro
    sl_unfold_words
    rw [Cert.Lib.read_last_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  · iexists _; isplitr
    swap; · iexact H7
    ipureintro
    sl_unfold_words
    rw [Cert.Lib.read_last_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]

set_option maxHeartbeats 1000000 in
/-- The last point: both running rows advance, and the two result blocks receive the advanced rows. -/
theorem stats_last (c : Dev nD) (E : Set ℕ) (i : grid0.Coords) (hfirst : ¬ isFirst i) (hlast : isLast i)
    (arg1 : Memref sig .tc .vmem S5000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S1x288 .f32) (harg6 : arg6.IsWhole)
    (arg7 : Memref sig .tc .vmem S1x288 .f32) (harg7 : arg7.IsWhole)
    (x : Vec F S5000x4 .f32) (w : Vec F S4x288 .f32) (b y3 y4 s q : Vec F S1x288 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare y3 ∗ owns (c : Thread nD τ) arg5 fullShare y4 ∗ owns (c : Thread nD τ) arg6 fullShare s ∗ owns (c : Thread nD τ) arg7 fullShare q
        ∗ (iprop(owns (c : Thread nD τ) arg1 fullShare x ∗ owns (c : Thread nD τ) arg2 fullShare w ∗ owns (c : Thread nD τ) arg3 fullShare b ∗ owns (c : Thread nD τ) arg4 fullShare (k0_pay4 x w b s) ∗ owns (c : Thread nD τ) arg5 fullShare (k0_pay5 x w b q) ∗ owns (c : Thread nD τ) arg6 fullShare (k0_pay4 x w b s) ∗ owns (c : Thread nD τ) arg7 fullShare (k0_pay5 x w b q)) -∗ K ⟨⟩))
      ⊢ wp frame (wpE (defs₀ (F := F)) Variants.none c none) E
          (cc0__stats_kernel i arg1 harg1 arg2 harg2 arg3 harg3 arg4 harg4 arg5 harg5 arg6 harg6 arg7 harg7) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf3 hf4 hf5 hf6 hf7
  sl_exec (disch := first | exact hfirst | exact hlast)
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists _; isplitr
    swap; · iexact H4
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  isplitl [H5]
  · iexists _; isplitr
    swap; · iexact H5
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  isplitl [H6]
  · iexists _; isplitr
    swap; · iexact H6
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]
  · iexists _; isplitr
    swap; · iexact H7
    ipureintro
    sl_unfold_words
    rw [Cert.Lib.read_one_store _ _ Cert.Lib.zeros2]
    simp only [View.readAt_eq_ld, View.ld_unit_zero (S := S5000x4) Cert.Lib.zeros2, View.ld_unit_zero (S := S4x288) Cert.Lib.zeros2, View.ld_unit_zero (S := S1x288) Cert.Lib.zeros2, View.readCov_unit_zero (S := S1x288) _ Cert.Lib.zeros2]

end Cert.Kernel.Gen

end
-- ==== Proof.StatsDatBits.lean ====
/-
  The statistics pass over its 100 tiles.  Tile `t` reads rows 5000·t … 5000·t+4999 of the points and the transposed
  weights and bias whole.  Two rows of 288 numbers are carried in scratch from tile to tile: after tile `n` they hold
  the column sums of the linear layer `h`, and of `h·h`, over tiles 0 … n — started from zero at tile 0, each later tile
  adding its own column sums (`rowsAfter`).  The two result blocks are written once, at the last tile, with the final
  rows; before that the pass leaves them as it found them.  The region's invariant therefore says, from the second
  tile on, what the two scratch rows hold (`PhiStats`); before the first tile they hold anything.
-/
import proofs.«120336_j14070312862123_1_alg».proof.Proof.Gen.Kernel.Launch
import proofs.«120336_j14070312862123_1_alg».proof.Proof.Gen.Kernel.Skeleton
import proofs.«120336_j14070312862123_1_alg».proof.Proof.Gen.Kernel.Points
import proofs.«120336_j14070312862123_1_alg».proof.Proof.StatsBodyBits
import Idealize.ShloMosaic.Lib.Pipeline.FrameBody
import Idealize.ShloMosaic.Lib.Pipeline.Frame
import Idealize.ShloMosaic.Lib.Pipeline.Kit
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running rows after tile `n`: column sums of `h` and of `h·h` over tiles 0 … n, each tile adding its own to
    what the tile before left, tile 0 to zero. -/
def rowsAfter (c : Dev nD) : (n : ℕ) → n < cfg0.N → Vec F S1x288 .f32 × Vec F S1x288 .f32
  | 0, h => (k0_pay4 (sblk V c 0 ⟨0, h⟩) (sblk V c 1 ⟨0, h⟩) (sblk V c 2 ⟨0, h⟩) k0_pay1,
             k0_pay5 (sblk V c 0 ⟨0, h⟩) (sblk V c 1 ⟨0, h⟩) (sblk V c 2 ⟨0, h⟩) k0_pay2)
  | n + 1, h => (k0_pay4 (sblk V c 0 ⟨n + 1, h⟩) (sblk V c 1 ⟨n + 1, h⟩) (sblk V c 2 ⟨n + 1, h⟩) (rowsAfter c n (Nat.lt_of_succ_lt h)).1,
                 k0_pay5 (sblk V c 0 ⟨n + 1, h⟩) (sblk V c 1 ⟨n + 1, h⟩) (sblk V c 2 ⟨n + 1, h⟩) (rowsAfter c n (Nat.lt_of_succ_lt h)).2)

theorem rowsAfter_zero (c : Dev nD) (h : 0 < cfg0.N) :
    rowsAfter V c 0 h = (k0_pay4 (sblk V c 0 ⟨0, h⟩) (sblk V c 1 ⟨0, h⟩) (sblk V c 2 ⟨0, h⟩) k0_pay1,
             k0_pay5 (sblk V c 0 ⟨0, h⟩) (sblk V c 1 ⟨0, h⟩) (sblk V c 2 ⟨0, h⟩) k0_pay2) := rfl
theorem rowsAfter_succ (c : Dev nD) (n : ℕ) (h : n + 1 < cfg0.N) :
    rowsAfter V c (n + 1) h = (k0_pay4 (sblk V c 0 ⟨n + 1, h⟩) (sblk V c 1 ⟨n + 1, h⟩) (sblk V c 2 ⟨n + 1, h⟩) (rowsAfter V c n (Nat.lt_of_succ_lt h)).1,
                 k0_pay5 (sblk V c 0 ⟨n + 1, h⟩) (sblk V c 1 ⟨n + 1, h⟩) (sblk V c 2 ⟨n + 1, h⟩) (rowsAfter V c n (Nat.lt_of_succ_lt h)).2) := rfl

/-- The two scratch rows, as whole buffers. -/
abbrev sumRow : Memref sig .tc .vmem S1x288 .f32 := Memref.whole cc0_scratch0
abbrev sqRow : Memref sig .tc .vmem S1x288 .f32 := Memref.whole cc0_scratch1

/-- The core's other scoped buffers that this pass does not stage: the later pass's staging buffers, at anything. -/
abbrev otherScoped (c : Dev nD) : sProp 𝕄 :=
  Pipeline.scopedRestBut (Ix := Unit) (Name := ℕ) (U := UR sig nD τ) (Lvl := ℕ) (Val := Elt F) spec0 c [cc0_scratch0, cc0_scratch1]

/-- Before tile `n`: nothing known of the scratch before the first tile; afterwards the two rows at `rowsAfter (n − 1)`. -/
def PhiStats (c : Dev nD) : (n : ℕ) → n ≤ cfg0.N → sProp 𝕄
  | 0, _ => Pipeline.ΦA spec0 c
  | n + 1, h => iprop(owns (c : Thread nD τ) sumRow fullShare (rowsAfter V c n h).1
      ∗ owns (c : Thread nD τ) sqRow fullShare (rowsAfter V c n h).2 ∗ otherScoped c ∗ ∃ r, prngReg c r)

theorem PhiStats_zero (c : Dev nD) (h : 0 ≤ cfg0.N) : PhiStats V c 0 h = Pipeline.ΦA spec0 c := rfl
theorem PhiStats_succ (c : Dev nD) (n : ℕ) (h : n + 1 ≤ cfg0.N) :
    PhiStats V c (n + 1) h = iprop(owns (c : Thread nD τ) sumRow fullShare (rowsAfter V c n h).1
      ∗ owns (c : Thread nD τ) sqRow fullShare (rowsAfter V c n h).2 ∗ otherScoped c ∗ ∃ r, prngReg c r) := rfl

/-- The class invariant with the two scratch rows named: each at some contents, beside the other scoped buffers and the
    generator register. -/
theorem PhiA_rows (c : Dev nD) :
    (Pipeline.ΦA spec0 c : sProp 𝕄)
      = iprop((((∃ d, owns (c : Thread nD τ) sumRow fullShare d) ∗ (∃ d, owns (c : Thread nD τ) sqRow fullShare d)) ∗ otherScoped c)
          ∗ ∃ r, prngReg c r) := by
  unfold Pipeline.ΦA
  rw [Pipeline.scopedRest_split_of_list spec0 c [cc0_scratch0, cc0_scratch1] (by decide) (by decide)]
  simp only [sumRow, sqRow, owns_whole]
  rfl

/-- The statistics pass's proof data. -/
def statsDat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => (rowsAfter V c t.val t.isLt).1
    | ⟨4, _⟩ => (rowsAfter V c t.val t.isLt).2
  Φ t := PhiStats V c t.val (Nat.le_of_lt_succ t.isLt)
  q _ := fullShare
  owed _ := 0

theorem statsDat_A (c : Dev nD) (w : Fin cfg0.W) : (statsDat V c).A w = V c (Pipeline.arrRef spec0 w) := by
  dsimp only [statsDat]

theorem stats_after_0 (c : Dev nD) (t : Fin cfg0.N) : (statsDat V c).after 0 t = sblk V c 0 t := by dsimp only [statsDat]
/-- Input window 0's staging buffer holds its block at every point, fetched there or kept since its last fetch. -/
theorem stats_before_0 (c : Dev nD) (t : Fin cfg0.N) (d) : (statsDat V c).before 0 t d = sblk V c 0 t :=
  ((statsDat V c).before_in_eq_fetched 0 rfl (fun _ => rfl) (fun _ _ _ => rfl)
    (fun t => by rw [stats_after_0]; unfold Dat.blockOf sblk; rw [statsDat_A]; try rfl) t d).trans
    (by unfold Dat.fetched Dat.blockOf sblk; rw [statsDat_A]; try rfl)
theorem stats_after_1 (c : Dev nD) (t : Fin cfg0.N) : (statsDat V c).after 1 t = sblk V c 1 t := by dsimp only [statsDat]
/-- Input window 1's staging buffer holds its block at every point, fetched there or kept since its last fetch. -/
theorem stats_before_1 (c : Dev nD) (t : Fin cfg0.N) (d) : (statsDat V c).before 1 t d = sblk V c 1 t :=
  ((statsDat V c).before_in_eq_fetched 1 rfl (fun _ => rfl) (fun _ _ _ => rfl)
    (fun t => by rw [stats_after_1]; unfold Dat.blockOf sblk; rw [statsDat_A]; try rfl) t d).trans
    (by unfold Dat.fetched Dat.blockOf sblk; rw [statsDat_A]; try rfl)
theorem stats_after_2 (c : Dev nD) (t : Fin cfg0.N) : (statsDat V c).after 2 t = sblk V c 2 t := by dsimp only [statsDat]
/-- Input window 2's staging buffer holds its block at every point, fetched there or kept since its last fetch. -/
theorem stats_before_2 (c : Dev nD) (t : Fin cfg0.N) (d) : (statsDat V c).before 2 t d = sblk V c 2 t :=
  ((statsDat V c).before_in_eq_fetched 2 rfl (fun _ => rfl) (fun _ _ _ => rfl)
    (fun t => by rw [stats_after_2]; unfold Dat.blockOf sblk; rw [statsDat_A]; try rfl) t d).trans
    (by unfold Dat.fetched Dat.blockOf sblk; rw [statsDat_A]; try rfl)
theorem stats_after_3 (c : Dev nD) (t : Fin cfg0.N) : (statsDat V c).after 3 t = (rowsAfter V c t.val t.isLt).1 := by dsimp only [statsDat]
theorem stats_after_4 (c : Dev nD) (t : Fin cfg0.N) : (statsDat V c).after 4 t = (rowsAfter V c t.val t.isLt).2 := by dsimp only [statsDat]

/-! ### Which tile is first, which last, and where the result blocks are idle -/

theorem first_iff : ∀ t : Fin cfg0.N, isFirst (grid0.coords t) ↔ t.val = 0 :=
  (by decide +kernel : ∀ t : Fin grid0.N, isFirst (grid0.coords t) ↔ t.val = 0)
theorem last_iff : ∀ t : Fin cfg0.N, isLast (grid0.coords t) ↔ t.val = 99 :=
  (by decide +kernel : ∀ t : Fin grid0.N, isLast (grid0.coords t) ↔ t.val = 99)
theorem idle_sum : ∀ t : Fin cfg0.N, t.val ≠ 99 → cfg0.idle 3 (grid0.coords t) = true := by decide +kernel
theorem idle_sq : ∀ t : Fin cfg0.N, t.val ≠ 99 → cfg0.idle 4 (grid0.coords t) = true := by decide +kernel
theorem live_sum : ∀ t : Fin cfg0.N, t.val = 99 → cfg0.idle 3 (grid0.coords t) = false := by decide +kernel
theorem live_sq : ∀ t : Fin cfg0.N, t.val = 99 → cfg0.idle 4 (grid0.coords t) = false := by decide +kernel
theorem noflush_sum : ∀ t : Fin cfg0.N, t.val ≠ 99 → (cfg0.win 3).flush t = false := by decide +kernel
theorem noflush_sq : ∀ t : Fin cfg0.N, t.val ≠ 99 → (cfg0.win 4).flush t = false := by decide +kernel

/-- What the body is handed at tile `t` … -/
def statsPre (c : Dev nD) (t : Fin cfg0.N) : sProp 𝕄 :=
  iprop((statsDat V c).Φ t.castSucc ∗ (statsDat V c).owesAt () t.castSucc
    ∗ (∃ d, owns (c : Thread nD τ) (st0_0 t) fullShare ((statsDat V c).before 0 t d))
    ∗ (∃ d, owns (c : Thread nD τ) (st0_1 t) fullShare ((statsDat V c).before 1 t d))
    ∗ (∃ d, owns (c : Thread nD τ) (st0_2 t) fullShare ((statsDat V c).before 2 t d))
    ∗ (∃ d, owns (c : Thread nD τ) (st0_3 t) fullShare ((statsDat V c).before 3 t d))
    ∗ (∃ d, owns (c : Thread nD τ) (st0_4 t) fullShare ((statsDat V c).before 4 t d)))

/-- … and what it hands back: the invariant of the next tile, and each buffer at what the pass leaves in it. -/
def statsPost (c : Dev nD) (t : Fin cfg0.N) : sProp 𝕄 :=
  iprop((statsDat V c).Φ t.succ ∗ (statsDat V c).owesAt () t.succ
    ∗ (statsDat V c).leavesExact 0 t
    ∗ (statsDat V c).leavesExact 1 t
    ∗ (statsDat V c).leavesExact 2 t
    ∗ (statsDat V c).leavesExact 3 t
    ∗ (statsDat V c).leavesExact 4 t)

set_option maxHeartbeats 4000000 in
theorem stats_at (c : Dev nD) (t : Fin cfg0.N) :
    statsPre V c t ⊢ wp frame (wpE (defs₀ (F := F)) Variants.none c none) Set.univ (bodyAt0 t) (fun _ => statsPost V c t) := by
  unfold statsPre statsPost bodyAt0
  simp only [stats_before_0, stats_before_1, stats_before_2]
  rw [show (statsDat V c).owesAt () t.succ = (statsDat V c).owesAt () t.castSucc from rfl,
    show (statsDat V c).leavesExact 0 t = owns (c : Thread nD τ) (st0_0 t) fullShare ((statsDat V c).after 0 t) from rfl,
    show (statsDat V c).leavesExact 1 t = owns (c : Thread nD τ) (st0_1 t) fullShare ((statsDat V c).after 1 t) from rfl,
    show (statsDat V c).leavesExact 2 t = owns (c : Thread nD τ) (st0_2 t) fullShare ((statsDat V c).after 2 t) from rfl,
    stats_after_0, stats_after_1, stats_after_2]
  obtain ⟨n, hn⟩ := t
  cases n with
  | zero =>
    -- the first tile: the scratch rows hold anything; they are reset, then advanced
    have hf : isFirst (grid0.coords ⟨0, hn⟩) := (first_iff ⟨0, hn⟩).mpr rfl
    have hl : ¬ isLast (grid0.coords ⟨0, hn⟩) := fun h => absurd ((last_iff ⟨0, hn⟩).mp h) (by show ¬ (0 : ℕ) = 99; decide)
    have h99 : (⟨0, hn⟩ : Fin cfg0.N).val ≠ 99 := by show (0 : ℕ) ≠ 99; decide
    rw [Dat.leavesExact_idle (statsDat V c) 3 ⟨0, hn⟩ (idle_sum ⟨0, hn⟩ h99) (noflush_sum ⟨0, hn⟩ h99),
      Dat.leavesExact_idle (statsDat V c) 4 ⟨0, hn⟩ (idle_sq ⟨0, hn⟩ h99) (noflush_sq ⟨0, hn⟩ h99)]
    rw [show (statsDat V c).Φ (Fin.castSucc ⟨0, hn⟩) = Pipeline.ΦA spec0 c from rfl, PhiA_rows,
      show (statsDat V c).Φ (Fin.succ ⟨0, hn⟩) = PhiStats V c (0 + 1) hn from rfl, PhiStats_succ, rowsAfter_zero]
    iintro ⟨⟨⟨⟨⟨%s, Hs⟩, ⟨%q, Hq⟩⟩, Hoth⟩, Hg⟩, Ho, ⟨%d0, H0⟩, ⟨%d1, H1⟩, ⟨%d2, H2⟩, ⟨%d3, H3⟩, ⟨%d4, H4⟩⟩
    iapply (stats_first c Set.univ (grid0.coords ⟨0, hn⟩) hf hl _ _ _ _ _ _ _ _ _ _ _ _ _ _
      (sblk V c 0 ⟨0, hn⟩) (sblk V c 1 ⟨0, hn⟩) (sblk V c 2 ⟨0, hn⟩) _ _ s q _)
    isplitl [H0]; · iexact H0
    isplitl [H1]; · iexact H1
    isplitl [H2]; · iexact H2
    isplitl [H3]; · iexact H3
    isplitl [H4]; · iexact H4
    isplitl [Hs]; · iexact Hs
    isplitl [Hq]; · iexact Hq
    iintro ⟨H0, H1, H2, H3, H4, Hs, Hq⟩
    isplitl [Hs Hq Hoth Hg]
    · isplitl [Hs]; · iexact Hs
      isplitl [Hq]; · iexact Hq
      isplitl [Hoth]; · iexact Hoth
      iexact Hg
    isplitl [Ho]; · iexact Ho
    isplitl [H0]; · iexact H0
    isplitl [H1]; · iexact H1
    isplitl [H2]; · iexact H2
    isplitl [H3]; · iexists d3; iexact H3
    iexists d4; iexact H4
  | succ n =>
    have hf : ¬ isFirst (grid0.coords ⟨n + 1, hn⟩) := fun h => absurd ((first_iff ⟨n + 1, hn⟩).mp h) (Nat.succ_ne_zero n)
    rw [show (statsDat V c).Φ (Fin.castSucc ⟨n + 1, hn⟩) = PhiStats V c (n + 1) (Nat.le_of_lt hn) from rfl, PhiStats_succ,
      show (statsDat V c).Φ (Fin.succ ⟨n + 1, hn⟩) = PhiStats V c (n + 1 + 1) hn from rfl, PhiStats_succ, rowsAfter_succ V c n hn]
    by_cases h99 : n + 1 = 99
    · -- the last tile: the rows advance and are copied into the two result blocks
      have hl : isLast (grid0.coords ⟨n + 1, hn⟩) := (last_iff ⟨n + 1, hn⟩).mpr h99
      rw [show (statsDat V c).leavesExact 3 ⟨n + 1, hn⟩ = owns (c : Thread nD τ) (st0_3 ⟨n + 1, hn⟩) fullShare ((statsDat V c).after 3 ⟨n + 1, hn⟩) from by
            unfold Dat.leavesExact; rw [live_sum ⟨n + 1, hn⟩ h99],
        show (statsDat V c).leavesExact 4 ⟨n + 1, hn⟩ = owns (c : Thread nD τ) (st0_4 ⟨n + 1, hn⟩) fullShare ((statsDat V c).after 4 ⟨n + 1, hn⟩) from by
            unfold Dat.leavesExact; rw [live_sq ⟨n + 1, hn⟩ h99],
        stats_after_3, stats_after_4, rowsAfter_succ V c n hn]
      iintro ⟨⟨Hs, Hq, Hoth, Hg⟩, Ho, ⟨%d0, H0⟩, ⟨%d1, H1⟩, ⟨%d2, H2⟩, ⟨%d3, H3⟩, ⟨%d4, H4⟩⟩
      iapply (stats_last c Set.univ (grid0.coords ⟨n + 1, hn⟩) hf hl _ _ _ _ _ _ _ _ _ _ _ _ _ _
        (sblk V c 0 ⟨n + 1, hn⟩) (sblk V c 1 ⟨n + 1, hn⟩) (sblk V c 2 ⟨n + 1, hn⟩) _ _
        (rowsAfter V c n (Nat.lt_of_succ_lt hn)).1 (rowsAfter V c n (Nat.lt_of_succ_lt hn)).2 _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hoth Hg]
      · isplitl [Hs]; · iexact Hs
        isplitl [Hq]; · iexact Hq
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a middle tile: the rows advance; the result blocks are left as found
      have hl : ¬ isLast (grid0.coords ⟨n + 1, hn⟩) := fun h => h99 ((last_iff ⟨n + 1, hn⟩).mp h)
      rw [Dat.leavesExact_idle (statsDat V c) 3 ⟨n + 1, hn⟩ (idle_sum ⟨n + 1, hn⟩ h99) (noflush_sum ⟨n + 1, hn⟩ h99),
        Dat.leavesExact_idle (statsDat V c) 4 ⟨n + 1, hn⟩ (idle_sq ⟨n + 1, hn⟩ h99) (noflush_sq ⟨n + 1, hn⟩ h99)]
      iintro ⟨⟨Hs, Hq, Hoth, Hg⟩, Ho, ⟨%d0, H0⟩, ⟨%d1, H1⟩, ⟨%d2, H2⟩, ⟨%d3, H3⟩, ⟨%d4, H4⟩⟩
      iapply (stats_mid c Set.univ (grid0.coords ⟨n + 1, hn⟩) hf hl _ _ _ _ _ _ _ _ _ _ _ _ _ _
        (sblk V c 0 ⟨n + 1, hn⟩) (sblk V c 1 ⟨n + 1, hn⟩) (sblk V c 2 ⟨n + 1, hn⟩) _ _
        (rowsAfter V c n (Nat.lt_of_succ_lt hn)).1 (rowsAfter V c n (Nat.lt_of_succ_lt hn)).2 _)
      isplitl [H0]; · iexact H0
      isplitl [H1]; · iexact H1
      isplitl [H2]; · iexact H2
      isplitl [H3]; · iexact H3
      isplitl [H4]; · iexact H4
      isplitl [Hs]; · iexact Hs
      isplitl [Hq]; · iexact Hq
      iintro ⟨H0, H1, H2, H3, H4, Hs, Hq⟩
      isplitl [Hs Hq Hoth Hg]
      · isplitl [Hs]; · iexact Hs
        isplitl [Hq]; · iexact Hq
        isplitl [Hoth]; · iexact Hoth
        iexact Hg
      isplitl [Ho]; · iexact Ho
      isplitl [H0]; · iexact H0
      isplitl [H1]; · iexact H1
      isplitl [H2]; · iexact H2
      isplitl [H3]; · iexists d3; iexact H3
      iexists d4; iexact H4

/-- The body obligation of the statistics pass, at every tile. -/
theorem stats_obligation (c : Dev nD) : BodyObligation (statsDat (F := F) V c) (defs₀ (F := F)) Variants.none () Set.univ := fun t => by
  rw [bigSep_W0, bigSep_W0]
  exact stats_at V c t

/-- Entering the region: before the first tile the invariant is the class's. -/
theorem stats_enter (c : Dev nD) : Pipeline.ΦA spec0 c ⊢ (statsDat V c).Φ 0 := by
  rw [show (statsDat V c).Φ 0 = PhiStats V c 0 (Nat.zero_le _) from rfl, PhiStats_zero]

/-- Leaving it: after the last tile the two rows' contents are forgotten. -/
theorem stats_leave (c : Dev nD) : (statsDat V c).Φ (Fin.last cfg0.N) ⊢ Pipeline.ΦA spec0 c := by
  rw [show (statsDat V c).Φ (Fin.last cfg0.N) = PhiStats V c (99 + 1) (by decide) from rfl, PhiStats_succ, PhiA_rows]
  iintro ⟨Hs, Hq, Hoth, Hg⟩
  isplitl [Hs Hq Hoth]
  · isplitl [Hs Hq]
    · isplitl [Hs]
      · iexists _; iexact Hs
      iexists _; iexact Hq
    iexact Hoth
  iexact Hg

end Cert.Kernel.Gen

end
-- ==== Proof.MainBodyBits.lean ====
/-
  The main pass at one grid point.  Its body reads a tile of 4000 points, the transposed first-layer weights and bias,
  the normalisation's scale and shift rows, the transposed second-layer weights and its bias, and writes into the
  tile's result block `max (h · scale + shift) 0` times the second-layer weights plus its bias — the one value the
  body's arithmetic denotes.  All seven inputs are left as found.
-/
import proofs.«120336_j14070312862123_1_alg».proof.Proof.Gen.Kernel.Launch
import proofs.«120336_j14070312862123_1_alg».proof.Proof.Gen.Kernel.Skeleton
import proofs.«120336_j14070312862123_1_alg».proof.Proof.Gen.Kernel.Points
import proofs.«120336_j14070312862123_1_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole buffers: the result block ends at the body's value of the seven inputs. -/
theorem main_point (c : Dev nD) (E : Set ℕ) (i : grid1.Coords)
    (arg1 : Memref sig .tc .vmem S4000x4 .f32) (harg1 : arg1.IsWhole) (arg2 : Memref sig .tc .vmem S4x288 .f32) (harg2 : arg2.IsWhole)
    (arg3 : Memref sig .tc .vmem S1x288 .f32) (harg3 : arg3.IsWhole) (arg4 : Memref sig .tc .vmem S1x288 .f32) (harg4 : arg4.IsWhole)
    (arg5 : Memref sig .tc .vmem S1x288 .f32) (harg5 : arg5.IsWhole) (arg6 : Memref sig .tc .vmem S288x288 .f32) (harg6 : arg6.IsWhole)
    (arg7 : Memref sig .tc .vmem S1x288 .f32) (harg7 : arg7.IsWhole) (arg8 : Memref sig .tc .vmem S4000x288 .f32) (harg8 : arg8.IsWhole)
    (x : Vec F S4000x4 .f32) (w : Vec F S4x288 .f32) (b sc sh : Vec F S1x288 .f32) (w2 : Vec F S288x288 .f32) (b2 : Vec F S1x288 .f32)
    (y : Vec F S4000x288 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare sc ∗ owns (c : Thread nD τ) arg5 fullShare sh ∗ owns (c : Thread nD τ) arg6 fullShare w2
        ∗ owns (c : Thread nD τ) arg7 fullShare b2 ∗ owns (c : Thread nD τ) arg8 fullShare y
        ∗ (iprop(owns (c : Thread nD τ) arg1 fullShare x ∗ owns (c : Thread nD τ) arg2 fullShare w ∗ owns (c : Thread nD τ) arg3 fullShare b
            ∗ owns (c : Thread nD τ) arg4 fullShare sc ∗ owns (c : Thread nD τ) arg5 fullShare sh ∗ owns (c : Thread nD τ) arg6 fullShare w2
            ∗ owns (c : Thread nD τ) arg7 fullShare b2 ∗ owns (c : Thread nD τ) arg8 fullShare (k1_pay1 x w b sc sh w2 b2)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf1 hf2 hf3 hf4 hf5 hf6 hf7 hf8
  sl_exec
  sl_step
  iapply Hk
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  iexists _; isplitr
  swap; · iexact H8
  ipureintro
  rw [Cert.Lib.read_one_store _ _ Cert.Lib.zeros2]
  simp only [View.readAt_eq_ld, View.ld_unit_zero (S := S5000x4) Cert.Lib.zeros2, View.ld_unit_zero (S := S4000x4) Cert.Lib.zeros2, View.ld_unit_zero (S := S4x288) Cert.Lib.zeros2, View.ld_unit_zero (S := S1x288) Cert.Lib.zeros2, View.ld_unit_zero (S := S288x288) Cert.Lib.zeros2]

end Cert.Kernel.Gen

end
-- ==== Proof.MainDatBits.lean ====
/-
  The main pass over its 125 tiles.  Tile `t` reads rows 4000·t … 4000·t+3999 of the points and the six small arrays
  whole (the transposed weights, the bias, the normalisation's scale and shift rows, the second layer's transposed
  weights and bias), and its result block is the body's value of those.  Nothing is carried between tiles, so the
  region's invariant is "the scratch and the generator register at anything" throughout.
-/
import proofs.«120336_j14070312862123_1_alg».proof.Proof.Gen.Kernel.Launch
import proofs.«120336_j14070312862123_1_alg».proof.Proof.Gen.Kernel.Skeleton
import proofs.«120336_j14070312862123_1_alg».proof.Proof.Gen.Kernel.Points
import proofs.«120336_j14070312862123_1_alg».proof.Proof.MainBodyBits
import Idealize.ShloMosaic.Lib.Pipeline.FrameBody
import Idealize.ShloMosaic.Lib.Pipeline.Frame
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Tile `t`'s result block: the body's value of the tile's points and the six small arrays. -/
def tileOut (c : Dev nD) (t : Fin cfg1.N) : Vec F S4000x288 .f32 :=
  k1_pay1 (mblk V c 0 t) (mblk V c 1 t) (mblk V c 2 t) (mblk V c 3 t) (mblk V c 4 t) (mblk V c 5 t) (mblk V c 6 t)

/-- The main pass's proof data: arrays as found; every input block left in place, the result block at `tileOut`. -/
def mainDat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => mblk V c 4 t
    | ⟨5, _⟩ => mblk V c 5 t
    | ⟨6, _⟩ => mblk V c 6 t
    | ⟨7, _⟩ => tileOut V c t
  Φ _ := Pipeline.ΦA spec1 c
  q _ := fullShare
  owed _ := 0

theorem mainDat_A (c : Dev nD) (w : Fin cfg1.W) : (mainDat V c).A w = V c (Pipeline.arrRef spec1 w) := by
  dsimp only [mainDat]

theorem main_after_0 (c : Dev nD) (t : Fin cfg1.N) : (mainDat V c).after 0 t = mblk V c 0 t := by dsimp only [mainDat]
/-- Input window 0's staging buffer holds its block at every tile, fetched there or kept since its last fetch. -/
theorem main_before_0 (c : Dev nD) (t : Fin cfg1.N) (d) : (mainDat V c).before 0 t d = mblk V c 0 t :=
  ((mainDat V c).before_in_eq_fetched 0 rfl (fun _ => rfl) (fun _ _ _ => rfl)
    (fun t => by rw [main_after_0]; unfold Dat.blockOf mblk; rw [mainDat_A]; try rfl) t d).trans
    (by unfold Dat.fetched Dat.blockOf mblk; rw [mainDat_A]; try rfl)
theorem main_after_1 (c : Dev nD) (t : Fin cfg1.N) : (mainDat V c).after 1 t = mblk V c 1 t := by dsimp only [mainDat]
/-- Input window 1's staging buffer holds its block at every tile, fetched there or kept since its last fetch. -/
theorem main_before_1 (c : Dev nD) (t : Fin cfg1.N) (d) : (mainDat V c).before 1 t d = mblk V c 1 t :=
  ((mainDat V c).before_in_eq_fetched 1 rfl (fun _ => rfl) (fun _ _ _ => rfl)
    (fun t => by rw [main_after_1]; unfold Dat.blockOf mblk; rw [mainDat_A]; try rfl) t d).trans
    (by unfold Dat.fetched Dat.blockOf mblk; rw [mainDat_A]; try rfl)
theorem main_after_2 (c : Dev nD) (t : Fin cfg1.N) : (mainDat V c).after 2 t = mblk V c 2 t := by dsimp only [mainDat]
/-- Input window 2's staging buffer holds its block at every tile, fetched there or kept since its last fetch. -/
theorem main_before_2 (c : Dev nD) (t : Fin cfg1.N) (d) : (mainDat V c).before 2 t d = mblk V c 2 t :=
  ((mainDat V c).before_in_eq_fetched 2 rfl (fun _ => rfl) (fun _ _ _ => rfl)
    (fun t => by rw [main_after_2]; unfold Dat.blockOf mblk; rw [mainDat_A]; try rfl) t d).trans
    (by unfold Dat.fetched Dat.blockOf mblk; rw [mainDat_A]; try rfl)
theorem main_after_3 (c : Dev nD) (t : Fin cfg1.N) : (mainDat V c).after 3 t = mblk V c 3 t := by dsimp only [mainDat]
/-- Input window 3's staging buffer holds its block at every tile, fetched there or kept since its last fetch. -/
theorem main_before_3 (c : Dev nD) (t : Fin cfg1.N) (d) : (mainDat V c).before 3 t d = mblk V c 3 t :=
  ((mainDat V c).before_in_eq_fetched 3 rfl (fun _ => rfl) (fun _ _ _ => rfl)
    (fun t => by rw [main_after_3]; unfold Dat.blockOf mblk; rw [mainDat_A]; try rfl) t d).trans
    (by unfold Dat.fetched Dat.blockOf mblk; rw [mainDat_A]; try rfl)
theorem main_after_4 (c : Dev nD) (t : Fin cfg1.N) : (mainDat V c).after 4 t = mblk V c 4 t := by dsimp only [mainDat]
/-- Input window 4's staging buffer holds its block at every tile, fetched there or kept since its last fetch. -/
theorem main_before_4 (c : Dev nD) (t : Fin cfg1.N) (d) : (mainDat V c).before 4 t d = mblk V c 4 t :=
  ((mainDat V c).before_in_eq_fetched 4 rfl (fun _ => rfl) (fun _ _ _ => rfl)
    (fun t => by rw [main_after_4]; unfold Dat.blockOf mblk; rw [mainDat_A]; try rfl) t d).trans
    (by unfold Dat.fetched Dat.blockOf mblk; rw [mainDat_A]; try rfl)
theorem main_after_5 (c : Dev nD) (t : Fin cfg1.N) : (mainDat V c).after 5 t = mblk V c 5 t := by dsimp only [mainDat]
/-- Input window 5's staging buffer holds its block at every tile, fetched there or kept since its last fetch. -/
theorem main_before_5 (c : Dev nD) (t : Fin cfg1.N) (d) : (mainDat V c).before 5 t d = mblk V c 5 t :=
  ((mainDat V c).before_in_eq_fetched 5 rfl (fun _ => rfl) (fun _ _ _ => rfl)
    (fun t => by rw [main_after_5]; unfold Dat.blockOf mblk; rw [mainDat_A]; try rfl) t d).trans
    (by unfold Dat.fetched Dat.blockOf mblk; rw [mainDat_A]; try rfl)
theorem main_after_6 (c : Dev nD) (t : Fin cfg1.N) : (mainDat V c).after 6 t = mblk V c 6 t := by dsimp only [mainDat]
/-- Input window 6's staging buffer holds its block at every tile, fetched there or kept since its last fetch. -/
theorem main_before_6 (c : Dev nD) (t : Fin cfg1.N) (d) : (mainDat V c).before 6 t d = mblk V c 6 t :=
  ((mainDat V c).before_in_eq_fetched 6 rfl (fun _ => rfl) (fun _ _ _ => rfl)
    (fun t => by rw [main_after_6]; unfold Dat.blockOf mblk; rw [mainDat_A]; try rfl) t d).trans
    (by unfold Dat.fetched Dat.blockOf mblk; rw [mainDat_A]; try rfl)
theorem main_after_7 (c : Dev nD) (t : Fin cfg1.N) : (mainDat V c).after 7 t = tileOut V c t := by dsimp only [mainDat]

/-- What the body is handed at tile `t` … -/
def mainPre (c : Dev nD) (t : Fin cfg1.N) : sProp 𝕄 :=
  iprop((mainDat V c).Φ t.castSucc ∗ (mainDat V c).owesAt () t.castSucc
    ∗ (∃ d, owns (c : Thread nD τ) (st1_0 t) fullShare ((mainDat V c).before 0 t d))
    ∗ (∃ d, owns (c : Thread nD τ) (st1_1 t) fullShare ((mainDat V c).before 1 t d))
    ∗ (∃ d, owns (c : Thread nD τ) (st1_2 t) fullShare ((mainDat V c).before 2 t d))
    ∗ (∃ d, owns (c : Thread nD τ) (st1_3 t) fullShare ((mainDat V c).before 3 t d))
    ∗ (∃ d, owns (c : Thread nD τ) (st1_4 t) fullShare ((mainDat V c).before 4 t d))
    ∗ (∃ d, owns (c : Thread nD τ) (st1_5 t) fullShare ((mainDat V c).before 5 t d))
    ∗ (∃ d, owns (c : Thread nD τ) (st1_6 t) fullShare ((mainDat V c).before 6 t d))
    ∗ (∃ d, owns (c : Thread nD τ) (st1_7 t) fullShare ((mainDat V c).before 7 t d)))

/-- … and what it hands back. -/
def mainPost (c : Dev nD) (t : Fin cfg1.N) : sProp 𝕄 :=
  iprop((mainDat V c).Φ t.succ ∗ (mainDat V c).owesAt () t.succ
    ∗ owns (c : Thread nD τ) (st1_0 t) fullShare ((mainDat V c).after 0 t)
    ∗ owns (c : Thread nD τ) (st1_1 t) fullShare ((mainDat V c).after 1 t)
    ∗ owns (c : Thread nD τ) (st1_2 t) fullShare ((mainDat V c).after 2 t)
    ∗ owns (c : Thread nD τ) (st1_3 t) fullShare ((mainDat V c).after 3 t)
    ∗ owns (c : Thread nD τ) (st1_4 t) fullShare ((mainDat V c).after 4 t)
    ∗ owns (c : Thread nD τ) (st1_5 t) fullShare ((mainDat V c).after 5 t)
    ∗ owns (c : Thread nD τ) (st1_6 t) fullShare ((mainDat V c).after 6 t)
    ∗ owns (c : Thread nD τ) (st1_7 t) fullShare ((mainDat V c).after 7 t))

set_option maxHeartbeats 2000000 in
/-- At any tile the seven input buffers hold their blocks, so the body's run applies; the invariant and what the core
    owes pass through untouched. -/
theorem main_at (c : Dev nD) (t : Fin cfg1.N) :
    mainPre V c t ⊢ wp frame (wpE (defs₀ (F := F)) Variants.none c none) Set.univ (bodyAt1 t) (fun _ => mainPost V c t) := by
  unfold mainPre mainPost bodyAt1
  simp only [main_before_0, main_before_1, main_before_2, main_before_3, main_before_4, main_before_5, main_before_6]
  rw [show (mainDat V c).Φ t.succ = (mainDat V c).Φ t.castSucc from rfl,
    show (mainDat V c).owesAt () t.succ = (mainDat V c).owesAt () t.castSucc from rfl,
    main_after_0, main_after_1, main_after_2, main_after_3, main_after_4, main_after_5, main_after_6, main_after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (main_point c Set.univ (grid1.coords t) _ _ _ _ _ _ _ _ _ _ _ _ _ _ _ _
    (mblk V c 0 t) (mblk V c 1 t) (mblk V c 2 t) (mblk V c 3 t) (mblk V c 4 t) (mblk V c 5 t) (mblk V c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold tileOut; iexact H7

/-- The body obligation of the main pass, at every tile. -/
theorem main_obligation (c : Dev nD) : BodyObligation (mainDat (F := F) V c) (defs₀ (F := F)) Variants.none () Set.univ := fun t => by
  rw [bigSep_W1, bigSep_W1]
  exact main_at V c t

end Cert.Kernel.Gen

end
-- ==== Proof.BetweenBits.lean ====
/-
  The contents of a core's long-lived buffers between the program's four items

      transposes and reshapes;  the statistics pass;  mean, variance, scale and shift;  the main pass.

  At launch they hold the memory; after a host stretch what its operations compute from the contents before; after a
  pass the same contents except for the pass's own arrays, which hold what its tiles wrote back.
-/
import proofs.«120336_j14070312862123_1_alg».proof.Proof.StatsDatBits
import proofs.«120336_j14070312862123_1_alg».proof.Proof.MainDatBits
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev mem0 : Dev nD → Valuation τ sig (Elt F) := fun c b => m (c, b)
/-- After the first host stretch: the statistics pass's entry. -/
abbrev memA : Dev nD → Valuation τ sig (Elt F) := fun c => StableHlo.after hostOps0 (mem0 m c)
abbrev inA : (c : Dev nD) → (b : Ref sig .tc) → Buf (Elt F) ((c : Thread nD τ).loc b) := fun c b => memA m c b
/-- After the statistics pass: its arrays at what its tiles wrote back, everything else as entered. -/
def memB (c : Dev nD) : Valuation τ sig (Elt F) :=
  Pipeline.withArrays spec0 c (memA m c) fun w => (statsDat (inA m) c).arrAt w cfg0.N
abbrev outB : (c : Dev nD) → (b : Ref sig .tc) → Buf (Elt F) ((c : Thread nD τ).loc b) := fun c b => memB m c b
/-- After the second host stretch: the main pass's entry. -/
abbrev memC : Dev nD → Valuation τ sig (Elt F) := fun c => StableHlo.after hostOps1 (memB m c)
abbrev inC : (c : Dev nD) → (b : Ref sig .tc) → Buf (Elt F) ((c : Thread nD τ).loc b) := fun c b => memC m c b
/-- After the main pass: the return. -/
def memD (c : Dev nD) : Valuation τ sig (Elt F) :=
  Pipeline.withArrays spec1 c (memC m c) fun w => (mainDat (inC m) c).arrAt w cfg1.N
abbrev outD : (c : Dev nD) → (b : Ref sig .tc) → Buf (Elt F) ((c : Thread nD τ).loc b) := fun c b => memD m c b

theorem memB_array (c : Dev nD) (w : Fin cfg0.W) :
    memB m c (Proc.devRef .tc (Pipeline.arrRef spec0 w)) = (statsDat (inA m) c).arrAt w cfg0.N := by
  unfold memB; exact Pipeline.withArrays_arr spec0 launch0.win.arr_inj c _ _ w
theorem memB_other (c : Dev nD) (b : Ref sig .tc) (hb : ∀ w, Pipeline.arrRef spec0 w ≠ b) :
    memB m c (Proc.devRef .tc b) = memA m c (Proc.devRef .tc b) := by
  unfold memB; exact Pipeline.withArrays_of_ne spec0 c _ _ b hb
theorem memD_array (c : Dev nD) (w : Fin cfg1.W) :
    memD m c (Proc.devRef .tc (Pipeline.arrRef spec1 w)) = (mainDat (inC m) c).arrAt w cfg1.N := by
  unfold memD; exact Pipeline.withArrays_arr spec1 launch1.win.arr_inj c _ _ w
theorem memD_other (c : Dev nD) (b : Ref sig .tc) (hb : ∀ w, Pipeline.arrRef spec1 w ≠ b) :
    memD m c (Proc.devRef .tc b) = memC m c (Proc.devRef .tc b) := by
  unfold memD; exact Pipeline.withArrays_of_ne spec1 c _ _ b hb

end Cert.Kernel.Gen

end
-- ==== Proof.RunBits.lean ====
/-
  The whole program, from launch to return: two stretches of host operations and the two passes, in order

      transposes and reshapes;  the statistics pass;  mean, variance, scale and shift;  the main pass.

  Between two items every buffer of the core that outlives a region holds a definite array: at launch the memory; after a
  host stretch what its operations compute from the contents before; after a pass the same contents except for the
  pass's own arrays, which hold what its tiles wrote back (`Dat.arrAt` at the last tile).  Each pass is entered with
  those buffers, the generator register and nothing owed; it takes its arrays out of them, runs every tile (the body
  obligation), and puts the arrays back.  At the return every such buffer holds the last of these arrays: in
  particular the seven arguments hold what they held at launch — no host operation writes one and both passes only read
  them — and the result holds what the main pass wrote.
-/
import proofs.«120336_j14070312862123_1_alg».proof.Proof.BetweenBits
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of both passes, and what rides beside the buffers -/

/-- No pass has a prefetched table. -/
abbrev noTables : (p : Fin 2) → (pcfgs (F := F) p).Adm := fun p => (cfgs p).toPCfg_adm

/-- Each pass's proof data at its own entry contents. -/
def passDat : (p : Fin 2) → (c : Dev nD) → Dat τ (Elt F) Unit ℕ (UR sig nD τ) ℕ (Pipeline.pin (pcfgs (F := F)) noTables p) c
  | ⟨0, _⟩ => fun c => statsDat (inA m) c
  | ⟨1, _⟩ => fun c => mainDat (inC m) c

abbrev noVariants : Variants := Variants.none
/-- No core owes another anything, so no level is assigned. -/
abbrev noPairs : GSem nD τ sig → Finset Unit := fun _ => ∅
abbrev noLevel : GSem nD τ sig → Unit → ℕ := fun _ _ => 0

/-- Beside the buffers: the generator register at some state, and the core owing nothing. -/
abbrev beside (c : Dev nD) : sProp 𝕄 :=
  iprop((∃ r, prngReg c r) ∗ ∃ W, owes (c : Thread nD τ) (0 : CellTallies nD τ sig Unit) W)

/-! ## The two passes as items -/

-- a library lemma stated over the pinned configuration unifies with the printed one only when unification may unfold
-- plain definitions in a metavariable's type
set_option backward.isDefEq.respectTransparency.types false in
/-- The statistics pass: entered from the contents after the first host stretch, left at `memB`. -/
def statsItem : Pipeline.RegionSeg (pcfgs (F := F)) noTables (passDat m) () defs₀ noVariants noPairs noLevel 0 where
  win := launch0.win.to₀
  block_pos := launch0.block_pos
  stage_whole := launch0.stage_whole
  K := PEmpty
  osem k := k.elim
  ho := Pipeline.OwnSemFacts.none _
  hbody c := (stats_obligation (inA m) c).loose
  hwaits := Pipeline.hwaits_of_owed_zero _ _ _ _ noPairs noLevel 0 fun _ _ => rfl
  pre c := iprop(StableHlo.held (c : Thread nD τ) (Pipeline.ucRefs τ sig) (memA m c) ∗ beside c)
  post c := iprop(StableHlo.held (c : Thread nD τ) (Pipeline.ucRefs τ sig) (memB m c) ∗ beside c)
  X c := iprop(∃ r, prngReg c r)
  Y c := iprop(∃ r, prngReg c r)
  Z c := Pipeline.unscopedRest (Ix := Unit) (Name := ℕ) (U := UR sig nD τ) (Lvl := ℕ) spec0 c (inA m c)
  hentry c := by
    -- the pass's arrays come out of the outliving buffers; the rest of them goes round the region
    rw [Pipeline.ownSems0_none]
    have hcarve := Pipeline.arrays_of_unscopedBufs (p := 0) (pcfgs (F := F)) noTables (passDat m) launch0.win launch0.arr_whole c
      ((passDat m 0 c).share_full fun _ => rfl) (inA m c) fun _ => rfl
    rw [Pipeline.unscopedBufs_held] at hcarve
    iintro ⟨⟨Hbufs, Hreg, Howes⟩, -, -⟩
    ihave Hsplit := hcarve $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    -- the generator register and the scratch make the invariant before the first tile
    rw [show (passDat m 0 c).Φ 0 = (statsDat (inA m) c).Φ 0 from rfl]
    refine BIBase.Entails.trans ?_ (stats_enter (inA m) c)
    unfold Pipeline.ΦA
    iintro ⟨Hreg, -, Hscr⟩
    isplitl [Hscr]; · iexact Hscr
    iexact Hreg
  hout c := by
    -- and come back out of it after the last
    rw [show (passDat m 0 c).Φ (Fin.last _) = (statsDat (inA m) c).Φ (Fin.last cfg0.N) from rfl]
    refine BIBase.Entails.trans (stats_leave (inA m) c) ?_
    rw [Pipeline.ownSems0_none]; unfold Pipeline.ΦA
    iintro ⟨Hscr, Hreg⟩
    isplitl [Hreg]; · iexact Hreg
    isplitr; · iempintro
    iexact Hscr
  hexit c := by
    -- the arrays go back among the outliving buffers, at what the tiles wrote
    have hmend := Pipeline.unscopedBufs_of_arrays (p := 0) (pcfgs (F := F)) noTables (Ix := Unit) (Name := ℕ) (U := UR sig nD τ) (Lvl := ℕ)
      launch0.win launch0.arr_whole c (passDat m) ((passDat m 0 c).share_full fun _ => rfl)
      (inA m c) (outB m c) ((passDat m 0 c).arrAt · cfg0.N) (fun w => (memB_array m c w).symm)
      (fun b hb => memB_other m c b fun w e => hb (Finset.mem_image.mpr ⟨w, Finset.mem_univ _, e⟩))
    rw [Pipeline.unscopedBufs_held] at hmend
    iintro ⟨Harr, Howes, Hreg, Hrest⟩
    imodintro
    isplitl [Harr Hrest]
    · iapply hmend; isplitl [Harr] <;> iassumption
    isplitl [Hreg]; · iexact Hreg
    unfold Pipeline.Dat.owesAt Pipeline.owesWithin
    icases Howes with ⟨%W, -, Howes⟩
    iexists W; iexact Howes

/-- The state at the return, less what the core owes: the outliving buffers at `memD`, the generator register. -/
abbrev atReturn (c : Dev nD) : sProp 𝕄 :=
  iprop(StableHlo.held (c : Thread nD τ) (Pipeline.ucRefs τ sig) (memD m c) ∗ ∃ r, prngReg c r)

-- a library lemma stated over the pinned configuration unifies with the printed one only when unification may unfold
-- plain definitions in a metavariable's type
set_option backward.isDefEq.respectTransparency.types false in
/-- The main pass: entered from the contents after the second host stretch, left at `memD`. -/
def mainItem : Pipeline.RegionSeg (pcfgs (F := F)) noTables (passDat m) () defs₀ noVariants noPairs noLevel 1 where
  win := launch1.win.to₀
  block_pos := launch1.block_pos
  stage_whole := launch1.stage_whole
  K := PEmpty
  osem k := k.elim
  ho := Pipeline.OwnSemFacts.none _
  hbody c := (main_obligation (inC m) c).loose
  hwaits := Pipeline.hwaits_of_owed_zero _ _ _ _ noPairs noLevel 1 fun _ _ => rfl
  pre c := iprop(StableHlo.held (c : Thread nD τ) (Pipeline.ucRefs τ sig) (memC m c) ∗ beside c)
  post c := iprop(atReturn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inC m c)
  hentry c := by
    -- the pass's arrays come out of the outliving buffers; the rest of them goes round the region
    rw [Pipeline.ownSems0_none]
    have hcarve := Pipeline.arrays_of_unscopedBufs (p := 1) (pcfgs (F := F)) noTables (passDat m) launch1.win launch1.arr_whole c
      ((passDat m 1 c).share_full fun _ => rfl) (inC m c) fun _ => rfl
    rw [Pipeline.unscopedBufs_held] at hcarve
    iintro ⟨⟨Hbufs, Hreg, Howes⟩, -, -⟩
    ihave Hsplit := hcarve $$ Hbufs
    icases Hsplit with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩
      iexists W; isplitr
      · ipureintro; exact fun _ _ => Or.inl trivial
      iexact Howes
    isplitl [Hreg]; · iexact Hreg
    iexact Hrest
  hin c := by
    -- the generator register and the scratch make the invariant before the first tile
    rw [show (passDat m 1 c).Φ 0 = Pipeline.ΦA spec1 c from rfl]
    unfold Pipeline.ΦA
    iintro ⟨Hreg, -, Hscr⟩
    isplitl [Hscr]; · iexact Hscr
    iexact Hreg
  hout c := by
    -- and come back out of it after the last
    rw [Pipeline.ownSems0_none, show (passDat m 1 c).Φ (Fin.last _) = Pipeline.ΦA spec1 c from rfl]; unfold Pipeline.ΦA
    iintro ⟨Hscr, Hreg⟩
    isplitl [Hreg]; · iexact Hreg
    isplitr; · iempintro
    iexact Hscr
  hexit c := by
    -- the arrays go back among the outliving buffers, at what the tiles wrote
    have hmend := Pipeline.unscopedBufs_of_arrays (p := 1) (pcfgs (F := F)) noTables (Ix := Unit) (Name := ℕ) (U := UR sig nD τ) (Lvl := ℕ)
      launch1.win launch1.arr_whole c (passDat m) ((passDat m 1 c).share_full fun _ => rfl)
      (inC m c) (outD m c) ((passDat m 1 c).arrAt · cfg1.N) (fun w => (memD_array m c w).symm)
      (fun b hb => memD_other m c b fun w e => hb (Finset.mem_image.mpr ⟨w, Finset.mem_univ _, e⟩))
    rw [Pipeline.unscopedBufs_held] at hmend
    iintro ⟨Harr, Howes, Hreg, Hrest⟩
    imodintro
    isplitl [Harr Hrest Hreg]
    · isplitl [Harr Hrest]
      · iapply hmend; isplitl [Harr] <;> iassumption
      iexact Hreg
    unfold Pipeline.Dat.owesAt Pipeline.owesWithin
    icases Howes with ⟨%W, -, Howes⟩
    iexists W; iexact Howes

/-! ## The program as its four items, and the launch -/

theorem hostOps0_alloc_none : (hostOps0 : List (HloOp τ sig (Elt F))).Forall fun op => op.fresh = ∅ := by
  simp only [List.Forall]; repeat' constructor
theorem hostOps1_alloc_none : (hostOps1 : List (HloOp τ sig (Elt F))).Forall fun op => op.fresh = ∅ := by
  simp only [List.Forall]; repeat' constructor

/-- A host stretch as an item: its operations over the outliving buffers from the contents `W`, `beside` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

abbrev items : List (Pipeline.Seg (pcfgs (F := F)) noTables (passDat m) () defs₀ noVariants noPairs noLevel) :=
  [ .host (hostItem hostOps0 hostOps0_sub hostOps0_alloc_none (mem0 m)),
    .region (statsItem m),
    .host (hostItem hostOps1 hostOps1_sub hostOps1_alloc_none (memB m)),
    .region (mainItem m) ]

theorem main_is_items (c : Dev nD) : main (F := F) c = Pipeline.Seg.run (items m) := (main_chain c).trans (by chain_rfl)

set_option backward.isDefEq.respectTransparency.types false in
/-- From any memory with zero counters every weakly fair execution of the program terminates, nothing faulting, and at
    the end every buffer of a core that outlives the regions holds its array of `memD`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = memD m c b) :=
  Pipeline.θ_run_regions_kit (pcfgs (F := F)) noTables (passDat m) () cellOf_inj emb₁ defs₀ noVariants noPairs noLevel m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ beside c)) (Tₙ := atReturn m)
    (hch := ⟨fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = memD m c b)
    (hfin := fun c s' => by
      iintro ⟨⟨Hbufs, -⟩, HSI⟩
      unfold StableHlo.held
      imodintro
      iapply (pointsTo_read_all (Pipeline.ucRefs τ sig) (fun b => (((c : Thread nD τ)).1, b)) (memD m c) s')
      isplitl [Hbufs] <;> iassumption)
    (hQ := fun _ h => h)

end Cert.Kernel.Gen

end
-- ==== Proof.KeptBits.lean ====
/-
  The seven arguments end as launched.  The points array is read by both passes through an input window, whose array a
  pass leaves as it found it; the other six arguments are arrays of neither pass; and no host operation writes an
  argument.  So each argument's final contents walk back, item by item, to the launch memory.
-/
import proofs.«120336_j14070312862123_1_alg».proof.Proof.BetweenBits
import proofs.«120336_j14070312862123_1_alg».proof.Proof.Gen.Kernel.Regions
import Idealize.ShloMosaic.Lib.Pipeline.FrameBody

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The points array: an input window's array of both passes. -/
theorem kept_arg0 (c : Dev nD) : outD m c main_arg0 = m ((c : Thread nD τ).loc main_arg0) :=
  calc memD m c (Proc.devRef .tc main_arg0)
    _ = memC m c (Proc.devRef .tc main_arg0) :=
        (memD_array m c 0).trans (((mainDat (inC m) c).arrAt_in 0 rfl _).trans (mainDat_A (inC m) c 0))
    _ = memB m c (Proc.devRef .tc main_arg0) := StableHlo.after_of_writes_sub hostOps1 _ hostOps1_writes (r := main_arg0) (by decide)
    _ = memA m c (Proc.devRef .tc main_arg0) :=
        (memB_array m c 0).trans (((statsDat (inA m) c).arrAt_in 0 rfl _).trans (statsDat_A (inA m) c 0))
    _ = mem0 m c (Proc.devRef .tc main_arg0) := StableHlo.after_of_writes_sub hostOps0 _ hostOps0_writes (r := main_arg0) (by decide)
    _ = m ((c : Thread nD τ).loc main_arg0) := rfl

/-- Argument 1 is no array of either pass and no host operation writes it. -/
theorem kept_arg1 (c : Dev nD) : outD m c main_arg1 = m ((c : Thread nD τ).loc main_arg1) :=
  calc memD m c (Proc.devRef .tc main_arg1)
    _ = memC m c (Proc.devRef .tc main_arg1) := memD_other m c main_arg1 (by decide)
    _ = memB m c (Proc.devRef .tc main_arg1) := StableHlo.after_of_writes_sub hostOps1 _ hostOps1_writes (r := main_arg1) (by decide)
    _ = memA m c (Proc.devRef .tc main_arg1) := memB_other m c main_arg1 (by decide)
    _ = mem0 m c (Proc.devRef .tc main_arg1) := StableHlo.after_of_writes_sub hostOps0 _ hostOps0_writes (r := main_arg1) (by decide)
    _ = m ((c : Thread nD τ).loc main_arg1) := rfl

/-- Argument 2 is no array of either pass and no host operation writes it. -/
theorem kept_arg2 (c : Dev nD) : outD m c main_arg2 = m ((c : Thread nD τ).loc main_arg2) :=
  calc memD m c (Proc.devRef .tc main_arg2)
    _ = memC m c (Proc.devRef .tc main_arg2) := memD_other m c main_arg2 (by decide)
    _ = memB m c (Proc.devRef .tc main_arg2) := StableHlo.after_of_writes_sub hostOps1 _ hostOps1_writes (r := main_arg2) (by decide)
    _ = memA m c (Proc.devRef .tc main_arg2) := memB_other m c main_arg2 (by decide)
    _ = mem0 m c (Proc.devRef .tc main_arg2) := StableHlo.after_of_writes_sub hostOps0 _ hostOps0_writes (r := main_arg2) (by decide)
    _ = m ((c : Thread nD τ).loc main_arg2) := rfl

/-- Argument 3 is no array of either pass and no host operation writes it. -/
theorem kept_arg3 (c : Dev nD) : outD m c main_arg3 = m ((c : Thread nD τ).loc main_arg3) :=
  calc memD m c (Proc.devRef .tc main_arg3)
    _ = memC m c (Proc.devRef .tc main_arg3) := memD_other m c main_arg3 (by decide)
    _ = memB m c (Proc.devRef .tc main_arg3) := StableHlo.after_of_writes_sub hostOps1 _ hostOps1_writes (r := main_arg3) (by decide)
    _ = memA m c (Proc.devRef .tc main_arg3) := memB_other m c main_arg3 (by decide)
    _ = mem0 m c (Proc.devRef .tc main_arg3) := StableHlo.after_of_writes_sub hostOps0 _ hostOps0_writes (r := main_arg3) (by decide)
    _ = m ((c : Thread nD τ).loc main_arg3) := rfl

/-- Argument 4 is no array of either pass and no host operation writes it. -/
theorem kept_arg4 (c : Dev nD) : outD m c main_arg4 = m ((c : Thread nD τ).loc main_arg4) :=
  calc memD m c (Proc.devRef .tc main_arg4)
    _ = memC m c (Proc.devRef .tc main_arg4) := memD_other m c main_arg4 (by decide)
    _ = memB m c (Proc.devRef .tc main_arg4) := StableHlo.after_of_writes_sub hostOps1 _ hostOps1_writes (r := main_arg4) (by decide)
    _ = memA m c (Proc.devRef .tc main_arg4) := memB_other m c main_arg4 (by decide)
    _ = mem0 m c (Proc.devRef .tc main_arg4) := StableHlo.after_of_writes_sub hostOps0 _ hostOps0_writes (r := main_arg4) (by decide)
    _ = m ((c : Thread nD τ).loc main_arg4) := rfl

/-- Argument 5 is no array of either pass and no host operation writes it. -/
theorem kept_arg5 (c : Dev nD) : outD m c main_arg5 = m ((c : Thread nD τ).loc main_arg5) :=
  calc memD m c (Proc.devRef .tc main_arg5)
    _ = memC m c (Proc.devRef .tc main_arg5) := memD_other m c main_arg5 (by decide)
    _ = memB m c (Proc.devRef .tc main_arg5) := StableHlo.after_of_writes_sub hostOps1 _ hostOps1_writes (r := main_arg5) (by decide)
    _ = memA m c (Proc.devRef .tc main_arg5) := memB_other m c main_arg5 (by decide)
    _ = mem0 m c (Proc.devRef .tc main_arg5) := StableHlo.after_of_writes_sub hostOps0 _ hostOps0_writes (r := main_arg5) (by decide)
    _ = m ((c : Thread nD τ).loc main_arg5) := rfl

/-- Argument 6 is no array of either pass and no host operation writes it. -/
theorem kept_arg6 (c : Dev nD) : outD m c main_arg6 = m ((c : Thread nD τ).loc main_arg6) :=
  calc memD m c (Proc.devRef .tc main_arg6)
    _ = memC m c (Proc.devRef .tc main_arg6) := memD_other m c main_arg6 (by decide)
    _ = memB m c (Proc.devRef .tc main_arg6) := StableHlo.after_of_writes_sub hostOps1 _ hostOps1_writes (r := main_arg6) (by decide)
    _ = memA m c (Proc.devRef .tc main_arg6) := memB_other m c main_arg6 (by decide)
    _ = mem0 m c (Proc.devRef .tc main_arg6) := StableHlo.after_of_writes_sub hostOps0 _ hostOps0_writes (r := main_arg6) (by decide)
    _ = m ((c : Thread nD τ).loc main_arg6) := rfl

end Cert.Kernel.Gen

end
-- ==== Proof.Spec.lean ====
/-
  The mathematics both programs compute, in coordinates, on the extended reals.

  A point cloud `x` (500000 points, 4 coordinates) goes through a linear layer `lin n j = Σ_k x[n,k]·w1[j,k] + b1[j]`
  (288 channels), a batch normalisation over the 500000 points, a rectifier, and a second linear layer
  `Σ_j act[n,j]·w2[i,j] + b2[i]`.  The two programs differ only in how they normalise:

  * one takes the variance as the mean of squares less the squared mean, `Σ_n lin² / N − mean²`, and applies the
    normalisation as `lin · scale + (β − mean · scale)` (`outK`);
  * the other takes it as the mean squared deviation, `Σ_n (lin − mean)² / N`, and applies `(lin − mean) · scale + β`
    (`outR`).

  Over the reals these agree: `Σ_n (h_n − μ)² = Σ_n h_n² − N μ²` when `μ = Σ_n h_n / N` and `N` is the number of
  points, and `(h − μ)·s + β = h·s + (β − μ·s)`.  On the extended reals both steps need every quantity finite, and the
  second needs the scale finite, which holds because the variance is a mean of squares, hence non-negative, and the
  stabiliser `eps` is positive, so the reciprocal square root is taken at a positive real.
-/
import Idealize.ShloMosaic.PureOps.Ideal
import Idealize.ShloMosaic.Lib.ValueIdx

noncomputable section

namespace Cert.Spec

open Idealize.ShloMosaic Idealize.ShloMosaic.ValueIdx

/-- The shapes of the seven arguments and of the result. -/
abbrev SX : Shape := ⟨2, ![500000, 4]⟩
abbrev SW1 : Shape := ⟨2, ![288, 4]⟩
abbrev SV : Shape := ⟨1, ![288]⟩
abbrev SW2 : Shape := ⟨2, ![288, 288]⟩
abbrev SO : Shape := ⟨2, ![500000, 288]⟩

/-- The number of points, as the programs spell it: the single-precision word of 500000. -/
def cnt : EReal := Ideal.ofBits .f32 0x48F42400#32
/-- The variance's stabiliser, as the programs spell it: the single-precision word nearest 1e-5. -/
def eps : EReal := Ideal.ofBits .f32 0x3727C5AC#32

section
variable (x : SX.Idx → EReal) (w1 : SW1.Idx → EReal) (b1 g be : SV.Idx → EReal) (w2 : SW2.Idx → EReal) (b2 : SV.Idx → EReal)

/-- The first linear layer at point `n`, channel `j`. -/
def lin (n : Fin 500000) (j : Fin 288) : EReal := (∑ k : Fin 4, x (ix2 n k) * w1 (ix2 j k)) + b1 (ix1 j)
/-- A channel's sum over all points, and its sum of squares. -/
def total (j : Fin 288) : EReal := ∑ n : Fin 500000, lin x w1 b1 n j
def totalSq (j : Fin 288) : EReal := ∑ n : Fin 500000, lin x w1 b1 n j * lin x w1 b1 n j
/-- A channel's mean. -/
def mean (j : Fin 288) : EReal := Ideal.div (total x w1 b1 j) cnt

/-- Variance as mean of squares less squared mean; the scale and shift made from it; the rectified activation. -/
def varK (j : Fin 288) : EReal := Ideal.div (totalSq x w1 b1 j) cnt - mean x w1 b1 j * mean x w1 b1 j
def scaleK (j : Fin 288) : EReal := g (ix1 j) * Ideal.rsqrt (varK x w1 b1 j + eps)
def shiftK (j : Fin 288) : EReal := be (ix1 j) - mean x w1 b1 j * scaleK x w1 b1 g j
def actK (n : Fin 500000) (j : Fin 288) : EReal := max (lin x w1 b1 n j * scaleK x w1 b1 g j + shiftK x w1 b1 g be j) 0
def outK (n : Fin 500000) (i : Fin 288) : EReal := (∑ j : Fin 288, actK x w1 b1 g be n j * w2 (ix2 i j)) + b2 (ix1 i)

/-- Variance as mean squared deviation; the scale made from it; the rectified activation. -/
def varR (j : Fin 288) : EReal :=
  Ideal.div (∑ n : Fin 500000, (lin x w1 b1 n j - mean x w1 b1 j) * (lin x w1 b1 n j - mean x w1 b1 j)) cnt
def scaleR (j : Fin 288) : EReal := g (ix1 j) * Ideal.rsqrt (varR x w1 b1 j + eps)
def actR (n : Fin 500000) (j : Fin 288) : EReal := max ((lin x w1 b1 n j - mean x w1 b1 j) * scaleR x w1 b1 g j + be (ix1 j)) 0
def outR (n : Fin 500000) (i : Fin 288) : EReal := (∑ j : Fin 288, actR x w1 b1 g be n j * w2 (ix2 i j)) + b2 (ix1 i)

/-- An array of extended reals all of whose entries are real numbers. -/
def AllReal {S : Shape} (a : S.Idx → EReal) : Prop := ∀ i, ∃ r : ℝ, a i = (r : EReal)

end

end Cert.Spec

end
-- ==== Proof.StatsValue.lean ====
/-
  What the statistics pass leaves in its two result arrays, at the ideal reading: entry j of the first is the sum over all
  500000 points of the linear layer's channel j, entry j of the second the sum of its squares.

  The pass carries two running rows through its 100 tiles; after tile n they hold the sums over the first 5000·(n+1)
  points (by induction on the tile: tile 0 adds its 5000 points to zero, each later tile adds its own 5000 to the row the
  tile before left).  The result arrays are written once, at the last tile, with the rows after tile 99, that is with the
  sums over all 500000 points.

  In order: one tile's arithmetic at an entry (the four-term product, the bias spread over the rows, the column sums);
  the tile's three operands read off the arrays (row r of tile t is point 5000·t + r; the weights and the bias are read
  whole); the running rows after tile n as the sum, over tiles 0 … n, of each tile's share; the hundred shares re-indexed
  to the sum over all points (point p = 5000·t + r, once each); and the result arrays, whose one block is the whole
  array and is written back at the last tile only.
-/
import proofs.«120336_j14070312862123_1_alg».proof.Proof.StatsDat
import proofs.«120336_j14070312862123_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.StatsValue

open Idealize.ShloMosaic Idealize.ShloMosaic.TcCoe Idealize.SL.Sem Idealize.ShloMosaic.ValueIdx
open Cert.KernelIdeal Cert.KernelIdeal.Gen
open Idealize.ShloMosaic.Pipeline (Dat)

/-! ### The tile's product record, axis by axis -/

theorem mm_lhs_row (i : S5000x288.Idx) (q : dot_S5000x4_S4x288_S5000x288_1_0_0_1_n_n.contr.Idx) :
    (dot_S5000x4_S4x288_S5000x288_1_0_0_1_n_n.lhsIdx i q 0).val = (i 0).val := by
  unfold DotDims.lhsIdx
  rw [dif_neg (show ¬(0 : Fin S5000x4.rank) ∈ dot_S5000x4_S4x288_S5000x288_1_0_0_1_n_n.lhsBatch by decide), dif_pos (show (0 : Fin S5000x4.rank) ∈ dot_S5000x4_S4x288_S5000x288_1_0_0_1_n_n.lhsNonContracting by decide)]
  rfl
theorem mm_lhs_col (i : S5000x288.Idx) (q : dot_S5000x4_S4x288_S5000x288_1_0_0_1_n_n.contr.Idx) :
    (dot_S5000x4_S4x288_S5000x288_1_0_0_1_n_n.lhsIdx i q 1).val = (q ⟨0, by decide⟩).val :=
  dot_S5000x4_S4x288_S5000x288_1_0_0_1_n_n.lhsIdx_val_of_single rfl i q
theorem mm_rhs_row (i : S5000x288.Idx) (q : dot_S5000x4_S4x288_S5000x288_1_0_0_1_n_n.contr.Idx) :
    (dot_S5000x4_S4x288_S5000x288_1_0_0_1_n_n.rhsIdx i q 0).val = (q ⟨0, by decide⟩).val :=
  dot_S5000x4_S4x288_S5000x288_1_0_0_1_n_n.rhsIdx_val_of_single rfl i q
theorem mm_rhs_col (i : S5000x288.Idx) (q : dot_S5000x4_S4x288_S5000x288_1_0_0_1_n_n.contr.Idx) :
    (dot_S5000x4_S4x288_S5000x288_1_0_0_1_n_n.rhsIdx i q 1).val = (i 1).val := by
  unfold DotDims.rhsIdx
  rw [dif_neg (show ¬(1 : Fin S4x288.rank) ∈ dot_S5000x4_S4x288_S5000x288_1_0_0_1_n_n.rhsBatch by decide), dif_pos (show (1 : Fin S4x288.rank) ∈ dot_S5000x4_S4x288_S5000x288_1_0_0_1_n_n.rhsNonContracting by decide)]
  rfl

/-- The product of a 5000×4 tile with a 4×288 matrix into the zero accumulator, entry (r, j): the four-term sum. -/
theorem mm_entry (a : FVec Ideal S5000x4 .bf16) (b : FVec Ideal S4x288 .bf16) (r : Fin 5000) (j : Fin 288) :
    matmul dot_S5000x4_S4x288_S5000x288_1_0_0_1_n_n none a b (constant (F := Ideal) S5000x288 .f32 0x00000000#32) (ix2 r j)
      = ∑ k : Fin 4, a (ix2 r k) * b (ix2 k j) := by
  refine (Ideal.matmul_constant_zero_apply dot_S5000x4_S4x288_S5000x288_1_0_0_1_n_n none a b (ix2 r j)).trans ?_
  rw [← Equiv.sum_comp (contrEquiv1 dot_S5000x4_S4x288_S5000x288_1_0_0_1_n_n 4 rfl rfl).symm]
  refine Finset.sum_congr rfl fun k _ => ?_
  have hk := contrEquiv1_symm_val dot_S5000x4_S4x288_S5000x288_1_0_0_1_n_n 4 rfl rfl k
  have el : dot_S5000x4_S4x288_S5000x288_1_0_0_1_n_n.lhsIdx (ix2 r j) ((contrEquiv1 dot_S5000x4_S4x288_S5000x288_1_0_0_1_n_n 4 rfl rfl).symm k) = ix2 r k := funext fun a => Fin.ext (by
    match a with
    | ⟨0, _⟩ => exact mm_lhs_row _ _
    | ⟨1, _⟩ => exact (mm_lhs_col _ _).trans hk)
  have er : dot_S5000x4_S4x288_S5000x288_1_0_0_1_n_n.rhsIdx (ix2 r j) ((contrEquiv1 dot_S5000x4_S4x288_S5000x288_1_0_0_1_n_n 4 rfl rfl).symm k) = ix2 k j := funext fun a => Fin.ext (by
    match a with
    | ⟨0, _⟩ => exact (mm_rhs_row _ _).trans hk
    | ⟨1, _⟩ => exact mm_rhs_col _ _)
  rw [el, er]

/-! ### One tile's arithmetic at an entry -/

/-- The linear layer on one tile: row `r` of the tile against column `j` of the weights, plus the bias. -/
def tileLin (x0 : Vec Ideal S5000x4 .f32) (w0 : Vec Ideal S4x288 .f32) (bb : Vec Ideal S1x288 .f32) (r : Fin 5000) (j : Fin 288) : EReal :=
  (∑ k : Fin 4, x0 (ix2 r k) * w0 (ix2 k j)) + bb (ix2 (0 : Fin 1) j)

/-- The bias row spread over the tile's rows reads the row's entry in every row. -/
theorem bias_spread (bb : Vec Ideal S1x288 .f32) (r : Fin 5000) (j : Fin 288) :
    broadcastTo S5000x288 (shapeCast S1x288 bb shapeCasts_S1x288_S1x288) broadcasts_S1x288_S5000x288 (ix2 r j) = bb (ix2 (0 : Fin 1) j) := by
  rw [shapeCast_self]
  exact broadcastTo_apply bb broadcasts_S1x288_S5000x288 (ix2 r j) (ix2 (0 : Fin 1) j) (fun a => match a with
    | ⟨0, _⟩ => rfl
    | ⟨1, _⟩ => rfl)

/-- The tile's layer output at entry (r, j). -/
theorem pay3_at (x0 : Vec Ideal S5000x4 .f32) (w0 : Vec Ideal S4x288 .f32) (bb : Vec Ideal S1x288 .f32) (r : Fin 5000) (j : Fin 288) :
    k0_pay3 x0 w0 bb (ix2 r j) = tileLin x0 w0 bb r j := by
  unfold k0_pay3 tileLin
  refine (addf_apply _ _ (ix2 r j)).trans ?_
  refine congrArg₂ (· + ·) ?_ (bias_spread bb r j)
  refine (mm_entry _ _ r j).trans ?_
  refine Finset.sum_congr rfl fun k _ => ?_
  refine congrArg₂ (· * ·) rfl ?_
  exact congrFun (shapeCast_self w0 shapeCasts_S4x288_S4x288) (ix2 k j)

/-- The column sums of a 5000×288 array, started from the zero word and kept as a row: entry j is the sum of column j. -/
theorem colsum_at (h : FVec Ideal S5000x288 .f32) (j : Fin 288) :
    shapeCast S1x288 (multiReduction .add [0] S288 h 0x00000000#32 reduces_S5000x288_S288 (.inl rfl) rfl) shapeCasts_S288_S1x288 (ix2 (0 : Fin 1) j)
      = ∑ r : Fin 5000, h (ix2 r j) := by
  refine (shapeCast_apply _ shapeCasts_S288_S1x288 (ix2 (0 : Fin 1) j) (ix1 j) ?_).trans ?_
  · rw [Shape.rowMajor_val_one, Shape.rowMajor_val_two]
    show j.val = 0 * 288 + j.val
    omega
  · refine (Ideal.multiReduction_add_single h 0x00000000#32 reduces_S5000x288_S288 (.inl rfl) rfl (ix1 j)).trans ?_
    refine Finset.sum_congr rfl fun r _ => congrArg h (funext fun a => Fin.ext ?_)
    match a with
    | ⟨0, _⟩ => rfl
    | ⟨1, _⟩ => rfl

/-- The first running row after a tile: what it held, plus the tile's column sums of the layer. -/
theorem pay4_at (x0 : Vec Ideal S5000x4 .f32) (w0 : Vec Ideal S4x288 .f32) (bb s : Vec Ideal S1x288 .f32) (j : Fin 288) :
    k0_pay4 x0 w0 bb s (ix2 (0 : Fin 1) j) = s (ix2 (0 : Fin 1) j) + ∑ r : Fin 5000, tileLin x0 w0 bb r j := by
  unfold k0_pay4
  refine (congrFun (shapeCast_self _ shapeCasts_S1x288_S1x288) (ix2 (0 : Fin 1) j)).trans ?_
  refine (addf_apply _ _ (ix2 (0 : Fin 1) j)).trans ?_
  refine congrArg (s (ix2 (0 : Fin 1) j) + ·) ?_
  refine (colsum_at (k0_pay3 x0 w0 bb) j).trans ?_
  exact Finset.sum_congr rfl fun r _ => pay3_at x0 w0 bb r j

/-- The second running row after a tile: what it held, plus the tile's column sums of the layer's squares. -/
theorem pay5_at (x0 : Vec Ideal S5000x4 .f32) (w0 : Vec Ideal S4x288 .f32) (bb s : Vec Ideal S1x288 .f32) (j : Fin 288) :
    k0_pay5 x0 w0 bb s (ix2 (0 : Fin 1) j)
      = s (ix2 (0 : Fin 1) j) + ∑ r : Fin 5000, tileLin x0 w0 bb r j * tileLin x0 w0 bb r j := by
  unfold k0_pay5
  refine (congrFun (shapeCast_self _ shapeCasts_S1x288_S1x288) (ix2 (0 : Fin 1) j)).trans ?_
  refine (addf_apply _ _ (ix2 (0 : Fin 1) j)).trans ?_
  refine congrArg (s (ix2 (0 : Fin 1) j) + ·) ?_
  refine (colsum_at (mulf (k0_pay3 x0 w0 bb) (k0_pay3 x0 w0 bb)) j).trans ?_
  refine Finset.sum_congr rfl fun r _ => ?_
  refine (mulf_apply _ _ (ix2 r j)).trans ?_
  rw [pay3_at]

/-- The zero row the first tile starts from. -/
theorem zero_row_at (j : Fin 288) : (k0_pay1 (F := Ideal)) (ix2 (0 : Fin 1) j) = 0 := by
  unfold k0_pay1
  refine (congrFun (shapeCast_self _ shapeCasts_S1x288_S1x288) (ix2 (0 : Fin 1) j)).trans ?_
  exact Ideal.ofBits_zero_f32
theorem zero_row_at' (j : Fin 288) : (k0_pay2 (F := Ideal)) (ix2 (0 : Fin 1) j) = 0 := by
  unfold k0_pay2
  refine (congrFun (shapeCast_self _ shapeCasts_S1x288_S1x288) (ix2 (0 : Fin 1) j)).trans ?_
  exact Ideal.ofBits_zero_f32

/-! ### The tile's three operands, read off the arrays -/

variable (V : (c : Dev nD) → (b : Ref sig .tc) → Buf (Elt Ideal) ((c : Thread nD τ).loc b)) (c : Dev nD)

/-- Where each window's block sits at tile `t`: the points' block is the `t`-th, the others are the one block there is. -/
theorem block_places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Row `r` of tile `t`'s block of points is point `5000·t + r`. -/
theorem pts_block (t : Fin cfg0.N) (r : Fin 5000) (k : Fin 4) (p : Fin 500000) (hp : p.val = 5000 * t.val + r.val) :
    (sblk V c 0 t : Vec Ideal S5000x4 .f32) (ix2 r k) = (V c main_arg0 : S500000x4.Idx → EReal) (ix2 p k) := by
  unfold sblk
  rw [View.read_apply]
  show V c main_arg0 _ = V c main_arg0 _
  refine congrArg _ (funext fun a => Fin.ext ?_)
  match a with
  | ⟨0, _⟩ =>
    show win0_0.index t (0 : Fin 2) * 5000 + 1 * r.val = p.val
    rw [(block_places t).1.1, hp]; omega
  | ⟨1, _⟩ =>
    show win0_0.index t (1 : Fin 2) * 4 + 1 * k.val = k.val
    rw [(block_places t).1.2]; omega

/-- The weights' block is the whole 4×288 array at every tile. -/
theorem wts_block (t : Fin cfg0.N) (k : Fin 4) (j : Fin 288) :
    (sblk V c 1 t : Vec Ideal S4x288 .f32) (ix2 k j) = (V c main_v0 : S4x288.Idx → EReal) (ix2 k j) := by
  unfold sblk
  rw [View.read_apply]
  show V c main_v0 _ = V c main_v0 _
  refine congrArg _ (funext fun a => Fin.ext ?_)
  match a with
  | ⟨0, _⟩ =>
    show win0_1.index t (0 : Fin 2) * 4 + 1 * k.val = k.val
    rw [(block_places t).2.1.1]; omega
  | ⟨1, _⟩ =>
    show win0_1.index t (1 : Fin 2) * 288 + 1 * j.val = j.val
    rw [(block_places t).2.1.2]; omega

/-- The bias's block is the whole row at every tile. -/
theorem bias_block (t : Fin cfg0.N) (j : Fin 288) :
    (sblk V c 2 t : Vec Ideal S1x288 .f32) (ix2 (0 : Fin 1) j) = (V c main_v2 : S1x288.Idx → EReal) (ix2 (0 : Fin 1) j) := by
  unfold sblk
  rw [View.read_apply]
  show V c main_v2 _ = V c main_v2 _
  refine congrArg _ (funext fun a => Fin.ext ?_)
  match a with
  | ⟨0, _⟩ =>
    show win0_2.index t (0 : Fin 2) * 1 + 1 * 0 = 0
    rw [(block_places t).2.2.1.1]
  | ⟨1, _⟩ =>
    show win0_2.index t (1 : Fin 2) * 288 + 1 * j.val = j.val
    rw [(block_places t).2.2.1.2]; omega

/-! ### The running rows after tile n -/

variable (w1 : Cert.Spec.SW1.Idx → EReal) (b1 : Cert.Spec.SV.Idx → EReal)

/-- Point `5000·t + r`: row `r` of tile `t`. -/
def ptOf (t : Fin 100) (r : Fin 5000) : Fin 500000 :=
  ⟨5000 * t.val + r.val, by have := t.isLt; have := r.isLt; omega⟩

/-- With the weights transposed and the bias as a row, a tile's layer is the specification's layer at the tile's points. -/
theorem tile_is_lin (hw : ∀ (k : Fin 4) (j : Fin 288), V c main_v0 (ix2 k j) = w1 (ix2 j k))
    (hb : ∀ j : Fin 288, V c main_v2 (ix2 (0 : Fin 1) j) = b1 (ix1 j))
    (t : Fin cfg0.N) (ht : t.val < 100) (r : Fin 5000) (j : Fin 288) :
    tileLin (sblk V c 0 t) (sblk V c 1 t) (sblk V c 2 t) r j
      = Cert.Spec.lin (V c main_arg0) w1 b1 (ptOf ⟨t.val, ht⟩ r) j := by
  unfold tileLin Cert.Spec.lin
  refine congrArg₂ (· + ·) (Finset.sum_congr rfl fun k _ => ?_) ((bias_block V c t j).trans (hb j))
  exact congrArg₂ (· * ·) (pts_block V c t r k (ptOf ⟨t.val, ht⟩ r) rfl) ((wts_block V c t k j).trans (hw k j))

/-- A tile's share of a channel's sum, and of its sum of squares. -/
def tileTot (x : Cert.Spec.SX.Idx → EReal) (t : Fin 100) (j : Fin 288) : EReal :=
  ∑ r : Fin 5000, Cert.Spec.lin x w1 b1 (ptOf t r) j
def tileTotSq (x : Cert.Spec.SX.Idx → EReal) (t : Fin 100) (j : Fin 288) : EReal :=
  ∑ r : Fin 5000, Cert.Spec.lin x w1 b1 (ptOf t r) j * Cert.Spec.lin x w1 b1 (ptOf t r) j

/-- After tile `n` the first running row holds the shares of tiles 0 … n, added in order. -/
theorem sum_row_after (hw : ∀ (k : Fin 4) (j : Fin 288), V c main_v0 (ix2 k j) = w1 (ix2 j k))
    (hb : ∀ j : Fin 288, V c main_v2 (ix2 (0 : Fin 1) j) = b1 (ix1 j)) (j : Fin 288) (n : ℕ) :
    ∀ (h : n < cfg0.N) (h' : n + 1 ≤ 100),
      (rowsAfter V c n h).1 (ix2 (0 : Fin 1) j)
        = ∑ s : Fin (n + 1), tileTot w1 b1 (V c main_arg0) ⟨s.val, lt_of_lt_of_le s.isLt h'⟩ j := by
  induction n with
  | zero =>
    intro h h'
    refine (congrFun (congrArg Prod.fst (rowsAfter_zero V c h)) (ix2 (0 : Fin 1) j)).trans ?_
    refine (pay4_at (sblk V c 0 ⟨0, h⟩) (sblk V c 1 ⟨0, h⟩) (sblk V c 2 ⟨0, h⟩) (k0_pay1 (F := Ideal)) j).trans ?_
    rw [zero_row_at, zero_add]
    refine Eq.trans ?_ (Fin.sum_univ_castSucc (fun s : Fin (0 + 1) => tileTot w1 b1 (V c main_arg0) ⟨s.val, lt_of_lt_of_le s.isLt h'⟩ j)).symm
    rw [Fin.sum_univ_zero, zero_add]
    exact Finset.sum_congr rfl fun r _ => tile_is_lin V c w1 b1 hw hb ⟨0, h⟩ (by show 0 < 100; omega) r j
  | succ n ih =>
    intro h h'
    refine (congrFun (congrArg Prod.fst (rowsAfter_succ V c n h)) (ix2 (0 : Fin 1) j)).trans ?_
    refine (pay4_at (sblk V c 0 ⟨n + 1, h⟩) (sblk V c 1 ⟨n + 1, h⟩) (sblk V c 2 ⟨n + 1, h⟩) (rowsAfter V c n (Nat.lt_of_succ_lt h)).1 j).trans ?_
    refine Eq.trans ?_ (Fin.sum_univ_castSucc (fun s : Fin (n + 1 + 1) => tileTot w1 b1 (V c main_arg0) ⟨s.val, lt_of_lt_of_le s.isLt h'⟩ j)).symm
    refine congrArg₂ (· + ·) (ih (Nat.lt_of_succ_lt h) (by omega)) ?_
    exact Finset.sum_congr rfl fun r _ => tile_is_lin V c w1 b1 hw hb ⟨n + 1, h⟩ (by show n + 1 < 100; omega) r j

/-- The second running row likewise holds the shares of the squares. -/
theorem sq_row_after (hw : ∀ (k : Fin 4) (j : Fin 288), V c main_v0 (ix2 k j) = w1 (ix2 j k))
    (hb : ∀ j : Fin 288, V c main_v2 (ix2 (0 : Fin 1) j) = b1 (ix1 j)) (j : Fin 288) (n : ℕ) :
    ∀ (h : n < cfg0.N) (h' : n + 1 ≤ 100),
      (rowsAfter V c n h).2 (ix2 (0 : Fin 1) j)
        = ∑ s : Fin (n + 1), tileTotSq w1 b1 (V c main_arg0) ⟨s.val, lt_of_lt_of_le s.isLt h'⟩ j := by
  induction n with
  | zero =>
    intro h h'
    refine (congrFun (congrArg Prod.snd (rowsAfter_zero V c h)) (ix2 (0 : Fin 1) j)).trans ?_
    refine (pay5_at (sblk V c 0 ⟨0, h⟩) (sblk V c 1 ⟨0, h⟩) (sblk V c 2 ⟨0, h⟩) (k0_pay2 (F := Ideal)) j).trans ?_
    rw [zero_row_at', zero_add]
    refine Eq.trans ?_ (Fin.sum_univ_castSucc (fun s : Fin (0 + 1) => tileTotSq w1 b1 (V c main_arg0) ⟨s.val, lt_of_lt_of_le s.isLt h'⟩ j)).symm
    rw [Fin.sum_univ_zero, zero_add]
    exact Finset.sum_congr rfl fun r _ => congrArg₂ (· * ·)
      (tile_is_lin V c w1 b1 hw hb ⟨0, h⟩ (by show 0 < 100; omega) r j) (tile_is_lin V c w1 b1 hw hb ⟨0, h⟩ (by show 0 < 100; omega) r j)
  | succ n ih =>
    intro h h'
    refine (congrFun (congrArg Prod.snd (rowsAfter_succ V c n h)) (ix2 (0 : Fin 1) j)).trans ?_
    refine (pay5_at (sblk V c 0 ⟨n + 1, h⟩) (sblk V c 1 ⟨n + 1, h⟩) (sblk V c 2 ⟨n + 1, h⟩) (rowsAfter V c n (Nat.lt_of_succ_lt h)).2 j).trans ?_
    refine Eq.trans ?_ (Fin.sum_univ_castSucc (fun s : Fin (n + 1 + 1) => tileTotSq w1 b1 (V c main_arg0) ⟨s.val, lt_of_lt_of_le s.isLt h'⟩ j)).symm
    refine congrArg₂ (· + ·) (ih (Nat.lt_of_succ_lt h) (by omega)) ?_
    exact Finset.sum_congr rfl fun r _ => congrArg₂ (· * ·)
      (tile_is_lin V c w1 b1 hw hb ⟨n + 1, h⟩ (by show n + 1 < 100; omega) r j) (tile_is_lin V c w1 b1 hw hb ⟨n + 1, h⟩ (by show n + 1 < 100; omega) r j)

/-! ### All hundred tiles: the sum over every point -/

/-- The points, tile by tile and row by row, are all 500000 points once each. -/
theorem tiles_total (g : Fin 500000 → EReal) :
    ∑ t : Fin 100, ∑ r : Fin 5000, g (ptOf t r) = ∑ p : Fin 500000, g p := by
  rw [← Fintype.sum_prod_type' (fun (t : Fin 100) (r : Fin 5000) => g (ptOf t r))]
  refine Eq.trans ?_ (Equiv.sum_comp (finProdFinEquiv (m := 100) (n := 5000)) g)
  refine Finset.sum_congr rfl fun x _ => congrArg g (Fin.ext ?_)
  show 5000 * x.1.val + x.2.val = x.2.val + 5000 * x.1.val
  omega

/-- After the last tile the first row holds each channel's sum over all points … -/
theorem sum_row_last (hw : ∀ (k : Fin 4) (j : Fin 288), V c main_v0 (ix2 k j) = w1 (ix2 j k))
    (hb : ∀ j : Fin 288, V c main_v2 (ix2 (0 : Fin 1) j) = b1 (ix1 j)) (j : Fin 288) (n : ℕ) (h : n < cfg0.N) (e : n = 99) :
    (rowsAfter V c n h).1 (ix2 (0 : Fin 1) j) = Cert.Spec.total (V c main_arg0) w1 b1 j := by
  subst e
  refine (sum_row_after V c w1 b1 hw hb j 99 h (by omega)).trans ?_
  unfold Cert.Spec.total tileTot
  exact tiles_total (fun p => Cert.Spec.lin (V c main_arg0) w1 b1 p j)

/-- … and the second each channel's sum of squares. -/
theorem sq_row_last (hw : ∀ (k : Fin 4) (j : Fin 288), V c main_v0 (ix2 k j) = w1 (ix2 j k))
    (hb : ∀ j : Fin 288, V c main_v2 (ix2 (0 : Fin 1) j) = b1 (ix1 j)) (j : Fin 288) (n : ℕ) (h : n < cfg0.N) (e : n = 99) :
    (rowsAfter V c n h).2 (ix2 (0 : Fin 1) j) = Cert.Spec.totalSq (V c main_arg0) w1 b1 j := by
  subst e
  refine (sq_row_after V c w1 b1 hw hb j 99 h (by omega)).trans ?_
  unfold Cert.Spec.totalSq tileTotSq
  exact tiles_total (fun p => Cert.Spec.lin (V c main_arg0) w1 b1 p j * Cert.Spec.lin (V c main_arg0) w1 b1 p j)

/-! ### The two result arrays after the pass -/

/-- What the first result array should end holding: at (0, j), channel j's sum over all points. -/
def sumRowG : Buf (Elt Ideal) ((c : Thread nD τ).loc main_v4_0) :=
  fun i : S1x288.Idx => Cert.Spec.total (V c main_arg0) w1 b1 ⟨(i 1).val, idx2_lt1 i⟩
/-- And the second: channel j's sum of squares. -/
def sqRowG : Buf (Elt Ideal) ((c : Thread nD τ).loc main_v4_1) :=
  fun i : S1x288.Idx => Cert.Spec.totalSq (V c main_arg0) w1 b1 ⟨(i 1).val, idx2_lt1 i⟩

/-- The one write-back of the first result window writes that array: the window's one block is the whole array, and the
    tile that writes it back is the last. -/
theorem sum_flushed (hw : ∀ (k : Fin 4) (j : Fin 288), V c main_v0 (ix2 k j) = w1 (ix2 j k))
    (hb : ∀ j : Fin 288, V c main_v2 (ix2 (0 : Fin 1) j) = b1 (ix1 j)) (t : Fin cfg0.N) (hf : (cfg0.win 3).flush t = true) :
    (statsDat (F := Ideal) V c).flushed 3 t = ((cfg0.win 3).blk t).view.read (Elt Ideal) (sumRowG V c w1 b1) := by
  have hN : cfg0.N = 100 := N_0
  have h99 : t.val = 99 := by have := (flush0_3 t).mp hf; have := t.isLt; omega
  have hz : (fun a => win0_3.index t a * main_v4_0.ty.shape.size a) = fun _ => 0 := funext fun a => by
    match a with
    | ⟨0, _⟩ => show win0_3.index t (0 : Fin 2) * _ = 0; rw [(block_places t).2.2.2.1.1, Nat.zero_mul]
    | ⟨1, _⟩ => show win0_3.index t (1 : Fin 2) * _ = 0; rw [(block_places t).2.2.2.1.2, Nat.zero_mul]
  show (cfg0.win 3).cut (grid0.coords t) ((statsDat V c).after 3 t) = _
  rw [stats_after_3]
  refine Eq.trans ?_ (Memref.read_access_unit_zero (Elt Ideal) main_v4_0 hz (fun a => by rw [congrFun hz a]; simp) (sumRowG V c w1 b1)).symm
  show ((rowsAfter V c t.val t.isLt).1 : S1x288.Idx → EReal) = sumRowG V c w1 b1
  funext i
  obtain ⟨a, j, rfl⟩ : ∃ (a : Fin 1) (j : Fin 288), i = ix2 a j := ⟨i 0, i 1, eq_ix2 i⟩
  obtain rfl : a = 0 := Subsingleton.elim _ _
  exact sum_row_last V c w1 b1 hw hb j t.val t.isLt h99

/-- The second result window's one write-back likewise writes the array of the sums of squares. -/
theorem sq_flushed (hw : ∀ (k : Fin 4) (j : Fin 288), V c main_v0 (ix2 k j) = w1 (ix2 j k))
    (hb : ∀ j : Fin 288, V c main_v2 (ix2 (0 : Fin 1) j) = b1 (ix1 j)) (t : Fin cfg0.N) (hf : (cfg0.win 4).flush t = true) :
    (statsDat (F := Ideal) V c).flushed 4 t = ((cfg0.win 4).blk t).view.read (Elt Ideal) (sqRowG V c w1 b1) := by
  have hN : cfg0.N = 100 := N_0
  have h99 : t.val = 99 := by have := (flush0_4 t).mp hf; have := t.isLt; omega
  have hz : (fun a => win0_4.index t a * main_v4_1.ty.shape.size a) = fun _ => 0 := funext fun a => by
    match a with
    | ⟨0, _⟩ => show win0_4.index t (0 : Fin 2) * _ = 0; rw [(block_places t).2.2.2.2.1, Nat.zero_mul]
    | ⟨1, _⟩ => show win0_4.index t (1 : Fin 2) * _ = 0; rw [(block_places t).2.2.2.2.2, Nat.zero_mul]
  show (cfg0.win 4).cut (grid0.coords t) ((statsDat V c).after 4 t) = _
  rw [stats_after_4]
  refine Eq.trans ?_ (Memref.read_access_unit_zero (Elt Ideal) main_v4_1 hz (fun a => by rw [congrFun hz a]; simp) (sqRowG V c w1 b1)).symm
  show ((rowsAfter V c t.val t.isLt).2 : S1x288.Idx → EReal) = sqRowG V c w1 b1
  funext i
  obtain ⟨a, j, rfl⟩ : ∃ (a : Fin 1) (j : Fin 288), i = ix2 a j := ⟨i 0, i 1, eq_ix2 i⟩
  obtain rfl : a = 0 := Subsingleton.elim _ _
  exact sq_row_last V c w1 b1 hw hb j t.val t.isLt h99

/-- The last tile, the one that writes the results back. -/
def lastTile : Fin cfg0.N := ⟨99, by rw [show cfg0.N = 100 from N_0]; decide⟩

/-- Every entry of the first result array lies in the block the last tile writes back. -/
theorem sum_cover (i : S1x288.Idx) :
    ∃ t : Fin cfg0.N, (cfg0.win 3).flush t = true ∧ i ∈ ((cfg0.win 3).blk t).view.set := by
  refine ⟨lastTile, (flush0_3 lastTile).mpr rfl, ?_⟩
  show i ∈ ((View.whole main_v4_0).slice (win0_3.rect lastTile)).set
  rw [View.set_slice_whole, Rect.mem_set_unit]
  intro a
  have h0 : (i 0 : Nat) < 1 := (i 0).isLt
  have h1 : (i 1 : Nat) < 288 := (i 1).isLt
  match a with
  | ⟨0, _⟩ =>
    show win0_3.index lastTile (0 : Fin 2) * 1 ≤ (i 0 : Nat) ∧ (i 0 : Nat) < win0_3.index lastTile (0 : Fin 2) * 1 + 1
    rw [(block_places lastTile).2.2.2.1.1]; omega
  | ⟨1, _⟩ =>
    show win0_3.index lastTile (1 : Fin 2) * 288 ≤ (i 1 : Nat) ∧ (i 1 : Nat) < win0_3.index lastTile (1 : Fin 2) * 288 + 288
    rw [(block_places lastTile).2.2.2.1.2]; omega

/-- And every entry of the second in the block the last tile writes back there. -/
theorem sq_cover (i : S1x288.Idx) :
    ∃ t : Fin cfg0.N, (cfg0.win 4).flush t = true ∧ i ∈ ((cfg0.win 4).blk t).view.set := by
  refine ⟨lastTile, (flush0_4 lastTile).mpr rfl, ?_⟩
  show i ∈ ((View.whole main_v4_1).slice (win0_4.rect lastTile)).set
  rw [View.set_slice_whole, Rect.mem_set_unit]
  intro a
  have h0 : (i 0 : Nat) < 1 := (i 0).isLt
  have h1 : (i 1 : Nat) < 288 := (i 1).isLt
  match a with
  | ⟨0, _⟩ =>
    show win0_4.index lastTile (0 : Fin 2) * 1 ≤ (i 0 : Nat) ∧ (i 0 : Nat) < win0_4.index lastTile (0 : Fin 2) * 1 + 1
    rw [(block_places lastTile).2.2.2.2.1]; omega
  | ⟨1, _⟩ =>
    show win0_4.index lastTile (1 : Fin 2) * 288 ≤ (i 1 : Nat) ∧ (i 1 : Nat) < win0_4.index lastTile (1 : Fin 2) * 288 + 288
    rw [(block_places lastTile).2.2.2.2.2]; omega

/-- After the whole pass, the first result array holds each channel's sum over all points of the linear layer, given that
    the pass's second and third operands are the transposed weights and the bias as a row. -/
theorem sum_array (hw : ∀ (k : Fin 4) (j : Fin 288), V c main_v0 (ix2 k j) = w1 (ix2 j k))
    (hb : ∀ j : Fin 288, V c main_v2 (ix2 (0 : Fin 1) j) = b1 (ix1 j)) (j : Fin 288) :
    (statsDat (F := Ideal) V c).arrAt 3 cfg0.N (ix2 (0 : Fin 1) j) = Cert.Spec.total (V c main_arg0) w1 b1 j :=
  congrFun ((statsDat (F := Ideal) V c).arrAt_eq_of_cover 3 (sumRowG V c w1 b1) (sum_flushed V c w1 b1 hw hb) sum_cover)
    (ix2 (0 : Fin 1) j)

/-- And the second holds each channel's sum of squares. -/
theorem sq_array (hw : ∀ (k : Fin 4) (j : Fin 288), V c main_v0 (ix2 k j) = w1 (ix2 j k))
    (hb : ∀ j : Fin 288, V c main_v2 (ix2 (0 : Fin 1) j) = b1 (ix1 j)) (j : Fin 288) :
    (statsDat (F := Ideal) V c).arrAt 4 cfg0.N (ix2 (0 : Fin 1) j) = Cert.Spec.totalSq (V c main_arg0) w1 b1 j :=
  congrFun ((statsDat (F := Ideal) V c).arrAt_eq_of_cover 4 (sqRowG V c w1 b1) (sq_flushed V c w1 b1 hw hb) sq_cover)
    (ix2 (0 : Fin 1) j)

end Cert.KernelIdeal.StatsValue

end
-- ==== Proof.MainValue.lean ====
/-
  What the main pass leaves in its result array, at the ideal reading: entry (n, i) is
  `Σ_j max (h[n,j] · scale[j] + shift[j]) 0 · w2[i,j] + b2[i]`, with `h` the linear layer of point n.

  Tile t writes rows 4000·t … 4000·t+3999; row n lies in tile n / 4000, and within a tile the body's value at a row
  depends on that row of the points and on the six small arrays only; the 125 tiles cover all 500000 rows.

  In order: the two matrix products of the body read at an entry (a sum over the contracted axis, the zero
  accumulator adding nothing); one tile's value at (r, i); what a tile reads (rows 4000·t + r of the points, the small
  arrays whole); the result as ONE function of the arrays, of which each tile writes its 4000 rows; the cover of the
  500000 rows by the 125 tiles; and the specification's `outK` once the small arrays are named.
-/
import proofs.«120336_j14070312862123_1_alg».proof.Proof.MainDat
import proofs.«120336_j14070312862123_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MainValue

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b)) (c : Dev nD)
variable (w1 : Cert.Spec.SW1.Idx → EReal) (b1 g be : Cert.Spec.SV.Idx → EReal) (w2 : Cert.Spec.SW2.Idx → EReal) (b2 : Cert.Spec.SV.Idx → EReal)

/-! ## The two products of the body, entry by entry -/

theorem dotA_lhs_0 (i : S4000x288.Idx) (q : dot_S4000x4_S4x288_S4000x288_1_0_0_1_n_n.contr.Idx) :
    (dot_S4000x4_S4x288_S4000x288_1_0_0_1_n_n.lhsIdx i q 0).val = (i 0).val := by
  unfold DotDims.lhsIdx
  rw [dif_neg (show ¬(0 : Fin S4000x4.rank) ∈ dot_S4000x4_S4x288_S4000x288_1_0_0_1_n_n.lhsBatch by decide),
    dif_pos (show (0 : Fin S4000x4.rank) ∈ dot_S4000x4_S4x288_S4000x288_1_0_0_1_n_n.lhsNonContracting by decide)]
  rfl
theorem dotA_lhs_1 (i : S4000x288.Idx) (q : dot_S4000x4_S4x288_S4000x288_1_0_0_1_n_n.contr.Idx) :
    (dot_S4000x4_S4x288_S4000x288_1_0_0_1_n_n.lhsIdx i q 1).val = (q ⟨0, by decide⟩).val :=
  dot_S4000x4_S4x288_S4000x288_1_0_0_1_n_n.lhsIdx_val_of_single rfl i q
theorem dotA_rhs_0 (i : S4000x288.Idx) (q : dot_S4000x4_S4x288_S4000x288_1_0_0_1_n_n.contr.Idx) :
    (dot_S4000x4_S4x288_S4000x288_1_0_0_1_n_n.rhsIdx i q 0).val = (q ⟨0, by decide⟩).val :=
  dot_S4000x4_S4x288_S4000x288_1_0_0_1_n_n.rhsIdx_val_of_single rfl i q
theorem dotA_rhs_1 (i : S4000x288.Idx) (q : dot_S4000x4_S4x288_S4000x288_1_0_0_1_n_n.contr.Idx) :
    (dot_S4000x4_S4x288_S4000x288_1_0_0_1_n_n.rhsIdx i q 1).val = (i 1).val := by
  unfold DotDims.rhsIdx
  rw [dif_neg (show ¬(1 : Fin S4x288.rank) ∈ dot_S4000x4_S4x288_S4000x288_1_0_0_1_n_n.rhsBatch by decide),
    dif_pos (show (1 : Fin S4x288.rank) ∈ dot_S4000x4_S4x288_S4000x288_1_0_0_1_n_n.rhsNonContracting by decide)]
  rfl

/-- The first product into the zero accumulator: row `r` of the points against column `j` of the weights. -/
theorem dotA_apply (a : FVec Ideal S4000x4 .bf16) (b : FVec Ideal S4x288 .bf16) (r : Fin 4000) (j : Fin 288) :
    matmul dot_S4000x4_S4x288_S4000x288_1_0_0_1_n_n none a b (constant S4000x288 .f32 0x00000000#32) (ix2 r j)
      = ∑ k : Fin 4, a (ix2 r k) * b (ix2 k j) := by
  simp only [matmul]
  rw [Ideal.matmul_constant_zero_apply, ← Equiv.sum_comp (contrEquiv1 dot_S4000x4_S4x288_S4000x288_1_0_0_1_n_n 4 rfl rfl).symm]
  refine Finset.sum_congr rfl fun k _ => ?_
  have hk := contrEquiv1_symm_val dot_S4000x4_S4x288_S4000x288_1_0_0_1_n_n 4 rfl rfl k
  have el : dot_S4000x4_S4x288_S4000x288_1_0_0_1_n_n.lhsIdx (ix2 r j) ((contrEquiv1 dot_S4000x4_S4x288_S4000x288_1_0_0_1_n_n 4 rfl rfl).symm k) = ix2 r k :=
    funext fun ax => Fin.ext (by
      match ax with
      | ⟨0, _⟩ => exact dotA_lhs_0 _ _
      | ⟨1, _⟩ => exact (dotA_lhs_1 _ _).trans hk)
  have er : dot_S4000x4_S4x288_S4000x288_1_0_0_1_n_n.rhsIdx (ix2 r j) ((contrEquiv1 dot_S4000x4_S4x288_S4000x288_1_0_0_1_n_n 4 rfl rfl).symm k) = ix2 k j :=
    funext fun ax => Fin.ext (by
      match ax with
      | ⟨0, _⟩ => exact (dotA_rhs_0 _ _).trans hk
      | ⟨1, _⟩ => exact dotA_rhs_1 _ _)
  rw [el, er]

theorem dotB_lhs_0 (i : S4000x288.Idx) (q : dot_S4000x288_S288x288_S4000x288_1_0_0_1_n_n.contr.Idx) :
    (dot_S4000x288_S288x288_S4000x288_1_0_0_1_n_n.lhsIdx i q 0).val = (i 0).val := by
  unfold DotDims.lhsIdx
  rw [dif_neg (show ¬(0 : Fin S4000x288.rank) ∈ dot_S4000x288_S288x288_S4000x288_1_0_0_1_n_n.lhsBatch by decide),
    dif_pos (show (0 : Fin S4000x288.rank) ∈ dot_S4000x288_S288x288_S4000x288_1_0_0_1_n_n.lhsNonContracting by decide)]
  rfl
theorem dotB_lhs_1 (i : S4000x288.Idx) (q : dot_S4000x288_S288x288_S4000x288_1_0_0_1_n_n.contr.Idx) :
    (dot_S4000x288_S288x288_S4000x288_1_0_0_1_n_n.lhsIdx i q 1).val = (q ⟨0, by decide⟩).val :=
  dot_S4000x288_S288x288_S4000x288_1_0_0_1_n_n.lhsIdx_val_of_single rfl i q
theorem dotB_rhs_0 (i : S4000x288.Idx) (q : dot_S4000x288_S288x288_S4000x288_1_0_0_1_n_n.contr.Idx) :
    (dot_S4000x288_S288x288_S4000x288_1_0_0_1_n_n.rhsIdx i q 0).val = (q ⟨0, by decide⟩).val :=
  dot_S4000x288_S288x288_S4000x288_1_0_0_1_n_n.rhsIdx_val_of_single rfl i q
theorem dotB_rhs_1 (i : S4000x288.Idx) (q : dot_S4000x288_S288x288_S4000x288_1_0_0_1_n_n.contr.Idx) :
    (dot_S4000x288_S288x288_S4000x288_1_0_0_1_n_n.rhsIdx i q 1).val = (i 1).val := by
  unfold DotDims.rhsIdx
  rw [dif_neg (show ¬(1 : Fin S288x288.rank) ∈ dot_S4000x288_S288x288_S4000x288_1_0_0_1_n_n.rhsBatch by decide),
    dif_pos (show (1 : Fin S288x288.rank) ∈ dot_S4000x288_S288x288_S4000x288_1_0_0_1_n_n.rhsNonContracting by decide)]
  rfl

/-- The second product into the zero accumulator: row `r` of the activations against column `j` of the second weights. -/
theorem dotB_apply (a : FVec Ideal S4000x288 .bf16) (b : FVec Ideal S288x288 .bf16) (r : Fin 4000) (j : Fin 288) :
    matmul dot_S4000x288_S288x288_S4000x288_1_0_0_1_n_n none a b (constant S4000x288 .f32 0x00000000#32) (ix2 r j)
      = ∑ k : Fin 288, a (ix2 r k) * b (ix2 k j) := by
  simp only [matmul]
  rw [Ideal.matmul_constant_zero_apply, ← Equiv.sum_comp (contrEquiv1 dot_S4000x288_S288x288_S4000x288_1_0_0_1_n_n 288 rfl rfl).symm]
  refine Finset.sum_congr rfl fun k _ => ?_
  have hk := contrEquiv1_symm_val dot_S4000x288_S288x288_S4000x288_1_0_0_1_n_n 288 rfl rfl k
  have el : dot_S4000x288_S288x288_S4000x288_1_0_0_1_n_n.lhsIdx (ix2 r j) ((contrEquiv1 dot_S4000x288_S288x288_S4000x288_1_0_0_1_n_n 288 rfl rfl).symm k) = ix2 r k :=
    funext fun ax => Fin.ext (by
      match ax with
      | ⟨0, _⟩ => exact dotB_lhs_0 _ _
      | ⟨1, _⟩ => exact (dotB_lhs_1 _ _).trans hk)
  have er : dot_S4000x288_S288x288_S4000x288_1_0_0_1_n_n.rhsIdx (ix2 r j) ((contrEquiv1 dot_S4000x288_S288x288_S4000x288_1_0_0_1_n_n 288 rfl rfl).symm k) = ix2 k j :=
    funext fun ax => Fin.ext (by
      match ax with
      | ⟨0, _⟩ => exact (dotB_rhs_0 _ _).trans hk
      | ⟨1, _⟩ => exact dotB_rhs_1 _ _)
  rw [el, er]

/-! ## One tile of the body, entry by entry -/

/-- A row vector stretched over the tile's 4000 rows reads its own entry of the column. -/
theorem row_apply (v : Vec Ideal S1x288 .f32) (r : Fin 4000) (j : Fin 288) :
    broadcastTo S4000x288 (shapeCast S1x288 v shapeCasts_S1x288_S1x288) broadcasts_S1x288_S4000x288 (ix2 r j)
      = v (ix2 (0 : Fin 1) j) :=
  (broadcastTo_1b_ab_apply _ _ r j).trans (congrFun (shapeCast_self v _) _)

/-- The body's value at row `r`, channel `i` of a tile: the first layer of that row of the points, scaled and shifted
    channel by channel, rectified, then sent through the second layer.  At the ideal reading the narrowings to the
    16-bit format change nothing, and both products start from the zero word, which adds nothing. -/
theorem tile_apply (x0 : Vec Ideal S4000x4 .f32) (w0 : Vec Ideal S4x288 .f32) (bb sc sh : Vec Ideal S1x288 .f32)
    (w20 : Vec Ideal S288x288 .f32) (b20 : Vec Ideal S1x288 .f32) (r : Fin 4000) (i : Fin 288) :
    k1_pay1 x0 w0 bb sc sh w20 b20 (ix2 r i)
      = (∑ j : Fin 288, max ((((∑ k : Fin 4, x0 (ix2 r k) * w0 (ix2 k j)) + bb (ix2 (0 : Fin 1) j)) * sc (ix2 (0 : Fin 1) j))
          + sh (ix2 (0 : Fin 1) j)) 0 * w20 (ix2 j i)) + b20 (ix2 (0 : Fin 1) i) := by
  unfold k1_pay1
  refine (addf_apply _ _ _).trans ?_
  refine congrArg₂ (· + ·) ?_ (row_apply b20 r i)
  refine (dotB_apply _ _ r i).trans ?_
  refine Finset.sum_congr rfl fun j _ => ?_
  refine congrArg₂ (· * ·) ?_ ?_
  · refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ (row_apply sh r j)
      refine (mulf_apply _ _ _).trans ?_
      refine congrArg₂ (· * ·) ?_ (row_apply sc r j)
      refine (addf_apply _ _ _).trans ?_
      refine congrArg₂ (· + ·) ?_ (row_apply bb r j)
      refine (dotA_apply _ _ r j).trans ?_
      refine Finset.sum_congr rfl fun k _ => ?_
      refine congrArg₂ (· * ·) (truncf_apply (ψ := .bf16) _ bitsLt_bf16_f32 _) ?_
      refine (truncf_apply (ψ := .bf16) _ bitsLt_bf16_f32 _).trans ?_
      exact congrFun (shapeCast_self w0 _) _
    · show Ideal.ofBits .f32 0x00000000#32 = 0
      exact Ideal.ofBits_zero_f32
  · refine (truncf_apply (ψ := .bf16) _ bitsLt_bf16_f32 _).trans ?_
    exact congrFun (shapeCast_self w20 _) _

/-! ## What a tile reads: its rows of the points, the six small arrays whole -/

/-- The printed index maps over the 125 tiles: the points' window and the result's window sit at block row `t`,
    column block 0; the six small windows stay at block (0, 0). -/
theorem idx_tiles : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row `r` of tile `t`'s block of the points is row `4000·t + r` of the points. -/
theorem pts_apply (t : Fin cfg1.N) (r : Fin 4000) (k : Fin 4) (n : Fin 500000) (hn : n.val = 4000 * t.val + r.val) :
    (mblk V c 0 t : Vec Ideal S4000x4 .f32) (ix2 r k) = (V c main_arg0 : S500000x4.Idx → EReal) (ix2 n k) := by
  obtain ⟨⟨e0, e1⟩, -⟩ := idx_tiles t
  unfold mblk
  rw [View.read_apply]
  show V c main_arg0 _ = V c main_arg0 _
  congr 1
  funext a
  apply Fin.ext
  match a with
  | ⟨0, _⟩ => show win1_0.index t 0 * 4000 + 1 * r.val = n.val; rw [e0, hn]; omega
  | ⟨1, _⟩ => show win1_0.index t 1 * 4 + 1 * k.val = k.val; rw [e1]; omega

/-- The first layer's transposed weights are read whole at every tile. -/
theorem win1_apply (t : Fin cfg1.N) (p : Fin 4) (q : Fin 288) :
    (mblk V c 1 t : Vec Ideal S4x288 .f32) (ix2 p q) = (V c main_v0 : S4x288.Idx → EReal) (ix2 p q) := by
  obtain ⟨-, ⟨e0, e1⟩, -⟩ := idx_tiles t
  unfold mblk
  rw [View.read_apply]
  show V c main_v0 _ = V c main_v0 _
  congr 1
  funext a
  apply Fin.ext
  match a with
  | ⟨0, _⟩ => show win1_1.index t 0 * 4 + 1 * p.val = p.val; rw [e0]; omega
  | ⟨1, _⟩ => show win1_1.index t 1 * 288 + 1 * q.val = q.val; rw [e1]; omega

/-- The first layer's bias row is read whole at every tile. -/
theorem win2_apply (t : Fin cfg1.N) (p : Fin 1) (q : Fin 288) :
    (mblk V c 2 t : Vec Ideal S1x288 .f32) (ix2 p q) = (V c main_v2 : S1x288.Idx → EReal) (ix2 p q) := by
  obtain ⟨-, -, ⟨e0, e1⟩, -⟩ := idx_tiles t
  unfold mblk
  rw [View.read_apply]
  show V c main_v2 _ = V c main_v2 _
  congr 1
  funext a
  apply Fin.ext
  match a with
  | ⟨0, _⟩ => show win1_2.index t 0 * 1 + 1 * p.val = p.val; rw [e0]; omega
  | ⟨1, _⟩ => show win1_2.index t 1 * 288 + 1 * q.val = q.val; rw [e1]; omega

/-- The scale row is read whole at every tile. -/
theorem win3_apply (t : Fin cfg1.N) (p : Fin 1) (q : Fin 288) :
    (mblk V c 3 t : Vec Ideal S1x288 .f32) (ix2 p q) = (V c main_v15 : S1x288.Idx → EReal) (ix2 p q) := by
  obtain ⟨-, -, -, ⟨e0, e1⟩, -⟩ := idx_tiles t
  unfold mblk
  rw [View.read_apply]
  show V c main_v15 _ = V c main_v15 _
  congr 1
  funext a
  apply Fin.ext
  match a with
  | ⟨0, _⟩ => show win1_3.index t 0 * 1 + 1 * p.val = p.val; rw [e0]; omega
  | ⟨1, _⟩ => show win1_3.index t 1 * 288 + 1 * q.val = q.val; rw [e1]; omega

/-- The shift row is read whole at every tile. -/
theorem win4_apply (t : Fin cfg1.N) (p : Fin 1) (q : Fin 288) :
    (mblk V c 4 t : Vec Ideal S1x288 .f32) (ix2 p q) = (V c main_v18 : S1x288.Idx → EReal) (ix2 p q) := by
  obtain ⟨-, -, -, -, ⟨e0, e1⟩, -⟩ := idx_tiles t
  unfold mblk
  rw [View.read_apply]
  show V c main_v18 _ = V c main_v18 _
  congr 1
  funext a
  apply Fin.ext
  match a with
  | ⟨0, _⟩ => show win1_4.index t 0 * 1 + 1 * p.val = p.val; rw [e0]; omega
  | ⟨1, _⟩ => show win1_4.index t 1 * 288 + 1 * q.val = q.val; rw [e1]; omega

/-- The second layer's transposed weights are read whole at every tile. -/
theorem win5_apply (t : Fin cfg1.N) (p : Fin 288) (q : Fin 288) :
    (mblk V c 5 t : Vec Ideal S288x288 .f32) (ix2 p q) = (V c main_v1 : S288x288.Idx → EReal) (ix2 p q) := by
  obtain ⟨-, -, -, -, -, ⟨e0, e1⟩, -⟩ := idx_tiles t
  unfold mblk
  rw [View.read_apply]
  show V c main_v1 _ = V c main_v1 _
  congr 1
  funext a
  apply Fin.ext
  match a with
  | ⟨0, _⟩ => show win1_5.index t 0 * 288 + 1 * p.val = p.val; rw [e0]; omega
  | ⟨1, _⟩ => show win1_5.index t 1 * 288 + 1 * q.val = q.val; rw [e1]; omega

/-- The second layer's bias row is read whole at every tile. -/
theorem win6_apply (t : Fin cfg1.N) (p : Fin 1) (q : Fin 288) :
    (mblk V c 6 t : Vec Ideal S1x288 .f32) (ix2 p q) = (V c main_v3 : S1x288.Idx → EReal) (ix2 p q) := by
  obtain ⟨-, -, -, -, -, -, ⟨e0, e1⟩, -⟩ := idx_tiles t
  unfold mblk
  rw [View.read_apply]
  show V c main_v3 _ = V c main_v3 _
  congr 1
  funext a
  apply Fin.ext
  match a with
  | ⟨0, _⟩ => show win1_6.index t 0 * 1 + 1 * p.val = p.val; rw [e0]; omega
  | ⟨1, _⟩ => show win1_6.index t 1 * 288 + 1 * q.val = q.val; rw [e1]; omega

/-! ## The result as one function of the arrays -/

/-- Entry (n, i) of the result, from the points and the six small arrays as the pass finds them. -/
def outFn (x : S500000x4.Idx → EReal) (w0 : S4x288.Idx → EReal) (bb sc sh : S1x288.Idx → EReal)
    (w20 : S288x288.Idx → EReal) (b20 : S1x288.Idx → EReal) (n : Fin 500000) (i : Fin 288) : EReal :=
  (∑ j : Fin 288, max ((((∑ k : Fin 4, x (ix2 n k) * w0 (ix2 k j)) + bb (ix2 (0 : Fin 1) j)) * sc (ix2 (0 : Fin 1) j))
    + sh (ix2 (0 : Fin 1) j)) 0 * w20 (ix2 j i)) + b20 (ix2 (0 : Fin 1) i)

/-- The whole result array: `outFn` at each index's two coordinates. -/
def outArr : S500000x288.Idx → EReal := fun idx =>
  outFn (V c main_arg0) (V c main_v0) (V c main_v2) (V c main_v15) (V c main_v18) (V c main_v1) (V c main_v3)
    ⟨(idx 0).val, idx2_lt0 idx⟩ ⟨(idx 1).val, idx2_lt1 idx⟩

/-- Tile `t`'s result at its row `r` is the whole-array function at row `4000·t + r`: the tile's value there depends on
    that row of the points and on the small arrays only. -/
theorem tile_row (t : Fin cfg1.N) (r : Fin 4000) (i : Fin 288) (n : Fin 500000) (hn : n.val = 4000 * t.val + r.val) :
    tileOut V c t (ix2 r i)
      = outFn (V c main_arg0) (V c main_v0) (V c main_v2) (V c main_v15) (V c main_v18) (V c main_v1) (V c main_v3) n i := by
  unfold tileOut
  refine (tile_apply (mblk V c 0 t) (mblk V c 1 t) (mblk V c 2 t) (mblk V c 3 t) (mblk V c 4 t) (mblk V c 5 t) (mblk V c 6 t) r i).trans ?_
  unfold outFn
  refine congrArg₂ (· + ·) ?_ (win6_apply V c t 0 i)
  refine Finset.sum_congr rfl fun j _ => ?_
  refine congrArg₂ (· * ·) ?_ (win5_apply V c t j i)
  refine congrArg₂ max ?_ rfl
  refine congrArg₂ (· + ·) ?_ (win4_apply V c t 0 j)
  refine congrArg₂ (· * ·) ?_ (win3_apply V c t 0 j)
  refine congrArg₂ (· + ·) ?_ (win2_apply V c t 0 j)
  refine Finset.sum_congr rfl fun k _ => ?_
  exact congrArg₂ (· * ·) (pts_apply V c t r k n hn) (win1_apply V c t k j)

/-! ## From the tiles to the array -/

/-- What tile `t` writes back is its 4000 rows of the whole-array function. -/
theorem flushed_rows (t : Fin cfg1.N) :
    (mainDat (F := Ideal) V c).flushed 7 t = ((cfg1.win 7).blk t).view.read (Elt Ideal) (outArr V c) := by
  obtain ⟨-, -, -, -, -, -, -, e0, e1⟩ := idx_tiles t
  have hN : t.val < 125 := lt_of_lt_of_eq t.isLt N_1
  show (cfg1.win 7).cut (grid1.coords t) ((mainDat (F := Ideal) V c).after 7 t) = _
  rw [main_after_7]
  funext y
  have h0 : (y 0).val < 4000 := (y 0).isLt
  have h1 : (y 1).val < 288 := (y 1).isLt
  rw [View.read_apply]
  show tileOut V c t ((cfg1.win 7).xinj (grid1.coords t) y) = outArr V c (((cfg1.win 7).blk t).view.emb y)
  have ey : (cfg1.win 7).xinj (grid1.coords t) y = ix2 (⟨(y 0).val, h0⟩ : Fin 4000) (⟨(y 1).val, h1⟩ : Fin 288) :=
    funext fun a => by
      match a with
      | ⟨0, _⟩ => rfl
      | ⟨1, _⟩ => rfl
  rw [ey]
  refine (tile_row V c t _ _ ⟨4000 * t.val + (y 0).val, by omega⟩ rfl).trans ?_
  unfold outArr
  congr 1 <;> apply Fin.ext
  · show 4000 * t.val + (y 0).val = win1_7.index t 0 * 4000 + 1 * (y 0).val
    rw [e0]; omega
  · show (y 1).val = win1_7.index t 1 * 288 + 1 * (y 1).val
    rw [e1]; omega

/-- An index of the result array lies in tile `t`'s block iff each coordinate lies in the block's range on its axis. -/
theorem mem_tile (t : Fin cfg1.N) (idx : S500000x288.Idx) :
    idx ∈ ((cfg1.win 7).blk t).view.set ↔ ∀ a : Fin 2, win1_7.index t a * S4000x288.size a ≤ (idx a).val
      ∧ (idx a).val < win1_7.index t a * S4000x288.size a + S4000x288.size a := by
  show idx ∈ ((View.whole main_v19).slice (win1_7.rect t)).set ↔ _
  rw [View.set_slice_whole, Rect.mem_set_unit]
  exact Iff.rfl

/-- Every row of the result lies in some tile's block: row `n` in tile `n / 4000`; and every tile writes back. -/
theorem rows_covered (idx : S500000x288.Idx) :
    ∃ t : Fin cfg1.N, (cfg1.win 7).flush t = true ∧ idx ∈ ((cfg1.win 7).blk t).view.set := by
  have h0 : (idx 0).val < 500000 := idx2_lt0 idx
  have h1 : (idx 1).val < 288 := idx2_lt1 idx
  obtain ⟨t, ht⟩ : ∃ t : Fin cfg1.N, t.val = (idx 0).val / 4000 :=
    ⟨⟨(idx 0).val / 4000, lt_of_lt_of_eq (by omega : (idx 0).val / 4000 < 125) N_1.symm⟩, rfl⟩
  obtain ⟨-, -, -, -, -, -, -, e0, e1⟩ := idx_tiles t
  refine ⟨t, flush1_7 t, ?_⟩
  rw [mem_tile]
  intro a
  match a with
  | ⟨0, _⟩ =>
    show win1_7.index t 0 * 4000 ≤ (idx 0).val ∧ (idx 0).val < win1_7.index t 0 * 4000 + 4000
    rw [e0, ht]; omega
  | ⟨1, _⟩ =>
    show win1_7.index t 1 * 288 ≤ (idx 1).val ∧ (idx 1).val < win1_7.index t 1 * 288 + 288
    rw [e1]; omega

/-- So after the last tile the result array is the whole-array function. -/
theorem out_arr_eq : (mainDat (F := Ideal) V c).arrAt 7 cfg1.N = outArr V c :=
  (mainDat (F := Ideal) V c).arrAt_eq_of_cover 7 (outArr V c) (fun t _ => flushed_rows V c t) rows_covered

/-! ## The specification's entry -/

/-- After the whole pass the result array is the specification's `outK`, given what the pass's six small operands hold:
    the transposed weights and bias row of the first layer, the scale and shift rows, the transposed weights and bias
    row of the second layer. -/
theorem out_array (hw : ∀ (k : Fin 4) (j : Fin 288), V c main_v0 (ix2 k j) = w1 (ix2 j k))
    (hb : ∀ j : Fin 288, V c main_v2 (ix2 (0 : Fin 1) j) = b1 (ix1 j))
    (hsc : ∀ j : Fin 288, V c main_v15 (ix2 (0 : Fin 1) j) = Cert.Spec.scaleK (V c main_arg0) w1 b1 g j)
    (hsh : ∀ j : Fin 288, V c main_v18 (ix2 (0 : Fin 1) j) = Cert.Spec.shiftK (V c main_arg0) w1 b1 g be j)
    (hw2 : ∀ (j i : Fin 288), V c main_v1 (ix2 j i) = w2 (ix2 i j))
    (hb2 : ∀ i : Fin 288, V c main_v3 (ix2 (0 : Fin 1) i) = b2 (ix1 i))
    (n : Fin 500000) (i : Fin 288) :
    (mainDat (F := Ideal) V c).arrAt 7 cfg1.N (ix2 n i) = Cert.Spec.outK (V c main_arg0) w1 b1 g be w2 b2 n i := by
  refine (congrFun (out_arr_eq V c) (ix2 n i)).trans ?_
  show outFn (V c main_arg0) (V c main_v0) (V c main_v2) (V c main_v15) (V c main_v18) (V c main_v1) (V c main_v3) n i = _
  unfold outFn Cert.Spec.outK Cert.Spec.actK Cert.Spec.lin
  refine congrArg₂ (· + ·) ?_ (hb2 i)
  refine Finset.sum_congr rfl fun j _ => ?_
  refine congrArg₂ (· * ·) ?_ (hw2 j i)
  refine congrArg₂ max ?_ rfl
  refine congrArg₂ (· + ·) ?_ (hsh j)
  refine congrArg₂ (· * ·) ?_ (hsc j)
  refine congrArg₂ (· + ·) ?_ (hb j)
  exact Finset.sum_congr rfl fun k _ => congrArg₂ (· * ·) rfl (hw k j)

end Cert.KernelIdeal.MainValue

end
-- ==== Proof.Glue.lean ====
/-
  What the host stretches make, read at an index, at the ideal reading.

  Before either pass: the first layer's weights transposed, `w1ᵀ[k, j] = w1[j, k]`; its bias as a row; the second layer's
  weights transposed and its bias as a row; the points untouched.  Between the passes, from the statistics pass's two result
  rows `S` and `Q`: the mean `S / N`, the variance `Q / N − mean · mean`, the scale `γ · rsqrt (variance + eps)` and the shift
  `β − mean · scale`.  None of these stretches writes an argument or an earlier stretch's result, so what one made the later
  items still find.
-/
import proofs.«120336_j14070312862123_1_alg».proof.Proof.Between
import proofs.«120336_j14070312862123_1_alg».proof.Proof.Kept
import proofs.«120336_j14070312862123_1_alg».proof.Proof.Gen.KernelIdeal.Regions
import proofs.«120336_j14070312862123_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-! ### What the first stretch makes, as whole arrays -/

/-- The first layer's weights, transposed. -/
private theorem firstWeightsT : (inA (F := Ideal) m c main_v0 : S4x288.Idx → EReal)
    = transpose S4x288 [1, 0] (m ((c : Thread nD τ).loc main_arg1)) transposes_S288x4_S4x288_1_0 := by
  show StableHlo.after hostOps0 (mem0 m c) (Proc.devRef .tc main_v0) = _
  after_results

/-- The second layer's weights, transposed. -/
private theorem secondWeightsT : (inA (F := Ideal) m c main_v1 : S288x288.Idx → EReal)
    = transpose S288x288 [1, 0] (m ((c : Thread nD τ).loc main_arg5)) transposes_S288x288_S288x288_1_0 := by
  show StableHlo.after hostOps0 (mem0 m c) (Proc.devRef .tc main_v1) = _
  after_results

/-- The first layer's bias, as a row. -/
private theorem firstBiasRow : (inA (F := Ideal) m c main_v2 : S1x288.Idx → EReal)
    = shapeCast S1x288 (m ((c : Thread nD τ).loc main_arg2)) shapeCasts_S288_S1x288 := by
  show StableHlo.after hostOps0 (mem0 m c) (Proc.devRef .tc main_v2) = _
  after_results
  rfl

/-- The second layer's bias, as a row. -/
private theorem secondBiasRow : (inA (F := Ideal) m c main_v3 : S1x288.Idx → EReal)
    = shapeCast S1x288 (m ((c : Thread nD τ).loc main_arg6)) shapeCasts_S288_S1x288 := by
  show StableHlo.after hostOps0 (mem0 m c) (Proc.devRef .tc main_v3) = _
  after_results
  rfl

/-! ### What the statistics pass is entered with -/

theorem inA_points : inA (F := Ideal) m c main_arg0 = m ((c : Thread nD τ).loc main_arg0) :=
  StableHlo.after_of_writes_sub hostOps0 _ hostOps0_writes (r := main_arg0) (by decide)
theorem inA_weights (k : Fin 4) (j : Fin 288) :
    inA (F := Ideal) m c main_v0 (ix2 k j) = m ((c : Thread nD τ).loc main_arg1) (ix2 j k) :=
  (congrFun (firstWeightsT m c) (ix2 k j)).trans (transpose_ix2_apply _ _ k j)
theorem inA_bias (j : Fin 288) :
    inA (F := Ideal) m c main_v2 (ix2 (0 : Fin 1) j) = m ((c : Thread nD τ).loc main_arg2) (ix1 j) :=
  (congrFun (firstBiasRow m c) (ix2 (0 : Fin 1) j)).trans (shapeCast_a_1a_apply _ _ 0 j)

/-! ### From the main pass's entry back to the statistics pass's

The second stretch writes none of these five buffers.  The points, the transposed first weights and the first bias row are
the statistics pass's three read-only arrays, which it leaves as it found them; the transposed second weights and the second
bias row are no array of that pass at all. -/

private theorem back_points : inC (F := Ideal) m c main_arg0 = inA (F := Ideal) m c main_arg0 :=
  calc memC m c (Proc.devRef .tc main_arg0)
    _ = memB m c (Proc.devRef .tc main_arg0) := StableHlo.after_of_writes_sub hostOps1 _ hostOps1_writes (r := main_arg0) (by decide)
    _ = memA m c (Proc.devRef .tc main_arg0) :=
        (memB_array m c 0).trans (((statsDat (inA m) c).arrAt_in 0 rfl _).trans (statsDat_A (inA m) c 0))
private theorem back_weights : inC (F := Ideal) m c main_v0 = inA (F := Ideal) m c main_v0 :=
  calc memC m c (Proc.devRef .tc main_v0)
    _ = memB m c (Proc.devRef .tc main_v0) := StableHlo.after_of_writes_sub hostOps1 _ hostOps1_writes (r := main_v0) (by decide)
    _ = memA m c (Proc.devRef .tc main_v0) :=
        (memB_array m c 1).trans (((statsDat (inA m) c).arrAt_in 1 rfl _).trans (statsDat_A (inA m) c 1))
private theorem back_bias : inC (F := Ideal) m c main_v2 = inA (F := Ideal) m c main_v2 :=
  calc memC m c (Proc.devRef .tc main_v2)
    _ = memB m c (Proc.devRef .tc main_v2) := StableHlo.after_of_writes_sub hostOps1 _ hostOps1_writes (r := main_v2) (by decide)
    _ = memA m c (Proc.devRef .tc main_v2) :=
        (memB_array m c 2).trans (((statsDat (inA m) c).arrAt_in 2 rfl _).trans (statsDat_A (inA m) c 2))
private theorem back_weights2 : inC (F := Ideal) m c main_v1 = inA (F := Ideal) m c main_v1 :=
  calc memC m c (Proc.devRef .tc main_v1)
    _ = memB m c (Proc.devRef .tc main_v1) := StableHlo.after_of_writes_sub hostOps1 _ hostOps1_writes (r := main_v1) (by decide)
    _ = memA m c (Proc.devRef .tc main_v1) := memB_other m c main_v1 (by decide)
private theorem back_bias2 : inC (F := Ideal) m c main_v3 = inA (F := Ideal) m c main_v3 :=
  calc memC m c (Proc.devRef .tc main_v3)
    _ = memB m c (Proc.devRef .tc main_v3) := StableHlo.after_of_writes_sub hostOps1 _ hostOps1_writes (r := main_v3) (by decide)
    _ = memA m c (Proc.devRef .tc main_v3) := memB_other m c main_v3 (by decide)

/-! ### What the main pass is entered with -/

theorem inC_points : inC (F := Ideal) m c main_arg0 = m ((c : Thread nD τ).loc main_arg0) :=
  (back_points m c).trans (inA_points m c)
theorem inC_weights (k : Fin 4) (j : Fin 288) :
    inC (F := Ideal) m c main_v0 (ix2 k j) = m ((c : Thread nD τ).loc main_arg1) (ix2 j k) :=
  (congrFun (back_weights m c) (ix2 k j)).trans (inA_weights m c k j)
theorem inC_bias (j : Fin 288) :
    inC (F := Ideal) m c main_v2 (ix2 (0 : Fin 1) j) = m ((c : Thread nD τ).loc main_arg2) (ix1 j) :=
  (congrFun (back_bias m c) (ix2 (0 : Fin 1) j)).trans (inA_bias m c j)
theorem inC_weights2 (j i : Fin 288) :
    inC (F := Ideal) m c main_v1 (ix2 j i) = m ((c : Thread nD τ).loc main_arg5) (ix2 i j) :=
  (congrFun ((back_weights2 m c).trans (secondWeightsT m c)) (ix2 j i)).trans (transpose_ix2_apply _ _ j i)
theorem inC_bias2 (i : Fin 288) :
    inC (F := Ideal) m c main_v3 (ix2 (0 : Fin 1) i) = m ((c : Thread nD τ).loc main_arg6) (ix1 i) :=
  (congrFun ((back_bias2 m c).trans (secondBiasRow m c)) (ix2 (0 : Fin 1) i)).trans (shapeCast_a_1a_apply _ _ 0 i)

/-- Entries, as extended reals: the normalisation's weight and offset, the statistics pass's two result rows, the scale row. -/
abbrev gammaAt (j : Fin 288) : EReal := m ((c : Thread nD τ).loc main_arg3) (ix1 j)
abbrev betaAt (j : Fin 288) : EReal := m ((c : Thread nD τ).loc main_arg4) (ix1 j)
abbrev sumAt (j : Fin 288) : EReal := outB (F := Ideal) m c main_v4_0 (ix2 (0 : Fin 1) j)
abbrev sqAt (j : Fin 288) : EReal := outB (F := Ideal) m c main_v4_1 (ix2 (0 : Fin 1) j)
abbrev scaleAt (j : Fin 288) : EReal := inC (F := Ideal) m c main_v15 (ix2 (0 : Fin 1) j)
abbrev shiftAt (j : Fin 288) : EReal := inC (F := Ideal) m c main_v18 (ix2 (0 : Fin 1) j)

/-! ### The normalisation's weight and offset reach the second stretch as launched

Neither is an array of the statistics pass, and the first stretch writes neither. -/

private theorem kept_gamma : memB (F := Ideal) m c (Proc.devRef .tc main_arg3) = m ((c : Thread nD τ).loc main_arg3) :=
  calc memB m c (Proc.devRef .tc main_arg3)
    _ = memA m c (Proc.devRef .tc main_arg3) := memB_other m c main_arg3 (by decide)
    _ = mem0 m c (Proc.devRef .tc main_arg3) := StableHlo.after_of_writes_sub hostOps0 _ hostOps0_writes (r := main_arg3) (by decide)
private theorem kept_beta : memB (F := Ideal) m c (Proc.devRef .tc main_arg4) = m ((c : Thread nD τ).loc main_arg4) :=
  calc memB m c (Proc.devRef .tc main_arg4)
    _ = memA m c (Proc.devRef .tc main_arg4) := memB_other m c main_arg4 (by decide)
    _ = mem0 m c (Proc.devRef .tc main_arg4) := StableHlo.after_of_writes_sub hostOps0 _ hostOps0_writes (r := main_arg4) (by decide)

/-! ### What the second stretch makes, as whole rows -/

/-- The number of points and the stabiliser, each spread over a row. -/
private abbrev cntRow : S1x288.Idx → EReal := broadcastInDim S1x288 ![] bcast_S_S1x288 (constant (F := Ideal) S_ .f32 0x48F42400#32)
private abbrev epsRow : S1x288.Idx → EReal := broadcastInDim S1x288 ![] bcast_S_S1x288 (constant (F := Ideal) S_ .f32 0x3727C5AC#32)

/-- The scale row: the weight row times the reciprocal root of variance plus stabiliser, the variance being the mean of
squares less the squared mean. -/
private theorem scaleRow : @Eq (FVec Ideal S1x288 .f32) (inC (F := Ideal) m c main_v15)
      (mulf (shapeCast S1x288 (memB (F := Ideal) m c (Proc.devRef .tc main_arg3)) shapeCasts_S288_S1x288)
        (Host.rsqrt (addf (subf (Host.divf (outB (F := Ideal) m c main_v4_1) cntRow)
            (mulf (Host.divf (outB (F := Ideal) m c main_v4_0) cntRow) (Host.divf (outB (F := Ideal) m c main_v4_0) cntRow)))
          epsRow))) := by
  show StableHlo.after hostOps1 (memB m c) (Proc.devRef .tc main_v15) = _
  after_results
  rfl

/-- The shift row: the offset row less mean times scale. -/
private theorem shiftRow : @Eq (FVec Ideal S1x288 .f32) (inC (F := Ideal) m c main_v18)
      (subf (shapeCast S1x288 (memB (F := Ideal) m c (Proc.devRef .tc main_arg4)) shapeCasts_S288_S1x288)
        (mulf (Host.divf (outB (F := Ideal) m c main_v4_0) cntRow) (inC (F := Ideal) m c main_v15))) := by
  show @Eq (FVec Ideal S1x288 .f32) (StableHlo.after hostOps1 (memB m c) (Proc.devRef .tc main_v18))
    (subf _ (mulf _ (StableHlo.after hostOps1 (memB m c) (Proc.devRef .tc main_v15))))
  after_results
  rfl

/-- The weight row at a channel. -/
private theorem gamma_entry (j : Fin 288) :
    shapeCast S1x288 (memB (F := Ideal) m c (Proc.devRef .tc main_arg3)) shapeCasts_S288_S1x288 (ix2 (0 : Fin 1) j) = gammaAt m c j :=
  (shapeCast_a_1a_apply _ _ 0 j).trans (congrFun (kept_gamma m c) (ix1 j))
/-- The offset row at a channel. -/
private theorem beta_entry (j : Fin 288) :
    shapeCast S1x288 (memB (F := Ideal) m c (Proc.devRef .tc main_arg4)) shapeCasts_S288_S1x288 (ix2 (0 : Fin 1) j) = betaAt m c j :=
  (shapeCast_a_1a_apply _ _ 0 j).trans (congrFun (kept_beta m c) (ix1 j))

/-- The scale row, from the statistics pass's two result rows. -/
theorem inC_scale (j : Fin 288) :
    scaleAt m c j
      = gammaAt m c j * Ideal.rsqrt ((Ideal.div (sqAt m c j) Cert.Spec.cnt
            - Ideal.div (sumAt m c j) Cert.Spec.cnt * Ideal.div (sumAt m c j) Cert.Spec.cnt) + Cert.Spec.eps) := by
  refine (congrFun (scaleRow m c) (ix2 (0 : Fin 1) j)).trans ?_
  unfold Cert.Spec.cnt Cert.Spec.eps
  exact congrArg (· * _) (gamma_entry m c j)

/-- The shift row, from the mean and the scale row. -/
theorem inC_shift (j : Fin 288) :
    shiftAt m c j = betaAt m c j - Ideal.div (sumAt m c j) Cert.Spec.cnt * scaleAt m c j := by
  refine (congrFun (shiftRow m c) (ix2 (0 : Fin 1) j)).trans ?_
  unfold Cert.Spec.cnt
  exact congrArg (· - _) (beta_entry m c j)

end Cert.KernelIdeal.Glue

end
-- ==== Proof.KernelValue.lean ====
/-
  What the kernel's program leaves in its result array, at the ideal reading, in terms of the launch memory: entry (n, i)
  is `Cert.Spec.outK` of the seven arguments.

  The main pass writes the result from the points, the transposed first-layer weights, the bias row, the scale and shift
  rows, the transposed second-layer weights and its bias row (`MainValue.out_array`).  Those operands are what the host
  stretches made: transposes and reshapes of the arguments, and — from the statistics pass's two sums
  (`StatsValue.sum_array`, `sq_array`) — the mean `Σ h / N`, the variance `Σ h² / N − mean²`, the scale
  `γ · rsqrt (var + eps)` and the shift `β − mean · scale`, each read at an index.
-/
import proofs.«120336_j14070312862123_1_alg».proof.Proof.Between
import proofs.«120336_j14070312862123_1_alg».proof.Proof.Kept
import proofs.«120336_j14070312862123_1_alg».proof.Proof.StatsValue
import proofs.«120336_j14070312862123_1_alg».proof.Proof.MainValue
import proofs.«120336_j14070312862123_1_alg».proof.Proof.Glue
import proofs.«120336_j14070312862123_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The result array at the return is the specification's `outK` of the arguments' launch contents. -/
theorem result_eq (n : Fin 500000) (i : Fin 288) :
    outD (F := Ideal) m c main_v19 (ix2 n i)
      = Cert.Spec.outK (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) n i := by
  have hp : inC (F := Ideal) m c main_arg0 = m ((c : Thread nD τ).loc main_arg0) := Glue.inC_points m c
  -- the statistics pass's two result rows are each channel's sum and sum of squares over all points
  have hS : ∀ j : Fin 288, Glue.sumAt m c j = Cert.Spec.total (m ((c : Thread nD τ).loc main_arg0)) (m ((c : Thread nD τ).loc main_arg1)) (m ((c : Thread nD τ).loc main_arg2)) j := fun j => by
    have h := StatsValue.sum_array (inA (F := Ideal) m) c (m ((c : Thread nD τ).loc main_arg1)) (m ((c : Thread nD τ).loc main_arg2)) (Glue.inA_weights m c) (Glue.inA_bias m c) j
    rw [Glue.inA_points] at h
    exact (congrFun (memB_array m c 3) (ix2 (0 : Fin 1) j)).trans h
  have hQ : ∀ j : Fin 288, Glue.sqAt m c j = Cert.Spec.totalSq (m ((c : Thread nD τ).loc main_arg0)) (m ((c : Thread nD τ).loc main_arg1)) (m ((c : Thread nD τ).loc main_arg2)) j := fun j => by
    have h := StatsValue.sq_array (inA (F := Ideal) m) c (m ((c : Thread nD τ).loc main_arg1)) (m ((c : Thread nD τ).loc main_arg2)) (Glue.inA_weights m c) (Glue.inA_bias m c) j
    rw [Glue.inA_points] at h
    exact (congrFun (memB_array m c 4) (ix2 (0 : Fin 1) j)).trans h
  -- so the scale and shift rows are the specification's
  have hsc : ∀ j : Fin 288, inC (F := Ideal) m c main_v15 (ix2 (0 : Fin 1) j)
      = Cert.Spec.scaleK (inC (F := Ideal) m c main_arg0) (m ((c : Thread nD τ).loc main_arg1)) (m ((c : Thread nD τ).loc main_arg2)) (m ((c : Thread nD τ).loc main_arg3)) j := fun j => by
    rw [hp]
    refine (Glue.inC_scale m c j).trans ?_
    rw [hS, hQ]
    rfl
  have hsh : ∀ j : Fin 288, inC (F := Ideal) m c main_v18 (ix2 (0 : Fin 1) j)
      = Cert.Spec.shiftK (inC (F := Ideal) m c main_arg0) (m ((c : Thread nD τ).loc main_arg1)) (m ((c : Thread nD τ).loc main_arg2)) (m ((c : Thread nD τ).loc main_arg3)) (m ((c : Thread nD τ).loc main_arg4)) j := fun j => by
    refine (Glue.inC_shift m c j).trans ?_
    rw [show Glue.scaleAt m c j = inC (F := Ideal) m c main_v15 (ix2 (0 : Fin 1) j) from rfl, hsc j, hS, hp]
    rfl
  -- and the result array, the main pass's, is the specification's
  have hout := MainValue.out_array (inC (F := Ideal) m) c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (Glue.inC_weights m c) (Glue.inC_bias m c) hsc hsh (Glue.inC_weights2 m c) (Glue.inC_bias2 m c) n i
  rw [hp] at hout
  exact (congrFun (memD_array m c 7) (ix2 n i)).trans hout

end Cert.KernelIdeal.KernelValue

end
-- ==== Proof.RefValue.lean ====
/-
  What the reference computes, entry by entry: its result array at index (n, i) is `Cert.Spec.outR` of its seven
  argument arrays — the linear layer, the batch statistics taken as a mean and a mean squared deviation over the
  500000 points, the normalisation `(h − mean) · (γ · rsqrt (var + eps)) + β`, the rectifier and the second linear layer,
  each read at an index off the run's composed term.
-/
import proofs.«120336_j14070312862123_1_alg».proof.Proof.Gen.ReferenceIdeal.Read
import proofs.«120336_j14070312862123_1_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.Read

/-! ## Where each stage reads its operands

Every stage of the reference reads its operands at indices computed from the result's index.  In coordinates these are
plain: a matrix product reads row `n` of the left factor and column `j` of the right one, a transposed matrix swaps
its coordinates, a per-channel vector spread over the points is read at the channel, and a sum over the points walks the
first coordinate. -/

/-- The first product reads the point cloud at (point, summation index). -/
theorem cloud_at (n : Fin 500000) (j : Fin 288) (k : Fin 4) : lidx_main_v1 (ix2 n j) k = ix2 n k :=
  funext fun a => Fin.ext (by match a with | ⟨0, _⟩ => rfl | ⟨1, _⟩ => rfl)

/-- The first product reads the transposed first weight matrix, hence the matrix itself at (channel, summation index). -/
theorem weight1_at (n : Fin 500000) (j : Fin 288) (k : Fin 4) : idx_main_v0 (ridx_main_v1 (ix2 n j) k) = ix2 j k :=
  funext fun a => Fin.ext (by match a with | ⟨0, _⟩ => rfl | ⟨1, _⟩ => rfl)

/-- The first bias, spread over the points, is read at the channel. -/
theorem bias1_at (n : Fin 500000) (j : Fin 288) : idx_main_v2 (idx_main_v3 (ix2 n j)) = ix1 j :=
  funext fun a => Fin.ext (by match a with | ⟨0, _⟩ => rfl)

/-- The sum that gives the mean walks the points of one channel. -/
theorem meanSum_at (j : Fin 288) (k : Fin 500000) : idx_main_v5 (ix1 j) k = ix2 k j :=
  funext fun a => Fin.ext (by match a with | ⟨0, _⟩ => rfl | ⟨1, _⟩ => rfl)

/-- The mean, spread over the points for the deviation, is read at the channel. -/
theorem meanDev_at (n : Fin 500000) (j : Fin 288) : idx_main_v8 (idx_main_v9 (ix2 n j)) = ix1 j :=
  funext fun a => Fin.ext (by match a with | ⟨0, _⟩ => rfl)

/-- The sum that gives the variance walks the points of one channel. -/
theorem varSum_at (j : Fin 288) (k : Fin 500000) : idx_main_v12 (ix1 j) k = ix2 k j :=
  funext fun a => Fin.ext (by match a with | ⟨0, _⟩ => rfl | ⟨1, _⟩ => rfl)

/-- The mean, spread over the points for the normalisation, is read at the channel. -/
theorem meanNorm_at (n : Fin 500000) (j : Fin 288) : idx_main_v15 (idx_main_v16 (ix2 n j)) = ix1 j :=
  funext fun a => Fin.ext (by match a with | ⟨0, _⟩ => rfl)

/-- The scale, spread over the points, is read at the channel. -/
theorem scale_at (n : Fin 500000) (j : Fin 288) : idx_main_v22 (idx_main_v23 (ix2 n j)) = ix1 j :=
  funext fun a => Fin.ext (by match a with | ⟨0, _⟩ => rfl)

/-- The shift, spread over the points, is read at the channel. -/
theorem shift_at (n : Fin 500000) (j : Fin 288) : idx_main_v25 (idx_main_v26 (ix2 n j)) = ix1 j :=
  funext fun a => Fin.ext (by match a with | ⟨0, _⟩ => rfl)

/-- The second product reads the activation at (point, summation index). -/
theorem act_at (n : Fin 500000) (i : Fin 288) (k : Fin 288) : lidx_main_v30 (ix2 n i) k = ix2 n k :=
  funext fun a => Fin.ext (by match a with | ⟨0, _⟩ => rfl | ⟨1, _⟩ => rfl)

/-- The second product reads the transposed second weight matrix, hence the matrix itself at (output channel, summation index). -/
theorem weight2_at (n : Fin 500000) (i : Fin 288) (k : Fin 288) : idx_main_v29 (ridx_main_v30 (ix2 n i) k) = ix2 i k :=
  funext fun a => Fin.ext (by match a with | ⟨0, _⟩ => rfl | ⟨1, _⟩ => rfl)

/-- The second bias, spread over the points, is read at the output channel. -/
theorem bias2_at (n : Fin 500000) (i : Fin 288) : idx_main_v31 (idx_main_v32 (ix2 n i)) = ix1 i :=
  funext fun a => Fin.ext (by match a with | ⟨0, _⟩ => rfl)

/-! ## The stages, one named quantity at a time -/

section
variable (x0 : (⟨S500000x4, .f32⟩ : BufTy).Contents (Elt Ideal)) (x1 : (⟨S288x4, .f32⟩ : BufTy).Contents (Elt Ideal))
  (x2 x3 x4 : (⟨S288, .f32⟩ : BufTy).Contents (Elt Ideal)) (x5 : (⟨S288x288, .f32⟩ : BufTy).Contents (Elt Ideal))
  (x6 : (⟨S288, .f32⟩ : BufTy).Contents (Elt Ideal))

/-- The first linear layer: the product with the transposed weights plus the spread bias is `lin`. -/
theorem lin_at (n : Fin 500000) (j : Fin 288) :
    val_main_v4 (F := Ideal) x0 x1 x2 (ix2 n j) = Cert.Spec.lin x0 x1 x2 n j := by
  rw [val_main_v4_apply, val_main_v1_apply, val_main_v3_apply, val_main_v2_apply, bias1_at]
  simp only [val_main_v0_apply, cloud_at, weight1_at, Ideal.addf_def]
  rfl

/-- The mean of a channel: the sum of `lin` over the points (the sum starts from the zero word), divided by the count. -/
theorem mean_at (j : Fin 288) :
    val_main_v7 (F := Ideal) x0 x1 x2 (ix1 j) = Cert.Spec.mean x0 x1 x2 j := by
  rw [val_main_v7_apply, val_main_v5_apply, val_main_v6_apply, val_main_cst_0_apply, val_main_cst_apply]
  simp only [meanSum_at, lin_at, Ideal.hostDivf_def, Ideal.ofBits_def, Ideal.ofBits_zero_f32, zero_add]
  rfl

/-- The deviation from the mean that the variance squares. -/
theorem dev_at (n : Fin 500000) (j : Fin 288) :
    val_main_v10 (F := Ideal) x0 x1 x2 (ix2 n j) = Cert.Spec.lin x0 x1 x2 n j - Cert.Spec.mean x0 x1 x2 j := by
  rw [val_main_v10_apply, val_main_v9_apply, val_main_v8_apply, meanDev_at, lin_at, mean_at, Ideal.subf_def]

/-- The variance of a channel: the sum of squared deviations over the points, divided by the count. -/
theorem var_at (j : Fin 288) :
    val_main_v14 (F := Ideal) x0 x1 x2 (ix1 j) = Cert.Spec.varR x0 x1 x2 j := by
  rw [val_main_v14_apply, val_main_v12_apply, val_main_v13_apply, val_main_cst_2_apply, val_main_cst_1_apply]
  simp only [val_main_v11_apply, varSum_at, dev_at, Ideal.mulf_def, Ideal.hostDivf_def, Ideal.ofBits_def,
    Ideal.ofBits_zero_f32, zero_add]
  rfl

/-- The scale of a channel: the gain times the reciprocal square root of the stabilised variance. -/
theorem scaleR_at (j : Fin 288) :
    val_main_v21 (F := Ideal) x0 x1 x2 x3 (ix1 j) = Cert.Spec.scaleR x0 x1 x2 x3 j := by
  rw [val_main_v21_apply, val_main_v20_apply, val_main_v19_apply, val_main_v18_apply, val_main_cst_3_apply, var_at]
  simp only [Ideal.mulf_def, Ideal.addf_def, Ideal.hostUnary_rsqrt_def, Ideal.ofBits_def]
  rfl

/-- The rectified, normalised activation. -/
theorem actR_at (n : Fin 500000) (j : Fin 288) :
    val_main_v28 (F := Ideal) x0 x1 x2 x3 x4 (ix2 n j) = Cert.Spec.actR x0 x1 x2 x3 x4 n j := by
  rw [val_main_v28_apply, val_main_v27_apply, val_main_v24_apply, val_main_v17_apply, val_main_v16_apply,
    val_main_v15_apply, meanNorm_at, val_main_v23_apply, val_main_v22_apply, scale_at, val_main_v26_apply,
    val_main_v25_apply, shift_at, val_main_call0_v0_apply, val_main_call0_cst_apply, lin_at, mean_at, scaleR_at]
  simp only [Ideal.maximumf_def, Ideal.addf_def, Ideal.mulf_def, Ideal.subf_def, Ideal.ofBits_def, Ideal.ofBits_zero_f32]
  rfl

/-- The second linear layer over the activation: the reference's result is `outR`. -/
theorem outR_at (n : Fin 500000) (i : Fin 288) :
    val_main_v33 (F := Ideal) x0 x1 x2 x3 x4 x5 x6 (ix2 n i) = Cert.Spec.outR x0 x1 x2 x3 x4 x5 x6 n i := by
  rw [val_main_v33_apply, val_main_v30_apply, val_main_v32_apply, val_main_v31_apply, bias2_at]
  simp only [val_main_v29_apply, act_at, weight2_at, actR_at, Ideal.addf_def]
  rfl

end

/-- The reference's result at an index is the specification's `outR` of the launch contents of its arguments. -/
theorem res_eq_outR (m : (ℓ : Loc nD τ sig) → Buf (Elt Ideal) ℓ) (c : Dev nD) (i : S500000x288.Idx) :
    Cert.ReferenceIdeal.Value.res_out0 (F := Ideal) m c i
      = Cert.Spec.outR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (i 0) (i 1) := by
  have hrun := congrFun (val_main_v33_eq (F := Ideal) m c) i
  refine hrun.trans ((congrArg (val_main_v33 (F := Ideal) _ _ _ _ _ _ _) (eq_ix2 i)).trans ?_)
  exact outR_at _ _ _ _ _ _ _ (i 0) (i 1)

end Cert.ReferenceIdeal.RefValue

end
-- ==== Proof.Algebra.lean ====
/-
  The two normalisations agree on finite data.

  With every entry of the seven arguments a real number, every quantity of `Cert.Spec` up to the activations is a real
  number: the linear layer is a finite sum of products of reals, the totals are finite sums of those, the count is the
  real 500000 and the stabiliser a positive real.  Then
    `Σ_n (h_n − μ)² = Σ_n h_n² − 2 μ Σ_n h_n + 500000 μ² = Σ_n h_n² − 500000 μ²`   (as `μ = Σ_n h_n / 500000`),
  so the two variances are one real, non-negative as a mean of squares; adding the positive stabiliser gives a positive
  real, whose reciprocal square root is a real; the scale is then a real and `(h − μ)·s + β = h·s + (β − μ·s)` holds in
  the reals.  The activations agree, hence the second layer's sums.
-/
import proofs.«120336_j14070312862123_1_alg».proof.Proof.Spec

noncomputable section

namespace Cert.Spec

open Idealize.ShloMosaic Idealize.ShloMosaic.ValueIdx

/-! ### The two literal words -/

/-- The count's word denotes the real number 500000: sign 0, exponent field 145, fraction field 7611392, that is
    `(2^23 + 7611392) · 2^(145 − 127 − 23) = 16000000 / 32`. -/
theorem cnt_eq : cnt = ((500000 : ℝ) : EReal) := by
  unfold cnt
  simp [Ideal.ofBits, Ideal.ieee, -EReal.coe_mul]
  norm_num

/-- The stabiliser's word denotes a positive real: sign 0, exponent field 110, fraction field 2606508, that is
    `(2^23 + 2606508) · 2^(110 − 127 − 23) = 10995116 · 2^(−40)`. -/
theorem eps_pos : ∃ e : ℝ, 0 < e ∧ eps = (e : EReal) := by
  refine ⟨(10995116 : ℝ) * (2 : ℝ) ^ (-40 : ℤ), by positivity, ?_⟩
  unfold eps
  simp [Ideal.ofBits, Ideal.ieee, -EReal.coe_mul]

/-! ### Real arithmetic inside the extended reals -/

/-- The embedding of the reals commutes with a finite sum (by induction on the index set: it commutes with `0` and
    with `+`). -/
theorem ereal_coe_sum {ι : Type*} (s : Finset ι) (f : ι → ℝ) :
    ∑ i ∈ s, ((f i : ℝ) : EReal) = ((∑ i ∈ s, f i : ℝ) : EReal) := by
  classical
  refine Finset.induction_on s (by simp) ?_
  intro a t ha ih
  rw [Finset.sum_insert ha, Finset.sum_insert ha, ih, EReal.coe_add]

/-- A real divided by a nonzero real stays real: it is the product with the reciprocal. -/
theorem div_of_real (a : ℝ) {N : ℝ} (h0 : N ≠ 0) :
    Ideal.div (a : EReal) (N : EReal) = ((a * (1 / N) : ℝ) : EReal) := by
  rw [Ideal.div_coe h0, ← EReal.coe_mul]

/-- At a positive real the reciprocal square root is the real `(√r)⁻¹`: neither corner (`r < 0`, `r = 0`) applies. -/
theorem rsqrt_of_pos {r : ℝ} (hr : 0 < r) : Ideal.rsqrt (r : EReal) = (((Real.sqrt r)⁻¹ : ℝ) : EReal) := by
  rw [Ideal.rsqrt_coe, if_neg (not_lt.mpr hr.le), if_neg hr.ne']

/-- Mean squared deviation is mean of squares less squared mean.  With `T = Σ h`, `μ = T/N` and `N` the number of
    terms: `Σ (h − μ)² = Σ h² − 2 μ T + N μ²`, and `μ T = N μ²`, so dividing by `N` gives `Σ h² / N − μ²`. -/
theorem sum_sq_dev {ι : Type*} [Fintype ι] (H : ι → ℝ) (N : ℝ) (hN : (Fintype.card ι : ℝ) = N) (h0 : N ≠ 0) :
    (∑ m, (H m - (∑ m, H m) * (1 / N)) * (H m - (∑ m, H m) * (1 / N))) * (1 / N)
      = (∑ m, H m * H m) * (1 / N) - ((∑ m, H m) * (1 / N)) * ((∑ m, H m) * (1 / N)) := by
  generalize hT : ∑ m, H m = T
  have expand : ∀ m, (H m - T * (1 / N)) * (H m - T * (1 / N))
      = H m * H m - 2 * (T * (1 / N)) * H m + (T * (1 / N)) * (T * (1 / N)) := fun m => by ring
  simp only [expand]
  rw [Finset.sum_add_distrib, Finset.sum_sub_distrib, ← Finset.mul_sum, Finset.sum_const, Finset.card_univ,
    nsmul_eq_mul, hN, hT]
  field_simp
  ring

/-- One channel's statistics, over any finite family `H` of reals with `N` members and any positive stabiliser `e`:
    the mean is a real `μ`, and both spellings of the variance, stabilised, have the SAME real reciprocal square root
    `s`.  The variance is a sum of squares times `1/N ≥ 0`, hence non-negative, so `variance + e > 0`; the first
    spelling is brought to the second by `sum_sq_dev`. -/
theorem channel_stats {ι : Type*} [Fintype ι] (H : ι → ℝ) (N e : ℝ) (hN : (Fintype.card ι : ℝ) = N)
    (hpos : 0 < N) (he : 0 < e) :
    ∃ μ s : ℝ,
      Ideal.div (∑ m, (H m : EReal)) (N : EReal) = (μ : EReal) ∧
      Ideal.rsqrt (Ideal.div (∑ m, (H m : EReal) * (H m : EReal)) (N : EReal) - (μ : EReal) * (μ : EReal)
        + (e : EReal)) = (s : EReal) ∧
      Ideal.rsqrt (Ideal.div (∑ m, ((H m : EReal) - (μ : EReal)) * ((H m : EReal) - (μ : EReal))) (N : EReal)
        + (e : EReal)) = (s : EReal) := by
  have h0 : N ≠ 0 := hpos.ne'
  have hv : 0 < (∑ m, (H m - (∑ m, H m) * (1 / N)) * (H m - (∑ m, H m) * (1 / N))) * (1 / N) + e :=
    add_pos_of_nonneg_of_pos
      (mul_nonneg (Finset.sum_nonneg fun m _ => mul_self_nonneg _) (one_div_pos.mpr hpos).le) he
  refine ⟨(∑ m, H m) * (1 / N),
    (Real.sqrt ((∑ m, (H m - (∑ m, H m) * (1 / N)) * (H m - (∑ m, H m) * (1 / N))) * (1 / N) + e))⁻¹, ?_, ?_, ?_⟩
  · rw [ereal_coe_sum, div_of_real _ h0]
  · simp only [← EReal.coe_mul]
    rw [ereal_coe_sum, div_of_real _ h0, ← EReal.coe_sub, ← EReal.coe_add, ← sum_sq_dev H N hN h0, rsqrt_of_pos hv]
  · simp only [← EReal.coe_sub, ← EReal.coe_mul]
    rw [ereal_coe_sum, div_of_real _ h0, ← EReal.coe_add, rsqrt_of_pos hv]

/-! ### The layers on real data -/

variable (x : SX.Idx → EReal) (w1 : SW1.Idx → EReal) (b1 g be : SV.Idx → EReal) (w2 : SW2.Idx → EReal) (b2 : SV.Idx → EReal)

/-- On real data the first linear layer is real everywhere: four products of reals, summed, plus a real. -/
theorem lin_is_real (hx : AllReal x) (hw1 : AllReal w1) (hb1 : AllReal b1) :
    ∃ L : Fin 500000 → Fin 288 → ℝ, ∀ n j, lin x w1 b1 n j = (L n j : EReal) := by
  choose xr hxr using hx
  choose wr hwr using hw1
  choose br hbr using hb1
  refine ⟨fun n j => (∑ k : Fin 4, xr (ix2 n k) * wr (ix2 j k)) + br (ix1 j), fun n j => ?_⟩
  unfold lin
  simp only [hxr, hwr, hbr, ← EReal.coe_mul]
  rw [ereal_coe_sum, ← EReal.coe_add]

/-- On real data the two activations agree at every point and channel.  The channel's column of the linear layer is a
    family of 500000 reals; `channel_stats` gives its real mean `μ` and the one real `s` both scales are `γ` times;
    what is left is `h·(γ s) + (β − μ·(γ s)) = (h − μ)·(γ s) + β` in the reals, under the same `max · 0`. -/
theorem actK_eq_actR (hx : AllReal x) (hw1 : AllReal w1) (hb1 : AllReal b1) (hg : AllReal g) (hbe : AllReal be)
    (n : Fin 500000) (j : Fin 288) : actK x w1 b1 g be n j = actR x w1 b1 g be n j := by
  obtain ⟨L, hL⟩ := lin_is_real x w1 b1 hx hw1 hb1
  obtain ⟨e, he, heps⟩ := eps_pos
  obtain ⟨γ, hγ⟩ := hg (ix1 j)
  obtain ⟨β, hβ⟩ := hbe (ix1 j)
  obtain ⟨μ, s, hμ, hsK, hsR⟩ := channel_stats (fun m => L m j) 500000 e (by simp) (by norm_num) he
  beta_reduce at hμ hsK hsR
  have hmean : mean x w1 b1 j = (μ : EReal) := by
    unfold mean total
    simp only [hL, cnt_eq]
    exact hμ
  have hK : scaleK x w1 b1 g j = ((γ * s : ℝ) : EReal) := by
    unfold scaleK varK totalSq
    rw [hmean]
    simp only [hL, cnt_eq, heps, hγ]
    rw [hsK, EReal.coe_mul]
  have hR : scaleR x w1 b1 g j = ((γ * s : ℝ) : EReal) := by
    unfold scaleR varR
    rw [hmean]
    simp only [hL, cnt_eq, heps, hγ]
    rw [hsR, EReal.coe_mul]
  unfold actK actR shiftK
  rw [hK, hR, hmean, hL, hβ]
  simp only [← EReal.coe_mul, ← EReal.coe_sub, ← EReal.coe_add]
  congr 2
  ring

/-- On real data the two programs' results agree, entry by entry: the second layer's sums agree term by term, the
    activations being equal (the second layer's weights and bias may be any extended reals). -/
theorem outK_eq_outR (hx : AllReal x) (hw1 : AllReal w1) (hb1 : AllReal b1) (hg : AllReal g) (hbe : AllReal be)
    (n : Fin 500000) (i : Fin 288) :
    outK x w1 b1 g be w2 b2 n i = outR x w1 b1 g be w2 b2 n i := by
  unfold outK outR
  simp only [actK_eq_actR x w1 b1 g be hx hw1 hb1 hg hbe]

end Cert.Spec

end
-- ==== Proof.Finite.lean ====
/-
  The precondition says every entry of the seven arguments is a finite number.

  It is printed as seven tests "every |entry| is below +infinity", one per argument, joined by "and".  On the extended
  reals an entry whose absolute value is below +infinity is neither +infinity nor −infinity, hence a real number; so
  from the precondition's value "true" each argument's entries are all real.

  The argument has three layers.  A conjunction of one-bit words is 1 only if both words are 1, so the value "true"
  passes to each of the seven tests.  A test is an "and" over all positions of an array of one-bit words into a result
  with a single position, and such an "and" is 1 only if the word at every position is 1.  The word at position i is
  the comparison max(x, −x) < c, where x is the entry there and c is what the single-precision word 0x7F800000
  denotes; that word has all eight exponent bits set and no fraction bit, so c is +infinity.  Finally max(x, −x) is
  +infinity both at x = +infinity and at x = −infinity, so the strict inequality leaves only the real numbers.
-/
import proofs.«120336_j14070312862123_1_alg».proof.Pre_finite_inputs
import proofs.«120336_j14070312862123_1_alg».proof.Proof.Spec
import Idealize.ShloMosaic.PureOps.Ideal
import Idealize.ShloMosaic.Lib.ReduceAll

noncomputable section

namespace Cert.Finite

open Idealize.ShloMosaic Cert.Pre_finite_inputs

/-- The shape with no axes has a single index: two of its indices are functions on an empty set of axes. -/
theorem oneIndex : Subsingleton S_.Idx := ⟨fun a b => funext fun d => d.elim0⟩

/-- The single-precision word with every exponent bit set, sign and fraction clear, denotes +infinity. -/
theorem posInf_word : Ideal.ofBits .f32 0x7F800000#32 = (⊤ : EReal) := by
  simp [Ideal.ofBits, Ideal.ieee]

/-- An extended real whose absolute value, the larger of itself and its negative, is below +infinity is a real
    number: at either infinity that larger one is +infinity. -/
theorem real_of_abs_lt_top (x : EReal) (hx : max x (-x) < ⊤) : ∃ r : ℝ, x = (r : EReal) := by
  induction x using EReal.rec with
  | bot => simp at hx
  | coe r => exact ⟨r, rfl⟩
  | top => simp at hx

/-- A truth value whose one-bit word is 1 is "true". -/
theorem true_of_bit (b : Bool) (hb : BitVec.ofBool b = 1#1) : b = true := by
  cases b
  · exact absurd hb (by decide)
  · rfl

/-- One argument's test, over any shape: if the "and" over all positions of the comparisons |entry| < +infinity,
    taken into the single-position result, is 1, then every entry is a real number.  The fact is read at one
    generic position; nothing ranges over the positions. -/
theorem allReal_of_test {S : Shape} {axes : List (Fin S.rank)} (a : FVec Ideal S .f32)
    (hb : S_.BroadcastsInDim S (![] : Fin 0 → Fin S.rank)) (hr : S.ReducesTo axes S_) (hn : 0 < S_.numel)
    (e : Host.reduce IntOp.andi
          (cmpf .olt (Host.absf a) (broadcastInDim S ![] hb (constant S_ .f32 0x7F800000#32)))
          (constantI S_ 1 1#1) hr hn ValueIdx.ix0 = 1#1) :
    Cert.Spec.AllReal a := by
  intro i
  haveI := oneIndex
  -- the comparison's word at position i is 1
  have hi := Host.reduce_andi_all _ _ hr hn ValueIdx.ix0 e i
  -- that word is the truth value of max(a i, −a i) < c, c the constant's value, the same at every position
  have hc : BitVec.ofBool (decide (max (a i) (-(a i)) < Ideal.ofBits .f32 0x7F800000#32)) = 1#1 := hi
  have hlt : max (a i) (-(a i)) < Ideal.ofBits .f32 0x7F800000#32 := of_decide_eq_true (true_of_bit _ hc)
  rw [posInf_word] at hlt
  exact real_of_abs_lt_top _ hlt

/-- Under the precondition every entry of every argument is a real number. -/
theorem allReal_of_pre [hP : Cert.Pre_finite_inputs.Facts]
    (a0 : FVec Ideal S500000x4 .f32) (a1 : FVec Ideal S288x4 .f32) (a2 a3 a4 : FVec Ideal S288 .f32)
    (a5 : FVec Ideal S288x288 .f32) (a6 : FVec Ideal S288 .f32)
    (h : Cert.Pre_finite_inputs.fn (F := Ideal) a0 a1 a2 a3 a4 a5 a6 = fun _ => 1#1) :
    Cert.Spec.AllReal a0 ∧ Cert.Spec.AllReal a1 ∧ Cert.Spec.AllReal a2 ∧ Cert.Spec.AllReal a3
      ∧ Cert.Spec.AllReal a4 ∧ Cert.Spec.AllReal a5 ∧ Cert.Spec.AllReal a6 := by
  -- the predicate's value at its single position, with the chain of operations and the six pointwise "and"s in view
  have h0 := congrFun h ValueIdx.ix0
  dsimp only [fn, fn_part1, Idealize.ShloMosaic.andi] at h0
  -- the "and"s nest to the left, ((((((t0 ∧ t1) ∧ t2) ∧ t3) ∧ t4) ∧ t5) ∧ t6): peel the last test off each time
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨allReal_of_test a0 _ _ _ e0, allReal_of_test a1 _ _ _ e1, allReal_of_test a2 _ _ _ e2,
    allReal_of_test a3 _ _ _ e3, allReal_of_test a4 _ _ _ e4, allReal_of_test a5 _ _ _ e5,
    allReal_of_test a6 _ _ _ e6⟩

end Cert.Finite

end
-- ==== Proof.lean ====
/-
  A point-cloud positional encoding: a linear layer 4 → 288 on 500000 points, a batch normalisation over the points, a
  rectifier, and a linear layer 288 → 288.  The kernel computes it in two passes over the points — one accumulating each
  channel's sum and sum of squares tile by tile, one recomputing the first layer and applying the normalisation folded into
  a scale and a shift before the second layer — where the reference computes mean and mean squared deviation directly.

  The claim's five parts.  Each program runs to the end, faults nowhere and leaves its seven arguments as launched: for the
  kernel's two readings this is the run of its four items (host operations, the statistics pass, host operations, the main
  pass) read at the arguments; for the reference it is its run with the result dropped.  The kernel's idealized reading is
  its own text, so nothing is owed for it.  And at the ideal reading the two results agree entry by entry: the kernel's is
  the specification's `outK` of the arguments, the reference's is `outR`, and on finite arguments — which the precondition
  grants — the variance as "mean of squares less squared mean" is the mean squared deviation and the scale is a real
  number, so the two normalisations are one.
-/
import proofs.«120336_j14070312862123_1_alg».proof.Defs
import proofs.«120336_j14070312862123_1_alg».proof.Proof.Gen.Kernel
import proofs.«120336_j14070312862123_1_alg».proof.Proof.Gen.KernelIdeal
import proofs.«120336_j14070312862123_1_alg».proof.Proof.Gen.ReferenceIdeal
import proofs.«120336_j14070312862123_1_alg».proof.Proof.Gen.Pre_finite_inputs
import proofs.«120336_j14070312862123_1_alg».proof.Proof.Gen.ReferenceIdeal.Run
import proofs.«120336_j14070312862123_1_alg».proof.Proof.Gen.ReferenceIdeal.Read
import proofs.«120336_j14070312862123_1_alg».proof.Proof.Run
import proofs.«120336_j14070312862123_1_alg».proof.Proof.Kept
import proofs.«120336_j14070312862123_1_alg».proof.Proof.RunBits
import proofs.«120336_j14070312862123_1_alg».proof.Proof.KeptBits
import proofs.«120336_j14070312862123_1_alg».proof.Proof.KernelValue
import proofs.«120336_j14070312862123_1_alg».proof.Proof.RefValue
import proofs.«120336_j14070312862123_1_alg».proof.Proof.Algebra
import proofs.«120336_j14070312862123_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- A buffer of the word-level program that no region scopes is among those the run reads at the end. -/
theorem Kernel_outlives (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same of the idealized program. -/
theorem KernelIdeal_outlives (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_kernel : Cert.frame_Kernel (hKernel := Cert.Kernel.Gen.facts) (hPre_finite_inputs := Cert.Pre_finite_inputs.Gen.facts) := fun m ρ _ =>
  (θ_run Cert.Kernel.defs _ _).mono (fun _ h c =>
    ⟨(h c _ (Kernel_outlives Cert.Kernel.main_arg0 (by decide))).trans (Cert.Kernel.Gen.kept_arg0 m c),
      (h c _ (Kernel_outlives Cert.Kernel.main_arg1 (by decide))).trans (Cert.Kernel.Gen.kept_arg1 m c),
      (h c _ (Kernel_outlives Cert.Kernel.main_arg2 (by decide))).trans (Cert.Kernel.Gen.kept_arg2 m c),
      (h c _ (Kernel_outlives Cert.Kernel.main_arg3 (by decide))).trans (Cert.Kernel.Gen.kept_arg3 m c),
      (h c _ (Kernel_outlives Cert.Kernel.main_arg4 (by decide))).trans (Cert.Kernel.Gen.kept_arg4 m c),
      (h c _ (Kernel_outlives Cert.Kernel.main_arg5 (by decide))).trans (Cert.Kernel.Gen.kept_arg5 m c),
      (h c _ (Kernel_outlives Cert.Kernel.main_arg6 (by decide))).trans (Cert.Kernel.Gen.kept_arg6 m c)⟩)
    (Cert.Kernel.Gen.run_all (F := Bits) m ρ)

theorem frame_kernelIdeal : Cert.frame_KernelIdeal (hKernelIdeal := Cert.KernelIdeal.Gen.facts) (hPre_finite_inputs := Cert.Pre_finite_inputs.Gen.facts) := fun m ρ _ =>
  (θ_run Cert.KernelIdeal.defs _ _).mono (fun _ h c =>
    ⟨(h c _ (KernelIdeal_outlives Cert.KernelIdeal.main_arg0 (by decide))).trans (Cert.KernelIdeal.Gen.kept_arg0 m c),
      (h c _ (KernelIdeal_outlives Cert.KernelIdeal.main_arg1 (by decide))).trans (Cert.KernelIdeal.Gen.kept_arg1 m c),
      (h c _ (KernelIdeal_outlives Cert.KernelIdeal.main_arg2 (by decide))).trans (Cert.KernelIdeal.Gen.kept_arg2 m c),
      (h c _ (KernelIdeal_outlives Cert.KernelIdeal.main_arg3 (by decide))).trans (Cert.KernelIdeal.Gen.kept_arg3 m c),
      (h c _ (KernelIdeal_outlives Cert.KernelIdeal.main_arg4 (by decide))).trans (Cert.KernelIdeal.Gen.kept_arg4 m c),
      (h c _ (KernelIdeal_outlives Cert.KernelIdeal.main_arg5 (by decide))).trans (Cert.KernelIdeal.Gen.kept_arg5 m c),
      (h c _ (KernelIdeal_outlives Cert.KernelIdeal.main_arg6 (by decide))).trans (Cert.KernelIdeal.Gen.kept_arg6 m c)⟩)
    (Cert.KernelIdeal.Gen.run_all (F := Ideal) m ρ)

theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The two idealized programs end with equal results: the kernel's `outK` and the reference's `outR` of arguments that
    agree and are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.outD (F := Ideal) m c Cert.KernelIdeal.main_v19, ?_, ?_⟩
  · exact (θ_run Cert.KernelIdeal.defs _ _).mono (fun _ h c =>
      ⟨h c _ (KernelIdeal_outlives Cert.KernelIdeal.main_v19 (by decide)),
      (h c _ (KernelIdeal_outlives Cert.KernelIdeal.main_arg0 (by decide))).trans (Cert.KernelIdeal.Gen.kept_arg0 m c),
      (h c _ (KernelIdeal_outlives Cert.KernelIdeal.main_arg1 (by decide))).trans (Cert.KernelIdeal.Gen.kept_arg1 m c),
      (h c _ (KernelIdeal_outlives Cert.KernelIdeal.main_arg2 (by decide))).trans (Cert.KernelIdeal.Gen.kept_arg2 m c),
      (h c _ (KernelIdeal_outlives Cert.KernelIdeal.main_arg3 (by decide))).trans (Cert.KernelIdeal.Gen.kept_arg3 m c),
      (h c _ (KernelIdeal_outlives Cert.KernelIdeal.main_arg4 (by decide))).trans (Cert.KernelIdeal.Gen.kept_arg4 m c),
      (h c _ (KernelIdeal_outlives Cert.KernelIdeal.main_arg5 (by decide))).trans (Cert.KernelIdeal.Gen.kept_arg5 m c),
      (h c _ (KernelIdeal_outlives Cert.KernelIdeal.main_arg6 (by decide))).trans (Cert.KernelIdeal.Gen.kept_arg6 m c)⟩)
      (Cert.KernelIdeal.Gen.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.Finite.allReal_of_pre _ _ _ _ _ _ _ (hpre c)
    funext idx
    obtain ⟨n, i, rfl⟩ : ∃ (n : Fin 500000) (i : Fin 288), idx = ix2 n i := ⟨idx 0, idx 1, eq_ix2 idx⟩
    refine (Cert.ReferenceIdeal.RefValue.res_eq_outR m' c (ix2 n i)).trans ?_
    rw [(hagree c).1, (hagree c).2.1, (hagree c).2.2.1, (hagree c).2.2.2.1, (hagree c).2.2.2.2.1, (hagree c).2.2.2.2.2.1,
      (hagree c).2.2.2.2.2.2]
    refine Eq.trans ?_ (Cert.KernelIdeal.KernelValue.result_eq m c n i).symm
    exact (Cert.Spec.outK_eq_outR _ _ _ _ _ _ _ h0 h1 h2 h3 h4 n i).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
